-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S64x50x5 : Shape := ⟨3, ![64, 50, 5]⟩
abbrev S114x1 : Shape := ⟨2, ![114, 1]⟩
abbrev S1 : Shape := ⟨1, ![1]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x50x5 : S_.BroadcastsInDim S64x50x5 (![] : Fin 0 → Fin S64x50x5.rank)
  reducesTo_S64x50x5_S_d0_1_2 : S64x50x5.ReducesTo [0, 1, 2] S_
  bcast_S_S114x1 : S_.BroadcastsInDim S114x1 (![] : Fin 0 → Fin S114x1.rank)
  reducesTo_S114x1_S_d0_1 : S114x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S114x1 .f32) (main_arg15 : FVec F S1 .f32) (main_v63 : IVec S_ 1) (main_v67 : IVec S_ 1) : IVec S_ 1 :=
  let main_v68 : IVec S_ 1 := andi main_v63 main_v67
  let main_v69 : FVec F S114x1 .f32 := Host.absf main_arg14
  let main_cst_26 : FVec F S_ .f32 := constant S_ .f32 0x7F800000#32
  let main_v70 : FVec F S114x1 .f32 := broadcastInDim S114x1 ![] bcast_S_S114x1 main_cst_26
  let main_v71 : IVec S114x1 1 := cmpf .olt main_v69 main_v70
  let main_c_27 : IVec S_ 1 := constantI S_ 1 1#1
  let main_v72 : IVec S_ 1 := (fun x v => Host.reduce IntOp.andi x v reducesTo_S114x1_S_d0_1 h_S_) main_v71 main_c_27
  let main_v73 : IVec S_ 1 := andi main_v68 main_v72
  let main_v74 : FVec F S1 .f32 := Host.absf main_arg15
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg11 : FVec F S64x64 .f32) (main_arg12 : FVec F S64 .f32) (main_arg13 : FVec F S64x50x5 .f32) (main_arg14 : FVec F S114x1 .f32) (main_arg15 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg11
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x50x5 .f32 := Host.absf main_arg13
  let main_cst_24 : FVec F S_ .f32 := constant S_ .f32 0x7F800000#32
  let main_v65 : FVec F S64x50x5 .f32 := broadcastInDim S64x50x5 ![] bcast_S_S64x50x5 main_cst_24
  let main_v66 : IVec S64x50x5 1 := cmpf .olt main_v64 main_v65
  let main_c_25 : IVec S_ 1 := constantI S_ 1 1#1
  let main_v67 : IVec S_ 1 := (fun x v => Host.reduce IntOp.andi x v reducesTo_S64x50x5_S_d0_1_2 h_S_) main_v66 main_c_25
  fn_part4 (F := F) main_arg14 main_arg15 main_v63 main_v67

def fn_part2 {F : FTy → Type} [FloatOps F] (main_arg7 : FVec F S128x64 .f32) (main_arg8 : FVec F S64 .f32) (main_arg9 : FVec F S64x64 .f32) (main_arg10 : FVec F S64 .f32) (main_arg11 : FVec F S64x64 .f32) (main_arg12 : FVec F S64 .f32) (main_arg13 : FVec F S64x50x5 .f32) (main_arg14 : FVec F S114x1 .f32) (main_arg15 : FVec F S1 .f32) (main_v33 : IVec S_ 1) : IVec S_ 1 :=
  let main_v34 : FVec F S128x64 .f32 := Host.absf main_arg7
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg9
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_arg15 main_v48 main_v49 main_v50

def fn_part1 {F : FTy → Type} [FloatOps F] (main_arg4 : FVec F S128 .f32) (main_arg5 : FVec F S128 .f32) (main_arg6 : FVec F S128 .f32) (main_arg7 : FVec F S128x64 .f32) (main_arg8 : FVec F S64 .f32) (main_arg9 : FVec F S64x64 .f32) (main_arg10 : FVec F S64 .f32) (main_arg11 : FVec F S64x64 .f32) (main_arg12 : FVec F S64 .f32) (main_arg13 : FVec F S64x50x5 .f32) (main_arg14 : FVec F S114x1 .f32) (main_arg15 : FVec F S1 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S1024x128 .f32) (main_arg1 : FVec F S128x256 .f32) (main_arg2 : FVec F S256 .f32) (main_arg3 : FVec F S256x128 .f32) (main_arg4 : FVec F S128 .f32) (main_arg5 : FVec F S128 .f32) (main_arg6 : FVec F S128 .f32) (main_arg7 : FVec F S128x64 .f32) (main_arg8 : FVec F S64 .f32) (main_arg9 : FVec F S64x64 .f32) (main_arg10 : FVec F S64 .f32) (main_arg11 : FVec F S64x64 .f32) (main_arg12 : FVec F S64 .f32) (main_arg13 : FVec F S64x50x5 .f32) (main_arg14 : FVec F S114x1 .f32) (main_arg15 : FVec F S1 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S1024x128 : Shape := ⟨2, ![1024, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S64x50x5 : Shape := ⟨3, ![64, 50, 5]⟩
abbrev S114x1 : Shape := ⟨2, ![114, 1]⟩
abbrev S1 : Shape := ⟨1, ![1]⟩
abbrev S64x250 : Shape := ⟨2, ![64, 250]⟩
abbrev S1024x64 : Shape := ⟨2, ![1024, 64]⟩
abbrev S1024x250 : Shape := ⟨2, ![1024, 250]⟩
abbrev S1024x256 : Shape := ⟨2, ![1024, 256]⟩
abbrev S1x256 : Shape := ⟨2, ![1, 256]⟩
abbrev S1x128 : Shape := ⟨2, ![1, 128]⟩
abbrev S1x64 : Shape := ⟨2, ![1, 64]⟩
abbrev S1024x50x5 : Shape := ⟨3, ![1024, 50, 5]⟩
abbrev S64x1 : Shape := ⟨2, ![64, 1]⟩
abbrev S50x1 : Shape := ⟨2, ![50, 1]⟩
abbrev S1x1 : Shape := ⟨2, ![1, 1]⟩
abbrev S1024x1 : Shape := ⟨2, ![1024, 1]⟩
abbrev S128x50x5 : Shape := ⟨3, ![128, 50, 5]⟩
abbrev S128x1 : Shape := ⟨2, ![128, 1]⟩
abbrev S128x50 : Shape := ⟨2, ![128, 50]⟩
abbrev S128x128x50 : Shape := ⟨3, ![128, 128, 50]⟩
abbrev S128x50x1 : Shape := ⟨3, ![128, 50, 1]⟩
abbrev S128x1x50 : Shape := ⟨3, ![128, 1, 50]⟩
abbrev S1x128x50 : Shape := ⟨3, ![1, 128, 50]⟩
abbrev S1024 : Shape := ⟨1, ![1024]⟩

abbrev nBuf : Space → Nat
  | .hbm => 25
  | .vmem => 28
  | .smem => 0
  | _ => 0

abbrev bufTy : (tb : Table) → Fin (tcTables nBuf tb) → BufTy
  | .hbm, ⟨0, _⟩ => ⟨S1024x128, .f32⟩
  | .hbm, ⟨1, _⟩ => ⟨S128x256, .f32⟩
  | .hbm, ⟨2, _⟩ => ⟨S256, .f32⟩
  | .hbm, ⟨3, _⟩ => ⟨S256x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x50x5, .f32⟩
  | .hbm, ⟨14, _⟩ => ⟨S114x1, .f32⟩
  | .hbm, ⟨15, _⟩ => ⟨S1, .f32⟩
  | .hbm, ⟨16, _⟩ => ⟨S64x250, .f32⟩
  | .hbm, ⟨17, _⟩ => ⟨S1024x64, .f32⟩
  | .hbm, ⟨18, _⟩ => ⟨S1024x250, .f32⟩
  | .hbm, ⟨19, _⟩ => ⟨S1024x50x5, .f32⟩
  | .hbm, ⟨20, _⟩ => ⟨S64x1, .f32⟩
  | .hbm, ⟨21, _⟩ => ⟨S50x1, .f32⟩
  | .hbm, ⟨22, _⟩ => ⟨S1x1, .f32⟩
  | .hbm, ⟨23, _⟩ => ⟨S1024x1, .f32⟩
  | .hbm, ⟨24, _⟩ => ⟨S1024, .f32⟩
  | .local _ .vmem, ⟨0, _⟩ => ⟨S1024x128, .f32⟩
  | .local _ .vmem, ⟨1, _⟩ => ⟨S128x256, .f32⟩
  | .local _ .vmem, ⟨2, _⟩ => ⟨S256, .f32⟩
  | .local _ .vmem, ⟨3, _⟩ => ⟨S256x128, .f32⟩
  | .local _ .vmem, ⟨4, _⟩ => ⟨S128, .f32⟩
  | .local _ .vmem, ⟨5, _⟩ => ⟨S128, .f32⟩
  | .local _ .vmem, ⟨6, _⟩ => ⟨S128, .f32⟩
  | .local _ .vmem, ⟨7, _⟩ => ⟨S128x64, .f32⟩
  | .local _ .vmem, ⟨8, _⟩ => ⟨S64, .f32⟩
  | .local _ .vmem, ⟨9, _⟩ => ⟨S64x64, .f32⟩
  | .local _ .vmem, ⟨10, _⟩ => ⟨S64, .f32⟩
  | .local _ .vmem, ⟨11, _⟩ => ⟨S64x64, .f32⟩
  | .local _ .vmem, ⟨12, _⟩ => ⟨S64, .f32⟩
  | .local _ .vmem, ⟨13, _⟩ => ⟨S64x250, .f32⟩
  | .local _ .vmem, ⟨14, _⟩ => ⟨S1024x64, .f32⟩
  | .local _ .vmem, ⟨15, _⟩ => ⟨S1024x250, .f32⟩
  | .local _ .vmem, ⟨16, _⟩ => ⟨S128x50x5, .f32⟩
  | .local _ .vmem, ⟨17, _⟩ => ⟨S128x50x5, .f32⟩
  | .local _ .vmem, ⟨18, _⟩ => ⟨S128x50x5, .f32⟩
  | .local _ .vmem, ⟨19, _⟩ => ⟨S128x50x5, .f32⟩
  | .local _ .vmem, ⟨20, _⟩ => ⟨S128x64, .f32⟩
  | .local _ .vmem, ⟨21, _⟩ => ⟨S128x64, .f32⟩
  | .local _ .vmem, ⟨22, _⟩ => ⟨S64x1, .f32⟩
  | .local _ .vmem, ⟨23, _⟩ => ⟨S50x1, .f32⟩
  | .local _ .vmem, ⟨24, _⟩ => ⟨S1x1, .f32⟩
  | .local _ .vmem, ⟨25, _⟩ => ⟨S128x1, .f32⟩
  | .local _ .vmem, ⟨26, _⟩ => ⟨S128x1, .f32⟩
  | .local _ .vmem, ⟨27, _⟩ => ⟨S128x50, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1_0 : Ref sig .tc := ⟨.hbm, 17, rfl⟩
abbrev main_v1_1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg6_1 : Ref sig .tc := ⟨.vmem, 26, rfl⟩
abbrev cc1_scratch0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem6_1 : DmaSem sig := 26

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x250 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x250 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v68 : BitVec 1 := Scalar.cmpi .eq arg1 c7_i32
  let v69 : BitVec 32 := Scalar.extui v68
  let c0_i32_32 : BitVec 32 := 0#32
  let v70 : BitVec 1 := Scalar.cmpi .ne v69 c0_i32_32
  v70

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S128x50x5 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S128x50x5 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S128x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S64x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S50x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S128x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  shapeCasts_S64x50x5_S64x250 : S64x50x5.ShapeCasts S64x250
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  reduces_S1024x128_S128 : S1024x128.Reduces [0] S128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S1024x64 : S1x64.Broadcasts S1024x64
  inb_S64x64_S64x64_0_0 : ∀ a, (![0, 0] : Fin 2 → Nat) a + S64x64.size a ≤ S64x64.size a
  h_S64x64 : 0 < S64x64.numel
  inb_S64x250_S64x250_0_0 : ∀ a, (![0, 0] : Fin 2 → Nat) a + S64x250.size a ≤ S64x250.size a
  h_S64x250 : 0 < S64x250.numel
  shapeCasts_S64x250_S64x250 : S64x250.ShapeCasts S64x250
  inb_S1024x64_S1024x64_0_0 : ∀ a, (![0, 0] : Fin 2 → Nat) a + S1024x64.size a ≤ S1024x64.size a
  h_S1024x64 : 0 < S1024x64.numel
  inb_S1024x250_S1024x250_0_0 : ∀ a, (![0, 0] : Fin 2 → Nat) a + S1024x250.size a ≤ S1024x250.size a
  h_S1024x250 : 0 < S1024x250.numel
  shapeCasts_S1024x250_S1024x50x5 : S1024x250.ShapeCasts S1024x50x5
  slices_S114x1_S64x1_0_0 : S114x1.Slices ![0, 0] S64x1
  slices_S114x1_S50x1_64_0 : S114x1.Slices ![64, 0] S50x1
  shapeCasts_S1_S1x1 : S1.ShapeCasts S1x1
  inb_S128x50_S128x50_0_0 : ∀ a, (![0, 0] : Fin 2 → Nat) a + S128x50.size a ≤ S128x50.size a
  h_S128x50 : 0 < S128x50.numel
  shapeCasts_S128x50_S128x50 : S128x50.ShapeCasts S128x50
  inb_S128x50x5_S128x50x1_0_0_0 : ∀ a, (![0, 0, 0] : Fin 3 → Nat) a + S128x50x1.size a ≤ S128x50x5.size a
  h_S128x50x1 : 0 < S128x50x1.numel
  shapeCasts_S128x50x1_S128x50 : S128x50x1.ShapeCasts S128x50
  shapeCasts_S128x50_S128x1x50 : S128x50.ShapeCasts S128x1x50
  shapeCasts_S128x50_S1x128x50 : S128x50.ShapeCasts S1x128x50
  broadcasts_S128x1x50_S128x128x50 : S128x1x50.Broadcasts S128x128x50
  broadcasts_S1x128x50_S128x128x50 : S1x128x50.Broadcasts S128x128x50
  inb_S128x50x5_S128x50x1_0_0_1 : ∀ a, (![0, 0, 1] : Fin 3 → Nat) a + S128x50x1.size a ≤ S128x50x5.size a
  inb_S128x50x5_S128x50x1_0_0_2 : ∀ a, (![0, 0, 2] : Fin 3 → Nat) a + S128x50x1.size a ≤ S128x50x5.size a
  inb_S128x50x5_S128x50x1_0_0_3 : ∀ a, (![0, 0, 3] : Fin 3 → Nat) a + S128x50x1.size a ≤ S128x50x5.size a
  inb_S128x50x5_S128x50x1_0_0_4 : ∀ a, (![0, 0, 4] : Fin 3 → Nat) a + S128x50x1.size a ≤ S128x50x5.size a
  reduces_S128x128x50_S128x50 : S128x128x50.Reduces [1] S128x50
  shapeCasts_S128x64_S128x64 : S128x64.ShapeCasts S128x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S50x1_S50x1_0_0 : ∀ a, (![0, 0] : Fin 2 → Nat) a + S50x1.size a ≤ S50x1.size a
  h_S50x1 : 0 < S50x1.numel
  shapeCasts_S50x1_S50x1 : S50x1.ShapeCasts S50x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S128x1 : S1x1.Broadcasts S128x1
  inb_S128x1_S128x1_0_0 : ∀ a, (![0, 0] : Fin 2 → Nat) a + S128x1.size a ≤ S128x1.size a
  h_S128x1 : 0 < S128x1.numel
  shapeCasts_S1024x1_S1024 : S1024x1.ShapeCasts S1024
  dot_S1024x128_S128x256_S1024x256_1_0_0_1_n_n_wf : DotDims.WF S1024x128 S128x256 S1024x256 [1] [0] [0] [1] [] []
  dot_S1024x256_S256x128_S1024x128_1_0_0_1_n_n_wf : DotDims.WF S1024x256 S256x128 S1024x128 [1] [0] [0] [1] [] []
  dot_S1024x128_S128x64_S1024x64_1_0_0_1_n_n_wf : DotDims.WF S1024x128 S128x64 S1024x64 [1] [0] [0] [1] [] []
  dot_S1024x64_S64x64_S1024x64_1_0_0_1_n_n_wf : DotDims.WF S1024x64 S64x64 S1024x64 [1] [0] [0] [1] [] []
  dot_S1024x64_S64x250_S1024x250_1_0_0_1_n_n_wf : DotDims.WF S1024x64 S64x250 S1024x250 [1] [0] [0] [1] [] []
  dot_S128x64_S64x1_S128x1_1_0_0_1_n_n_wf : DotDims.WF S128x64 S64x1 S128x1 [1] [0] [0] [1] [] []
  dot_S128x50_S50x1_S128x1_1_0_0_1_n_n_wf : DotDims.WF S128x50 S50x1 S128x1 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S1024x128.size a
  hwx0_0 : ∀ i : grid0.Coords, EltTy.bits .f32 = 32 ∨ (Rect.block (s := S1024x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .f32 = 32 ∨ (Rect.block (s := S128x64) S128x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .f32 = 32 ∨ (Rect.block (s := S64x64) S64x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64.size a ≤ S64.size a
  hwx0_10 : ∀ i : grid0.Coords, EltTy.bits .f32 = 32 ∨ (Rect.block (s := S64) S64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x64.size a ≤ S64x64.size a
  hwx0_11 : ∀ i : grid0.Coords, EltTy.bits .f32 = 32 ∨ (Rect.block (s := S64x64) S64x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64.size a ≤ S64.size a
  hwx0_12 : ∀ i : grid0.Coords, EltTy.bits .f32 = 32 ∨ (Rect.block (s := S64) S64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64x250.size a ≤ S64x250.size a
  hwx0_13 : ∀ i : grid0.Coords, EltTy.bits .f32 = 32 ∨ (Rect.block (s := S64x250) S64x250.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1024x64.size a ≤ S1024x64.size a
  hwx0_14 : ∀ i : grid0.Coords, EltTy.bits .f32 = 32 ∨ (Rect.block (s := S1024x64) S1024x64.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1024x250.size a ≤ S1024x250.size a
  hwx0_15 : ∀ i : grid0.Coords, EltTy.bits .f32 = 32 ∨ (Rect.block (s := S1024x250) S1024x250.size (cc0_transform_15 i) (hinb0_15 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x50x5.size a ≤ S1024x50x5.size a
  hwx1_0 : ∀ i : grid1.Coords, EltTy.bits .f32 = 32 ∨ (Rect.block (s := S1024x50x5) S128x50x5.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x50x5.size a ≤ S1024x50x5.size a
  hwx1_1 : ∀ i : grid1.Coords, EltTy.bits .f32 = 32 ∨ (Rect.block (s := S1024x50x5) S128x50x5.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S1024x64.size a
  hwx1_2 : ∀ i : grid1.Coords, EltTy.bits .f32 = 32 ∨ (Rect.block (s := S1024x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x1.size a ≤ S64x1.size a
  hwx1_3 : ∀ i : grid1.Coords, EltTy.bits .f32 = 32 ∨ (Rect.block (s := S64x1) S64x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S50x1.size a ≤ S50x1.size a
  hwx1_4 : ∀ i : grid1.Coords, EltTy.bits .f32 = 32 ∨ (Rect.block (s := S50x1) S50x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S128x1.size a ≤ S1024x1.size a
  hwx1_6 : ∀ i : grid1.Coords, EltTy.bits .f32 = 32 ∨ (Rect.block (s := S1024x1) S128x1.size (cc1_transform_6 i) (hinb1_6 i)).WholeWords (EltTy.packing .f32)

variable [Facts₀]

def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S64x250_S1024x250_1_0_0_1_n_n : DotDims S1024x64 S64x250 S1024x250 where
  lhsContracting := [1]
  rhsContracting := [0]
  lhsNonContracting := [0]
  rhsNonContracting := [1]
  lhsBatch := []
  rhsBatch := []
  wf := dot_S1024x64_S64x250_S1024x250_1_0_0_1_n_n_wf
def dot_S128x64_S64x1_S128x1_1_0_0_1_n_n : DotDims S128x64 S64x1 S128x1 where
  lhsContracting := [1]
  rhsContracting := [0]
  lhsNonContracting := [0]
  rhsNonContracting := [1]
  lhsBatch := []
  rhsBatch := []
  wf := dot_S128x64_S64x1_S128x1_1_0_0_1_n_n_wf
def dot_S128x50_S50x1_S128x1_1_0_0_1_n_n : DotDims S128x50 S50x1 S128x1 where
  lhsContracting := [1]
  rhsContracting := [0]
  lhsNonContracting := [0]
  rhsNonContracting := [1]
  lhsBatch := []
  rhsBatch := []
  wf := dot_S128x50_S50x1_S128x1_1_0_0_1_n_n_wf

abbrev win0_0 : Pipeline.Window sig grid0 :=
  Pipeline.Window.ofSpec (Memref.whole main_arg0) S1024x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S64x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v0) S64x250.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v1_0) S1024x64.size cc0_transform_14 reads0_14 true true 1 stage0_14 sem0_14
    hrank0 hreads0_14 hinb0_14 nbuf0_14 (Memref.isWhole_whole _) hwx0_14 hstage0_14

abbrev win0_15 : Pipeline.Window sig grid0 :=
  Pipeline.Window.ofSpec (Memref.whole main_v1_1) S1024x250.size cc0_transform_15 reads0_15 true true 1 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev win1_0 : Pipeline.Window sig grid1 :=
  Pipeline.Window.ofSpec (Memref.whole main_v2) S128x50x5.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S128x50x5.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_0) S128x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S64x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S50x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v6) S128x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S1024x128 : Shape := ⟨2, ![1024, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S64x50x5 : Shape := ⟨3, ![64, 50, 5]⟩
abbrev S114x1 : Shape := ⟨2, ![114, 1]⟩
abbrev S1 : Shape := ⟨1, ![1]⟩
abbrev S1024x256 : Shape := ⟨2, ![1024, 256]⟩
abbrev S1x256 : Shape := ⟨2, ![1, 256]⟩
abbrev S_ : Shape := ⟨0, ![]⟩
abbrev S1x128 : Shape := ⟨2, ![1, 128]⟩
abbrev S1024x64 : Shape := ⟨2, ![1024, 64]⟩
abbrev S1x64 : Shape := ⟨2, ![1, 64]⟩
abbrev S64x250 : Shape := ⟨2, ![64, 250]⟩
abbrev S1024x250 : Shape := ⟨2, ![1024, 250]⟩
abbrev S1024x50x5 : Shape := ⟨3, ![1024, 50, 5]⟩
abbrev S1024x1x50x5 : Shape := ⟨4, ![1024, 1, 50, 5]⟩
abbrev S1x1024x50x5 : Shape := ⟨4, ![1, 1024, 50, 5]⟩
abbrev S1024x1024x50x5 : Shape := ⟨4, ![1024, 1024, 50, 5]⟩
abbrev S1024x1024x50 : Shape := ⟨3, ![1024, 1024, 50]⟩
abbrev S1024x50 : Shape := ⟨2, ![1024, 50]⟩
abbrev S1024x114 : Shape := ⟨2, ![1024, 114]⟩
abbrev S1024x1 : Shape := ⟨2, ![1024, 1]⟩
abbrev S1x1 : Shape := ⟨2, ![1, 1]⟩
abbrev S1024 : Shape := ⟨1, ![1024]⟩

abbrev nBuf : Space → Nat
  | .hbm => 112
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S128x256, .f32⟩
  | .hbm, ⟨2, _⟩ => ⟨S256, .f32⟩
  | .hbm, ⟨3, _⟩ => ⟨S256x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x50x5, .f32⟩
  | .hbm, ⟨14, _⟩ => ⟨S114x1, .f32⟩
  | .hbm, ⟨15, _⟩ => ⟨S1, .f32⟩
  | .hbm, ⟨16, _⟩ => ⟨S1024x256, .f32⟩
  | .hbm, ⟨17, _⟩ => ⟨S1x256, .f32⟩
  | .hbm, ⟨18, _⟩ => ⟨S1024x256, .f32⟩
  | .hbm, ⟨19, _⟩ => ⟨S1024x256, .f32⟩
  | .hbm, ⟨20, _⟩ => ⟨S_, .f32⟩
  | .hbm, ⟨21, _⟩ => ⟨S1024x256, .f32⟩
  | .hbm, ⟨22, _⟩ => ⟨S1024x256, .i1⟩
  | .hbm, ⟨23, _⟩ => ⟨S_, .f32⟩
  | .hbm, ⟨24, _⟩ => ⟨S1024x256, .f32⟩
  | .hbm, ⟨25, _⟩ => ⟨S1024x256, .f32⟩
  | .hbm, ⟨26, _⟩ => ⟨S1024x256, .f32⟩
  | .hbm, ⟨27, _⟩ => ⟨S1024x128, .f32⟩
  | .hbm, ⟨28, _⟩ => ⟨S1x128, .f32⟩
  | .hbm, ⟨29, _⟩ => ⟨S1024x128, .f32⟩
  | .hbm, ⟨30, _⟩ => ⟨S1024x128, .f32⟩
  | .hbm, ⟨31, _⟩ => ⟨S_, .f32⟩
  | .hbm, ⟨32, _⟩ => ⟨S128, .f32⟩
  | .hbm, ⟨33, _⟩ => ⟨S_, .f32⟩
  | .hbm, ⟨34, _⟩ => ⟨S128, .f32⟩
  | .hbm, ⟨35, _⟩ => ⟨S128, .f32⟩
  | .hbm, ⟨36, _⟩ => ⟨S1x128, .f32⟩
  | .hbm, ⟨37, _⟩ => ⟨S1024x128, .f32⟩
  | .hbm, ⟨38, _⟩ => ⟨S1024x128, .f32⟩
  | .hbm, ⟨39, _⟩ => ⟨S1024x128, .f32⟩
  | .hbm, ⟨40, _⟩ => ⟨S_, .f32⟩
  | .hbm, ⟨41, _⟩ => ⟨S128, .f32⟩
  | .hbm, ⟨42, _⟩ => ⟨S_, .f32⟩
  | .hbm, ⟨43, _⟩ => ⟨S128, .f32⟩
  | .hbm, ⟨44, _⟩ => ⟨S128, .f32⟩
  | .hbm, ⟨45, _⟩ => ⟨S1x128, .f32⟩
  | .hbm, ⟨46, _⟩ => ⟨S1024x128, .f32⟩
  | .hbm, ⟨47, _⟩ => ⟨S1024x128, .f32⟩
  | .hbm, ⟨48, _⟩ => ⟨S_, .f32⟩
  | .hbm, ⟨49, _⟩ => ⟨S128, .f32⟩
  | .hbm, ⟨50, _⟩ => ⟨S128, .f32⟩
  | .hbm, ⟨51, _⟩ => ⟨S128, .f32⟩
  | .hbm, ⟨52, _⟩ => ⟨S1x128, .f32⟩
  | .hbm, ⟨53, _⟩ => ⟨S1024x128, .f32⟩
  | .hbm, ⟨54, _⟩ => ⟨S1024x128, .f32⟩
  | .hbm, ⟨55, _⟩ => ⟨S1x128, .f32⟩
  | .hbm, ⟨56, _⟩ => ⟨S1024x128, .f32⟩
  | .hbm, ⟨57, _⟩ => ⟨S1024x128, .f32⟩
  | .hbm, ⟨58, _⟩ => ⟨S1x128, .f32⟩
  | .hbm, ⟨59, _⟩ => ⟨S1024x128, .f32⟩
  | .hbm, ⟨60, _⟩ => ⟨S1024x128, .f32⟩
  | .hbm, ⟨61, _⟩ => ⟨S_, .f32⟩
  | .hbm, ⟨62, _⟩ => ⟨S1024x128, .f32⟩
  | .hbm, ⟨63, _⟩ => ⟨S1024x128, .i1⟩
  | .hbm, ⟨64, _⟩ => ⟨S_, .f32⟩
  | .hbm, ⟨65, _⟩ => ⟨S1024x128, .f32⟩
  | .hbm, ⟨66, _⟩ => ⟨S1024x128, .f32⟩
  | .hbm, ⟨67, _⟩ => ⟨S1024x128, .f32⟩
  | .hbm, ⟨68, _⟩ => ⟨S1024x64, .f32⟩
  | .hbm, ⟨69, _⟩ => ⟨S1x64, .f32⟩
  | .hbm, ⟨70, _⟩ => ⟨S1024x64, .f32⟩
  | .hbm, ⟨71, _⟩ => ⟨S1024x64, .f32⟩
  | .hbm, ⟨72, _⟩ => ⟨S_, .f32⟩
  | .hbm, ⟨73, _⟩ => ⟨S1024x64, .f32⟩
  | .hbm, ⟨74, _⟩ => ⟨S1024x64, .i1⟩
  | .hbm, ⟨75, _⟩ => ⟨S_, .f32⟩
  | .hbm, ⟨76, _⟩ => ⟨S1024x64, .f32⟩
  | .hbm, ⟨77, _⟩ => ⟨S1024x64, .f32⟩
  | .hbm, ⟨78, _⟩ => ⟨S1024x64, .f32⟩
  | .hbm, ⟨79, _⟩ => ⟨S1024x64, .f32⟩
  | .hbm, ⟨80, _⟩ => ⟨S1x64, .f32⟩
  | .hbm, ⟨81, _⟩ => ⟨S1024x64, .f32⟩
  | .hbm, ⟨82, _⟩ => ⟨S1024x64, .f32⟩
  | .hbm, ⟨83, _⟩ => ⟨S1024x64, .f32⟩
  | .hbm, ⟨84, _⟩ => ⟨S1024x64, .f32⟩
  | .hbm, ⟨85, _⟩ => ⟨S1x64, .f32⟩
  | .hbm, ⟨86, _⟩ => ⟨S1024x64, .f32⟩
  | .hbm, ⟨87, _⟩ => ⟨S1024x64, .f32⟩
  | .hbm, ⟨88, _⟩ => ⟨S64x250, .f32⟩
  | .hbm, ⟨89, _⟩ => ⟨S1024x250, .f32⟩
  | .hbm, ⟨90, _⟩ => ⟨S1024x50x5, .f32⟩
  | .hbm, ⟨91, _⟩ => ⟨S1024x1x50x5, .f32⟩
  | .hbm, ⟨92, _⟩ => ⟨S1x1024x50x5, .f32⟩
  | .hbm, ⟨93, _⟩ => ⟨S1024x1024x50x5, .f32⟩
  | .hbm, ⟨94, _⟩ => ⟨S1024x1024x50x5, .f32⟩
  | .hbm, ⟨95, _⟩ => ⟨S1024x1024x50x5, .f32⟩
  | .hbm, ⟨96, _⟩ => ⟨S1024x1024x50x5, .f32⟩
  | .hbm, ⟨97, _⟩ => ⟨S_, .f32⟩
  | .hbm, ⟨98, _⟩ => ⟨S1024x1024x50, .f32⟩
  | .hbm, ⟨99, _⟩ => ⟨S1024x1024x50, .f32⟩
  | .hbm, ⟨100, _⟩ => ⟨S1024x1024x50, .f32⟩
  | .hbm, ⟨101, _⟩ => ⟨S_, .f32⟩
  | .hbm, ⟨102, _⟩ => ⟨S1024x50, .f32⟩
  | .hbm, ⟨103, _⟩ => ⟨S_, .f32⟩
  | .hbm, ⟨104, _⟩ => ⟨S1024x50, .f32⟩
  | .hbm, ⟨105, _⟩ => ⟨S1024x50, .f32⟩
  | .hbm, ⟨106, _⟩ => ⟨S1024x114, .f32⟩
  | .hbm, ⟨107, _⟩ => ⟨S1024x1, .f32⟩
  | .hbm, ⟨108, _⟩ => ⟨S1x1, .f32⟩
  | .hbm, ⟨109, _⟩ => ⟨S1024x1, .f32⟩
  | .hbm, ⟨110, _⟩ => ⟨S1024x1, .f32⟩
  | .hbm, ⟨111, _⟩ => ⟨S1024, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_1 : Ref sig .tc := ⟨.hbm, 31, rfl⟩
abbrev main_v13 : Ref sig .tc := ⟨.hbm, 32, rfl⟩
abbrev main_cst_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_3 : Ref sig .tc := ⟨.hbm, 40, rfl⟩
abbrev main_v20 : Ref sig .tc := ⟨.hbm, 41, rfl⟩
abbrev main_cst_4 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_6 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_8 : Ref sig .tc := ⟨.hbm, 72, rfl⟩
abbrev main_v47 : Ref sig .tc := ⟨.hbm, 73, rfl⟩
abbrev main_v48 : Ref sig .tc := ⟨.hbm, 74, rfl⟩
abbrev main_cst_9 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_10 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_11 : Ref sig .tc := ⟨.hbm, 101, rfl⟩
abbrev main_v73 : Ref sig .tc := ⟨.hbm, 102, rfl⟩
abbrev main_cst_12 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  bcast_S_S1024x256 : S_.BroadcastsInDim S1024x256 (![] : Fin 0 → Fin S1024x256.rank)
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  reducesTo_S1024x128_S128_d0 : S1024x128.ReducesTo [0] S128
  h_S_ : 0 < S_.numel
  bcast_S_S128 : S_.BroadcastsInDim S128 (![] : Fin 0 → Fin S128.rank)
  bcast_S_S1024x128 : S_.BroadcastsInDim S1024x128 (![] : Fin 0 → Fin S1024x128.rank)
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  bcast_S_S1024x64 : S_.BroadcastsInDim S1024x64 (![] : Fin 0 → Fin S1024x64.rank)
  shapeCasts_S64x50x5_S64x250 : S64x50x5.ShapeCasts S64x250
  shapeCasts_S1024x250_S1024x50x5 : S1024x250.ShapeCasts S1024x50x5
  bcast_S1024x50x5_S1024x1x50x5_0_2_3 : S1024x50x5.BroadcastsInDim S1024x1x50x5 (![0, 2, 3] : Fin 3 → Fin S1024x1x50x5.rank)
  bcast_S1024x50x5_S1x1024x50x5_1_2_3 : S1024x50x5.BroadcastsInDim S1x1024x50x5 (![1, 2, 3] : Fin 3 → Fin S1x1024x50x5.rank)
  bcast_S1024x1x50x5_S1024x1024x50x5_0_1_2_3 : S1024x1x50x5.BroadcastsInDim S1024x1024x50x5 (![0, 1, 2, 3] : Fin 4 → Fin S1024x1024x50x5.rank)
  bcast_S1x1024x50x5_S1024x1024x50x5_0_1_2_3 : S1x1024x50x5.BroadcastsInDim S1024x1024x50x5 (![0, 1, 2, 3] : Fin 4 → Fin S1024x1024x50x5.rank)
  reducesTo_S1024x1024x50x5_S1024x1024x50_d3 : S1024x1024x50x5.ReducesTo [3] S1024x1024x50
  reducesTo_S1024x1024x50_S1024x50_d0 : S1024x1024x50.ReducesTo [0] S1024x50
  bcast_S_S1024x50 : S_.BroadcastsInDim S1024x50 (![] : Fin 0 → Fin S1024x50.rank)
  concatenates_S1024x64_S1024x50_S1024x114_d1 : Shape.Concatenates [S1024x64, S1024x50] S1024x114 1
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  shapeCasts_S1024x1_S1024 : S1024x1.ShapeCasts S1024
  dot_S1024x128_S128x256_S1024x256_1_0_0_1_n_n_wf : DotDims.WF S1024x128 S128x256 S1024x256 [1] [0] [0] [1] [] []
  dot_S1024x256_S256x128_S1024x128_1_0_0_1_n_n_wf : DotDims.WF S1024x256 S256x128 S1024x128 [1] [0] [0] [1] [] []
  dot_S1024x128_S128x64_S1024x64_1_0_0_1_n_n_wf : DotDims.WF S1024x128 S128x64 S1024x64 [1] [0] [0] [1] [] []
  dot_S1024x64_S64x64_S1024x64_1_0_0_1_n_n_wf : DotDims.WF S1024x64 S64x64 S1024x64 [1] [0] [0] [1] [] []
  dot_S1024x64_S64x250_S1024x250_1_0_0_1_n_n_wf : DotDims.WF S1024x64 S64x250 S1024x250 [1] [0] [0] [1] [] []
  dot_S1024x114_S114x1_S1024x1_1_0_0_1_n_n_wf : DotDims.WF S1024x114 S114x1 S1024x1 [1] [0] [0] [1] [] []

variable [Facts₀]

def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S64x250_S1024x250_1_0_0_1_n_n : DotDims S1024x64 S64x250 S1024x250 where
  lhsContracting := [1]
  rhsContracting := [0]
  lhsNonContracting := [0]
  rhsNonContracting := [1]
  lhsBatch := []
  rhsBatch := []
  wf := dot_S1024x64_S64x250_S1024x250_1_0_0_1_n_n_wf
def dot_S1024x114_S114x1_S1024x1_1_0_0_1_n_n : DotDims S1024x114 S114x1 S1024x1 where
  lhsContracting := [1]
  rhsContracting := [0]
  lhsNonContracting := [0]
  rhsNonContracting := [1]
  lhsBatch := []
  rhsBatch := []
  wf := dot_S1024x114_S114x1_S1024x1_1_0_0_1_n_n_wf

class Facts : Prop extends Facts₀ where

variable [Facts]
-- ==== Proof.K.R0.lean ====
import proofs.«180788_j42898133352735_1_alg».proof.Proof.Gen.Kernel.Launch
import proofs.«180788_j42898133352735_1_alg».proof.Proof.Gen.Kernel.Skeleton
import proofs.«180788_j42898133352735_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (the backbone call): one grid point, every window a whole array

The region's half is stated at a parameter `V`: the TensorCore's buffer contents when the region is entered. -/

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangle of each shape the body loads or stores through. -/
abbrev rw_S1024x128 : Rect S1024x128 := Rect.unit (s := S1024x128) ![0, 0] S1024x128.size inb_S1024x128_S1024x128_0_0
abbrev rw_S128x256 : Rect S128x256 := Rect.unit (s := S128x256) ![0, 0] S128x256.size inb_S128x256_S128x256_0_0
abbrev rw_S256 : Rect S256 := Rect.unit (s := S256) ![0] S256.size inb_S256_S256_0
abbrev rw_S256x128 : Rect S256x128 := Rect.unit (s := S256x128) ![0, 0] S256x128.size inb_S256x128_S256x128_0_0
abbrev rw_S128 : Rect S128 := Rect.unit (s := S128) ![0] S128.size inb_S128_S128_0
abbrev rw_S128x64 : Rect S128x64 := Rect.unit (s := S128x64) ![0, 0] S128x64.size inb_S128x64_S128x64_0_0
abbrev rw_S64 : Rect S64 := Rect.unit (s := S64) ![0] S64.size inb_S64_S64_0
abbrev rw_S64x64 : Rect S64x64 := Rect.unit (s := S64x64) ![0, 0] S64x64.size inb_S64x64_S64x64_0_0
abbrev rw_S64x250 : Rect S64x250 := Rect.unit (s := S64x250) ![0, 0] S64x250.size inb_S64x250_S64x250_0_0
abbrev rw_S1024x64 : Rect S1024x64 := Rect.unit (s := S1024x64) ![0, 0] S1024x64.size inb_S1024x64_S1024x64_0_0
abbrev rw_S1024x250 : Rect S1024x250 := Rect.unit (s := S1024x250) ![0, 0] S1024x250.size inb_S1024x250_S1024x250_0_0

/-- The backbone's hidden state `h` (the first output), as the body's payloads composed over the thirteen input
    buffers it reads: the normalised two-layer prefix (`k0_pay2`), then the affine map, the third layer and the two
    value / output projections added back (`k0_pay3`). -/
def hPay (x0 : Vec F S1024x128 .f32) (x1 : Vec F S128x256 .f32) (x2 : Vec F S256 .f32) (x3 : Vec F S256x128 .f32) (x4 x5 x6 : Vec F S128 .f32)
    (x7 : Vec F S128x64 .f32) (x8 : Vec F S64 .f32) (x9 : Vec F S64x64 .f32) (x10 : Vec F S64 .f32) (x11 : Vec F S64x64 .f32) (x12 : Vec F S64 .f32) : Vec F S1024x64 .f32 :=
  k0_pay3 (k0_pay2 x0 x1 x2 x3 x4) x5 x6 x7 x8 x9 x10 x11 x12

/-- The projected features `h · Tf` (the second output), likewise. -/
def mPay (x0 : Vec F S1024x128 .f32) (x1 : Vec F S128x256 .f32) (x2 : Vec F S256 .f32) (x3 : Vec F S256x128 .f32) (x4 x5 x6 : Vec F S128 .f32)
    (x7 : Vec F S128x64 .f32) (x8 : Vec F S64 .f32) (x9 : Vec F S64x64 .f32) (x10 : Vec F S64 .f32) (x11 : Vec F S64x64 .f32) (x12 : Vec F S64 .f32) (x13 : Vec F S64x250 .f32) : Vec F S1024x250 .f32 :=
  k0_pay1 (k0_pay4 (k0_pay2 x0 x1 x2 x3 x4) x5 x6 x7 x8 x9 x10 x11 x12) x13

/-- What the body leaves in output window 14's staging buffer: its one store as a piece over the loaded inputs. -/
def out0_14 (x0 : Vec F S1024x128 .f32) (x1 : Vec F S128x256 .f32) (x2 : Vec F S256 .f32) (x3 : Vec F S256x128 .f32) (x4 x5 x6 : Vec F S128 .f32)
    (x7 : Vec F S128x64 .f32) (x8 : Vec F S64 .f32) (x9 : Vec F S64x64 .f32) (x10 : Vec F S64 .f32) (x11 : Vec F S64x64 .f32) (x12 : Vec F S64 .f32) : Vec F S1024x64 .f32 :=
  View.canon [⟨rw_S1024x64, hPay (View.ld x0 rw_S1024x128) (View.ld x1 rw_S128x256) (View.ld x2 rw_S256) (View.ld x3 rw_S256x128) (View.ld x4 rw_S128) (View.ld x5 rw_S128) (View.ld x6 rw_S128)
    (View.ld x7 rw_S128x64) (View.ld x8 rw_S64) (View.ld x9 rw_S64x64) (View.ld x10 rw_S64) (View.ld x11 rw_S64x64) (View.ld x12 rw_S64)⟩]

/-- What the body leaves in output window 15's staging buffer. -/
def out0_15 (x0 : Vec F S1024x128 .f32) (x1 : Vec F S128x256 .f32) (x2 : Vec F S256 .f32) (x3 : Vec F S256x128 .f32) (x4 x5 x6 : Vec F S128 .f32)
    (x7 : Vec F S128x64 .f32) (x8 : Vec F S64 .f32) (x9 : Vec F S64x64 .f32) (x10 : Vec F S64 .f32) (x11 : Vec F S64x64 .f32) (x12 : Vec F S64 .f32) (x13 : Vec F S64x250 .f32) : Vec F S1024x250 .f32 :=
  View.canon [⟨rw_S1024x250, mPay (View.ld x0 rw_S1024x128) (View.ld x1 rw_S128x256) (View.ld x2 rw_S256) (View.ld x3 rw_S256x128) (View.ld x4 rw_S128) (View.ld x5 rw_S128) (View.ld x6 rw_S128)
    (View.ld x7 rw_S128x64) (View.ld x8 rw_S64) (View.ld x9 rw_S64x64) (View.ld x10 rw_S64) (View.ld x11 rw_S64x64) (View.ld x12 rw_S64) (View.ld x13 rw_S64x250)⟩]

/-- The proof data of pipeline 0 on core `c`: the arrays as the region finds them; after the body each input's buffer
    at its block and each output's at what the body stored; the class-A invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t)
    | ⟨15, _⟩ => out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
    | ⟨_ + 16, h⟩ => absurd h (Nat.not_lt.2 (Nat.le_add_left _ _))
  Φ _ := Pipeline.ΦA spec0 c
  q _ := fullShare
  owed _ := 0

/-! ## What the other modules take from this one (statements fixed; proofs below them) -/

theorem dat0_A (c : Dev nD) (w : Fin cfg0.W) : (dat0 V c).A w = V c (Pipeline.arrRef spec0 w) := by
  dsimp only [dat0]
theorem dat0_Phi (c : Dev nD) (t : Fin (cfg0.N + 1)) : (dat0 V c).Φ t = Pipeline.ΦA spec0 c := rfl
theorem dat0_owed (c : Dev nD) (t : Fin (cfg0.N + 1)) : (dat0 V c).owed t = 0 := rfl
theorem dat0_q (c : Dev nD) (w : Fin cfg0.W) : (dat0 V c).q w = fullShare := rfl
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) := by dsimp only [dat0]
theorem after0_15 (c : Dev nD) (t : Fin cfg0.N) : (dat0 V c).after 15 t = out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) := by dsimp only [dat0]

/-- The origin of a rectangle over a whole buffer, however its zeros are spelt, is the zero offset. -/
private theorem hz1 : (![0] : Fin 1 → Nat) = fun _ => 0 := funext fun a => by fin_cases a; rfl
private theorem hz2 : (![0, 0] : Fin 2 → Nat) = fun _ => 0 := funext fun a => by fin_cases a <;> rfl

/-- A whole-buffer store over whole-buffer loads is the payload itself. -/
theorem out0_14_eq (x0 : Vec F S1024x128 .f32) (x1 : Vec F S128x256 .f32) (x2 : Vec F S256 .f32) (x3 : Vec F S256x128 .f32) (x4 x5 x6 : Vec F S128 .f32)
    (x7 : Vec F S128x64 .f32) (x8 : Vec F S64 .f32) (x9 : Vec F S64x64 .f32) (x10 : Vec F S64 .f32) (x11 : Vec F S64x64 .f32) (x12 : Vec F S64 .f32) :
    out0_14 x0 x1 x2 x3 x4 x5 x6 x7 x8 x9 x10 x11 x12 = hPay x0 x1 x2 x3 x4 x5 x6 x7 x8 x9 x10 x11 x12 := by
  unfold out0_14
  rw [View.canon_unit_zero hz2]
  simp only [View.ld_unit_zero (S := S1024x128) hz2, View.ld_unit_zero (S := S128x256) hz2, View.ld_unit_zero (S := S256) hz1, View.ld_unit_zero (S := S256x128) hz2, View.ld_unit_zero (S := S128) hz1, View.ld_unit_zero (S := S128x64) hz2, View.ld_unit_zero (S := S64) hz1, View.ld_unit_zero (S := S64x64) hz2, View.ld_unit_zero (S := S64x250) hz2]
theorem out0_15_eq (x0 : Vec F S1024x128 .f32) (x1 : Vec F S128x256 .f32) (x2 : Vec F S256 .f32) (x3 : Vec F S256x128 .f32) (x4 x5 x6 : Vec F S128 .f32)
    (x7 : Vec F S128x64 .f32) (x8 : Vec F S64 .f32) (x9 : Vec F S64x64 .f32) (x10 : Vec F S64 .f32) (x11 : Vec F S64x64 .f32) (x12 : Vec F S64 .f32) (x13 : Vec F S64x250 .f32) :
    out0_15 x0 x1 x2 x3 x4 x5 x6 x7 x8 x9 x10 x11 x12 x13 = mPay x0 x1 x2 x3 x4 x5 x6 x7 x8 x9 x10 x11 x12 x13 := by
  unfold out0_15
  rw [View.canon_unit_zero hz2]
  simp only [View.ld_unit_zero (S := S1024x128) hz2, View.ld_unit_zero (S := S128x256) hz2, View.ld_unit_zero (S := S256) hz1, View.ld_unit_zero (S := S256x128) hz2, View.ld_unit_zero (S := S128) hz1, View.ld_unit_zero (S := S128x64) hz2, View.ld_unit_zero (S := S64) hz1, View.ld_unit_zero (S := S64x64) hz2, View.ld_unit_zero (S := S64x250) hz2]

/-! ## The input windows' buffers when the body is called

Each input window is uncut and never idle, and the body leaves its block in place: its current staging buffer holds
its block at every point, fetched there or not (unfetched, the block index has not moved). -/

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [dat0_A]; try rfl) t d).trans
    (by unfold Dat.fetched Dat.blockOf iblk0; rw [dat0_A]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [dat0_A]; try rfl) t d).trans
    (by unfold Dat.fetched Dat.blockOf iblk0; rw [dat0_A]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [dat0_A]; try rfl) t d).trans
    (by unfold Dat.fetched Dat.blockOf iblk0; rw [dat0_A]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [dat0_A]; try rfl) t d).trans
    (by unfold Dat.fetched Dat.blockOf iblk0; rw [dat0_A]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [dat0_A]; try rfl) t d).trans
    (by unfold Dat.fetched Dat.blockOf iblk0; rw [dat0_A]; try rfl)
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [dat0_A]; try rfl) t d).trans
    (by unfold Dat.fetched Dat.blockOf iblk0; rw [dat0_A]; try rfl)
theorem before0_6 (c : Dev nD) (t : Fin cfg0.N) (d) : (dat0 V c).before 6 t d = iblk0 V c 6 t :=
  ((dat0 V c).before_in_eq_fetched 6 rfl (fun _ => rfl) (fun _ _ _ => rfl) (fun t => by rw [after0_6]; unfold Dat.blockOf iblk0; rw [dat0_A]; try rfl) t d).trans
    (by unfold Dat.fetched Dat.blockOf iblk0; rw [dat0_A]; try rfl)
theorem before0_7 (c : Dev nD) (t : Fin cfg0.N) (d) : (dat0 V c).before 7 t d = iblk0 V c 7 t :=
  ((dat0 V c).before_in_eq_fetched 7 rfl (fun _ => rfl) (fun _ _ _ => rfl) (fun t => by rw [after0_7]; unfold Dat.blockOf iblk0; rw [dat0_A]; try rfl) t d).trans
    (by unfold Dat.fetched Dat.blockOf iblk0; rw [dat0_A]; try rfl)
theorem before0_8 (c : Dev nD) (t : Fin cfg0.N) (d) : (dat0 V c).before 8 t d = iblk0 V c 8 t :=
  ((dat0 V c).before_in_eq_fetched 8 rfl (fun _ => rfl) (fun _ _ _ => rfl) (fun t => by rw [after0_8]; unfold Dat.blockOf iblk0; rw [dat0_A]; try rfl) t d).trans
    (by unfold Dat.fetched Dat.blockOf iblk0; rw [dat0_A]; try rfl)
theorem before0_9 (c : Dev nD) (t : Fin cfg0.N) (d) : (dat0 V c).before 9 t d = iblk0 V c 9 t :=
  ((dat0 V c).before_in_eq_fetched 9 rfl (fun _ => rfl) (fun _ _ _ => rfl) (fun t => by rw [after0_9]; unfold Dat.blockOf iblk0; rw [dat0_A]; try rfl) t d).trans
    (by unfold Dat.fetched Dat.blockOf iblk0; rw [dat0_A]; try rfl)
theorem before0_10 (c : Dev nD) (t : Fin cfg0.N) (d) : (dat0 V c).before 10 t d = iblk0 V c 10 t :=
  ((dat0 V c).before_in_eq_fetched 10 rfl (fun _ => rfl) (fun _ _ _ => rfl) (fun t => by rw [after0_10]; unfold Dat.blockOf iblk0; rw [dat0_A]; try rfl) t d).trans
    (by unfold Dat.fetched Dat.blockOf iblk0; rw [dat0_A]; try rfl)
theorem before0_11 (c : Dev nD) (t : Fin cfg0.N) (d) : (dat0 V c).before 11 t d = iblk0 V c 11 t :=
  ((dat0 V c).before_in_eq_fetched 11 rfl (fun _ => rfl) (fun _ _ _ => rfl) (fun t => by rw [after0_11]; unfold Dat.blockOf iblk0; rw [dat0_A]; try rfl) t d).trans
    (by unfold Dat.fetched Dat.blockOf iblk0; rw [dat0_A]; try rfl)
theorem before0_12 (c : Dev nD) (t : Fin cfg0.N) (d) : (dat0 V c).before 12 t d = iblk0 V c 12 t :=
  ((dat0 V c).before_in_eq_fetched 12 rfl (fun _ => rfl) (fun _ _ _ => rfl) (fun t => by rw [after0_12]; unfold Dat.blockOf iblk0; rw [dat0_A]; try rfl) t d).trans
    (by unfold Dat.fetched Dat.blockOf iblk0; rw [dat0_A]; try rfl)
theorem before0_13 (c : Dev nD) (t : Fin cfg0.N) (d) : (dat0 V c).before 13 t d = iblk0 V c 13 t :=
  ((dat0 V c).before_in_eq_fetched 13 rfl (fun _ => rfl) (fun _ _ _ => rfl) (fun t => by rw [after0_13]; unfold Dat.blockOf iblk0; rw [dat0_A]; try rfl) t d).trans
    (by unfold Dat.fetched Dat.blockOf iblk0; rw [dat0_A]; try rfl)

/-! ## The body's stores cover each output buffer -/

/-- The one store into output window 14's buffer is through the whole-buffer rectangle, which holds every index. -/
theorem cover0_14 (p0 : Vec F S1024x64 .f32) (y : S1024x64.Idx) :
    ∃ pc ∈ ([⟨rw_S1024x64, p0⟩] : List (View.Piece (Elt F) S1024x64 .f32)), y ∈ pc.1.set :=
  ⟨_, List.mem_singleton_self _, View.mem_set_unit_zero hz2 inb_S1024x64_S1024x64_0_0 y⟩
/-- Likewise output window 15's. -/
theorem cover0_15 (p0 : Vec F S1024x250 .f32) (y : S1024x250.Idx) :
    ∃ pc ∈ ([⟨rw_S1024x250, p0⟩] : List (View.Piece (Elt F) S1024x250 .f32)), y ∈ pc.1.set :=
  ⟨_, List.mem_singleton_self _, View.mem_set_unit_zero hz2 inb_S1024x250_S1024x250_0_0 y⟩

/-! ## The body's triple -/

set_option maxHeartbeats 4000000 in
/-- The kernel body on whole staging memrefs, the inputs' at read contents `xW` and the outputs' at anything, runs to
    the continuation holding the inputs' as they were and each output's at what its one store left: the printed
    functions are their skeletons, run operation by operation through both part calls; the outputs' buffers are
    loaded before they are stored into, and the loaded values are dropped. -/
theorem sound_kernel0 (c : Dev nD) (E : Set ℕ) (i : grid0.Coords) (a0 : Memref sig .tc .vmem S1024x128 .f32) (ha0 : a0.IsWhole) (a1 : Memref sig .tc .vmem S128x256 .f32) (ha1 : a1.IsWhole) (a2 : Memref sig .tc .vmem S256 .f32) (ha2 : a2.IsWhole) (a3 : Memref sig .tc .vmem S256x128 .f32) (ha3 : a3.IsWhole) (a4 : Memref sig .tc .vmem S128 .f32) (ha4 : a4.IsWhole) (a5 : Memref sig .tc .vmem S128 .f32) (ha5 : a5.IsWhole) (a6 : Memref sig .tc .vmem S128 .f32) (ha6 : a6.IsWhole) (a7 : Memref sig .tc .vmem S128x64 .f32) (ha7 : a7.IsWhole) (a8 : Memref sig .tc .vmem S64 .f32) (ha8 : a8.IsWhole) (a9 : Memref sig .tc .vmem S64x64 .f32) (ha9 : a9.IsWhole) (a10 : Memref sig .tc .vmem S64 .f32) (ha10 : a10.IsWhole) (a11 : Memref sig .tc .vmem S64x64 .f32) (ha11 : a11.IsWhole) (a12 : Memref sig .tc .vmem S64 .f32) (ha12 : a12.IsWhole) (a13 : Memref sig .tc .vmem S64x250 .f32) (ha13 : a13.IsWhole) (a14 : Memref sig .tc .vmem S1024x64 .f32) (ha14 : a14.IsWhole) (a15 : Memref sig .tc .vmem S1024x250 .f32) (ha15 : a15.IsWhole)
    (x0 : Vec F S1024x128 .f32) (x1 : Vec F S128x256 .f32) (x2 : Vec F S256 .f32) (x3 : Vec F S256x128 .f32) (x4 : Vec F S128 .f32) (x5 : Vec F S128 .f32) (x6 : Vec F S128 .f32) (x7 : Vec F S128x64 .f32) (x8 : Vec F S64 .f32) (x9 : Vec F S64x64 .f32) (x10 : Vec F S64 .f32) (x11 : Vec F S64x64 .f32) (x12 : Vec F S64 .f32) (x13 : Vec F S64x250 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ (∃ d, owns (c : Thread nD τ) a14 fullShare d) ∗ (∃ d, owns (c : Thread nD τ) a15 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare (out0_14 x0 x1 x2 x3 x4 x5 x6 x7 x8 x9 x10 x11 x12) ∗ owns (c : Thread nD τ) a15 fullShare (out0_15 x0 x1 x2 x3 x4 x5 x6 x7 x8 x9 x10 x11 x12 x13)) -∗ K ⟨⟩))
      ⊢ wp frame (wpE (defs₀ (F := F)) Variants.none c none) E (cc0_backbone_kernel i a0 ha0 a1 ha1 a2 ha2 a3 ha3 a4 ha4 a5 ha5 a6 ha6 a7 ha7 a8 ha8 a9 ha9 a10 ha10 a11 ha11 a12 ha12 a13 ha13 a14 ha14 a15 ha15) K := by
  simp only [cc0_backbone_kernel_eq_skeleton]; unfold cc0_backbone_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, Hk⟩
  subst hf0; subst hf1; subst hf2; subst hf3; subst hf4; subst hf5; subst hf6; subst hf7; subst hf8; subst hf9; subst hf10; subst hf11; subst hf12; subst hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    exact View.read_writes_eq_canon _ _ _ (cover0_14 _)
  iexists _; isplitr
  swap; · iexact H15
  ipureintro
  exact View.read_writes_eq_canon _ _ _ (cover0_15 _)

/-! ## The body obligation, at a generic point -/

/-- What the body is called with at point `t`: the invariant, what the core owes, and each window's current staging
    buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d)))

/-- and what it returns: the same, each buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t))

set_option maxHeartbeats 1000000 in
/-- The body at any point: the inputs' memrefs hold their blocks, so the body's triple applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel0 c Set.univ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.R1Defs.lean ====
import proofs.«180788_j42898133352735_1_alg».proof.Proof.Gen.Kernel.Launch
import proofs.«180788_j42898133352735_1_alg».proof.Proof.Gen.Kernel.Skeleton
import proofs.«180788_j42898133352735_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the pairwise call): what its modules share

An 8 × 8 grid, point `t = 8·i + j`. At point `(i, j)` the body adds, into a scratch accumulator carried along `j`
(zeroed at `j = 0`), the row sums over key block `j` of `exp (0 − Σ_k |Mq − Mk|)`; at `j = 7` it stores the score
block of query block `i`. -/

/-- The rectangle of component `k` of a feature block (every row and channel, one component). -/
abbrev rk0 : Rect S128x50x5 := Rect.unit (s := S128x50x5) ![0, 0, 0] S128x50x1.size inb_S128x50x5_S128x50x1_0_0_0
abbrev rk1 : Rect S128x50x5 := Rect.unit (s := S128x50x5) ![0, 0, 1] S128x50x1.size inb_S128x50x5_S128x50x1_0_0_1
abbrev rk2 : Rect S128x50x5 := Rect.unit (s := S128x50x5) ![0, 0, 2] S128x50x1.size inb_S128x50x5_S128x50x1_0_0_2
abbrev rk3 : Rect S128x50x5 := Rect.unit (s := S128x50x5) ![0, 0, 3] S128x50x1.size inb_S128x50x5_S128x50x1_0_0_3
abbrev rk4 : Rect S128x50x5 := Rect.unit (s := S128x50x5) ![0, 0, 4] S128x50x1.size inb_S128x50x5_S128x50x1_0_0_4

/-- One step along `j`: the accumulator `acc` plus the row sums over the key block `b` for the query block `a`
    (the body's payloads `k1_pay4`, `k1_pay5`, `k1_pay1` composed over the five component loads of each block). -/
def accStep (a b : Vec F S128x50x5 .f32) (acc : Vec F S128x50 .f32) : Vec F S128x50 .f32 :=
  k1_pay1 (k1_pay4 (View.ld a rk0) (View.ld b rk0) (View.ld a rk1) (View.ld b rk1)) (k1_pay5 (View.ld a rk2) (View.ld b rk2))
    (View.ld a rk3) (View.ld b rk3) (View.ld a rk4) (View.ld b rk4) acc

/-- The score block stored at the last point of a row: the body's payload `k1_pay2` over the finished accumulator, the
    hidden-state block and the three small operands (each loaded whole). -/
def scoreBlk (acc : Vec F S128x50 .f32) (h : Vec F S128x64 .f32) (wh : Vec F S64x1 .f32) (wo : Vec F S50x1 .f32) (b : Vec F S1x1 .f32) : Vec F S128x1 .f32 :=
  k1_pay2 acc h wh wo b

/-- The scratch operand the kernel carries between points. -/
abbrev scM1 : Memref sig .tc .vmem S128x50 .f32 := Memref.whole cc1_scratch0

/-- The body's first branch condition (`j = 0`: zero the accumulator), from the grid coordinates. -/
abbrev cond1_0 (i : grid1.Coords) : Prop := (Scalar.cmpi .ne (Scalar.extui (Scalar.cmpi .eq (BitVec.ofNat 32 (i 1).val) 0#32)) 0#32) = 1#1
/-- The body's second branch condition (`j = 7`: store the scores). -/
abbrev cond1_1 (i : grid1.Coords) : Prop := k1_cond2 i = 1#1

end Cert.Kernel.Hand

end
-- ==== Proof.K.R1Runs.lean ====
import proofs.«180788_j42898133352735_1_alg».proof.Proof.K.R1Defs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the kernel body's triple in each of the three cases its two branches meet on the grid

On whole staging memrefs — the six inputs' at their contents, the score window's and the scratch's as the case finds
them — the body runs to the continuation holding the inputs' as they were, the scratch at one accumulator step
(`accStep`) from zero or from what it held, and, in the last case, the score window's at `scoreBlk`. -/

/-- The offsets of a whole-buffer rectangle of rank two are the constant zero. -/
private theorem run1_off0 : (![0, 0] : Fin 2 → Nat) = fun _ => 0 := funext fun a => by fin_cases a <;> rfl

set_option maxHeartbeats 4000000 in
/-- `j = 0` (and not `j = 7`): the scratch is zeroed, then stepped once; the score window's buffer is not touched. -/
theorem run1_A (c : Dev nD) (E : Set ℕ) (i : grid1.Coords) (arg2 : Memref sig .tc .vmem S128x50x5 .f32) (harg2 : arg2.IsWhole) (arg3 : Memref sig .tc .vmem S128x50x5 .f32) (harg3 : arg3.IsWhole) (arg4 : Memref sig .tc .vmem S128x64 .f32) (harg4 : arg4.IsWhole) (arg5 : Memref sig .tc .vmem S64x1 .f32) (harg5 : arg5.IsWhole) (arg6 : Memref sig .tc .vmem S50x1 .f32) (harg6 : arg6.IsWhole) (arg7 : Memref sig .tc .vmem S1x1 .f32) (harg7 : arg7.IsWhole) (arg8 : Memref sig .tc .vmem S128x1 .f32) (harg8 : arg8.IsWhole) (arg9 : Memref sig .tc .vmem S128x50 .f32) (harg9 : arg9.IsWhole)
    (hc0 : cond1_0 i) (hc1 : ¬cond1_1 i) (x0 x1 : Vec F S128x50x5 .f32) (x2 : Vec F S128x64 .f32) (x3 : Vec F S64x1 .f32) (x4 : Vec F S50x1 .f32) (x5 : Vec F S1x1 .f32) (xi6 : Vec F S128x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg8 fullShare xi6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare xi6 ∗ owns (c : Thread nD τ) arg9 fullShare (accStep x0 x1 (k1_pay3 (F := F)))) -∗ K ⟨⟩))
      ⊢ wp frame (wpE (defs₀ (F := F)) Variants.none c none) E (cc1_mbd_kernel i arg2 harg2 arg3 harg3 arg4 harg4 arg5 harg5 arg6 harg6 arg7 harg7 arg8 harg8 arg9 harg9) K := by
  simp only [cc1_mbd_kernel_eq_skeleton]; unfold cc1_mbd_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  iexists _; isplitr
  rotate_left
  · iexact HS
  · -- the accumulating store is the later of two whole-buffer stores, so the scratch reads as its payload; there the
    -- read-back of the accumulator is what the zeroing store left, and each input is read through its component rectangle
    ipureintro
    rw [View.read_writes_eq_canon _ _ _ (fun y => ⟨_, List.Mem.head _, View.mem_set_unit_zero (S := S128x50) run1_off0 inb_S128x50_S128x50_0_0 y⟩)]
    sl_unfold_words
    rw [View.canon_cons_unit_zero (S := S128x50) run1_off0, View.readCov_unit_zero (S := S128x50) _ run1_off0]
    unfold accStep
    simp only [View.readAt_eq_ld, harg2.read_unread, harg3.read_unread, View.ld_unit_zero (S := S128x50) run1_off0]

set_option maxHeartbeats 4000000 in
/-- `0 < j < 7`: the scratch, found at `xs`, is stepped once; the score window's buffer is not touched. -/
theorem run1_B (c : Dev nD) (E : Set ℕ) (i : grid1.Coords) (arg2 : Memref sig .tc .vmem S128x50x5 .f32) (harg2 : arg2.IsWhole) (arg3 : Memref sig .tc .vmem S128x50x5 .f32) (harg3 : arg3.IsWhole) (arg4 : Memref sig .tc .vmem S128x64 .f32) (harg4 : arg4.IsWhole) (arg5 : Memref sig .tc .vmem S64x1 .f32) (harg5 : arg5.IsWhole) (arg6 : Memref sig .tc .vmem S50x1 .f32) (harg6 : arg6.IsWhole) (arg7 : Memref sig .tc .vmem S1x1 .f32) (harg7 : arg7.IsWhole) (arg8 : Memref sig .tc .vmem S128x1 .f32) (harg8 : arg8.IsWhole) (arg9 : Memref sig .tc .vmem S128x50 .f32) (harg9 : arg9.IsWhole)
    (hc0 : ¬cond1_0 i) (hc1 : ¬cond1_1 i) (x0 x1 : Vec F S128x50x5 .f32) (x2 : Vec F S128x64 .f32) (x3 : Vec F S64x1 .f32) (x4 : Vec F S50x1 .f32) (x5 : Vec F S1x1 .f32) (xi6 : Vec F S128x1 .f32) (xs : Vec F S128x50 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg8 fullShare xi6 ∗ owns (c : Thread nD τ) arg9 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare xi6 ∗ owns (c : Thread nD τ) arg9 fullShare (accStep x0 x1 xs)) -∗ K ⟨⟩))
      ⊢ wp frame (wpE (defs₀ (F := F)) Variants.none c none) E (cc1_mbd_kernel i arg2 harg2 arg3 harg3 arg4 harg4 arg5 harg5 arg6 harg6 arg7 harg7 arg8 harg8 arg9 harg9) K := by
  simp only [cc1_mbd_kernel_eq_skeleton]; unfold cc1_mbd_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  iexists _; isplitr
  rotate_left
  · iexact HS
  · -- one whole-buffer store: the scratch reads as its payload, whose loads read the inputs through the component
    -- rectangles and the accumulator as it was found
    ipureintro
    rw [View.read_writes_eq_canon _ _ _ (fun y => ⟨_, List.mem_singleton_self _, View.mem_set_unit_zero (S := S128x50) run1_off0 inb_S128x50_S128x50_0_0 y⟩)]
    sl_unfold_words
    rw [View.canon_unit_zero run1_off0]
    unfold accStep
    simp only [View.readAt_eq_ld, harg2.read_unread, harg3.read_unread, harg9.read_unread, View.ld_unit_zero (S := S128x50) run1_off0]

set_option maxHeartbeats 4000000 in
/-- `j = 7`: the scratch, found at `xs`, is stepped once, and the score window's buffer (found at anything) ends at
    the score block of the finished accumulator. -/
theorem run1_C (c : Dev nD) (E : Set ℕ) (i : grid1.Coords) (arg2 : Memref sig .tc .vmem S128x50x5 .f32) (harg2 : arg2.IsWhole) (arg3 : Memref sig .tc .vmem S128x50x5 .f32) (harg3 : arg3.IsWhole) (arg4 : Memref sig .tc .vmem S128x64 .f32) (harg4 : arg4.IsWhole) (arg5 : Memref sig .tc .vmem S64x1 .f32) (harg5 : arg5.IsWhole) (arg6 : Memref sig .tc .vmem S50x1 .f32) (harg6 : arg6.IsWhole) (arg7 : Memref sig .tc .vmem S1x1 .f32) (harg7 : arg7.IsWhole) (arg8 : Memref sig .tc .vmem S128x1 .f32) (harg8 : arg8.IsWhole) (arg9 : Memref sig .tc .vmem S128x50 .f32) (harg9 : arg9.IsWhole)
    (hc0 : ¬cond1_0 i) (hc1 : cond1_1 i) (x0 x1 : Vec F S128x50x5 .f32) (x2 : Vec F S128x64 .f32) (x3 : Vec F S64x1 .f32) (x4 : Vec F S50x1 .f32) (x5 : Vec F S1x1 .f32) (xs : Vec F S128x50 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (scoreBlk (accStep x0 x1 xs) x2 x3 x4 x5) ∗ owns (c : Thread nD τ) arg9 fullShare (accStep x0 x1 xs)) -∗ K ⟨⟩))
      ⊢ wp frame (wpE (defs₀ (F := F)) Variants.none c none) E (cc1_mbd_kernel i arg2 harg2 arg3 harg3 arg4 harg4 arg5 harg5 arg6 harg6 arg7 harg7 arg8 harg8 arg9 harg9) K := by
  simp only [cc1_mbd_kernel_eq_skeleton]; unfold cc1_mbd_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg9.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    rotate_left
    · iexact H6
    · -- one whole-buffer store into the score window's buffer: it reads as the payload, over the accumulator read back
      -- after its step and the four operands read whole
      ipureintro
      rw [View.read_writes_eq_canon _ _ _ (fun y => ⟨_, List.Mem.head _, View.mem_set_unit_zero (S := S128x1) run1_off0 inb_S128x1_S128x1_0_0 y⟩)]
      sl_unfold_words
      rw [View.canon_unit_zero run1_off0]
      unfold scoreBlk accStep
      simp only [View.readAt_eq_ld, harg2.read_unread, harg3.read_unread, harg4.read_unread, harg5.read_unread, harg6.read_unread,
        harg7.read_unread, harg9.read_unread, View.readCov_unit_zero (S := S128x50) _ run1_off0, View.ld_unit_zero (S := S128x50) run1_off0,
        View.ld_unit_zero (S := S128x64) run1_off0, View.ld_unit_zero (S := S64x1) run1_off0, View.ld_unit_zero (S := S50x1) run1_off0,
        View.ld_unit_zero (S := S1x1) run1_off0]
  iexists _; isplitr
  rotate_left
  · iexact HS
  · -- the scratch: one whole-buffer store, as in the middle case
    ipureintro
    sl_unfold_words
    rw [View.read_writes_eq_canon _ _ _ (fun y => ⟨_, List.Mem.head _, View.mem_set_unit_zero (S := S128x50) run1_off0 inb_S128x50_S128x50_0_0 y⟩)]
    rw [View.canon_unit_zero run1_off0]
    unfold accStep
    simp only [View.readAt_eq_ld, harg2.read_unread, harg3.read_unread, harg9.read_unread, View.ld_unit_zero (S := S128x50) run1_off0]

end Cert.Kernel.Hand

end
-- ==== Proof.K.R1.lean ====
import proofs.«180788_j42898133352735_1_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the pairwise call): an 8 × 8 grid, point `t = 8·i + j`

At point `(i, j)` the body adds, into a scratch accumulator it carries along `j` (zeroed at `j = 0`), the row sums over
key block `j` of `exp (0 − Σ_k |Mq − Mk|)`; at `j = 7` it stores the score block of query block `i`. Windows 0 and 1
read ONE array (the features) at blocks `i` and `j`: they hold it at complementary shares. Stated at a parameter
`V`, the TensorCore's buffer contents when the region is entered. -/

/-! ## The body's two branch conditions, in closed form over the 64 points -/

/-- The first condition (`j = 0`) holds exactly at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The second condition (`j = 7`) holds exactly at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The six input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
/-- At the first point of a row (`j = 0`) the score window is idle: nothing is stored into it, -/
theorem idleAt1_6_A : ∀ t : Fin cfg1.N, cond1_0 (grid1.coords t) → ¬cond1_1 (grid1.coords t) → cfg1.idle 6 (grid1.coords t) = true := by decide +kernel
/-- and its block is not written back there. -/
theorem noFlush1_6_A : ∀ t : Fin cfg1.N, cond1_0 (grid1.coords t) → ¬cond1_1 (grid1.coords t) → (cfg1.win 6).flush t = false := by decide +kernel
/-- The same at the inner points of a row (`0 < j < 7`). -/
theorem idleAt1_6_B : ∀ t : Fin cfg1.N, ¬cond1_0 (grid1.coords t) → ¬cond1_1 (grid1.coords t) → cfg1.idle 6 (grid1.coords t) = true := by decide +kernel
theorem noFlush1_6_B : ∀ t : Fin cfg1.N, ¬cond1_0 (grid1.coords t) → ¬cond1_1 (grid1.coords t) → (cfg1.win 6).flush t = false := by decide +kernel
/-- At the last point of a row (`j = 7`) the score window is live: the body stores its block. -/
theorem liveAt1_6_C : ∀ t : Fin cfg1.N, ¬cond1_0 (grid1.coords t) → cond1_1 (grid1.coords t) → cfg1.idle 6 (grid1.coords t) = false := by decide +kernel

/-! ## The staging memrefs the body is called with -/

/-- Each window's current staging memref at point `t`, and its wholeness. -/
abbrev ms1_0 (t : Fin cfg1.N) : Memref sig .tc .vmem S128x50x5 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x50x5 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S50x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x1 .f32 := win1_6.stage (cfg1.slots t 6)
abbrev hs1_6 (t : Fin cfg1.N) : (ms1_6 t).IsWhole := hstage1_6 ((cfg1.slots t 6).cast nbuf1_6)

/-! ## The class invariant split at the call's own scratch -/

/-- Every scoped buffer of the core that is neither a staging buffer of this call nor its scratch accumulator, at some
    contents each: the other call's staging buffers, carried unopened. -/
abbrev rest1 (c : Dev nD) : sProp 𝕄 :=
  Pipeline.scopedRestBut (Ix := Unit) (Name := ℕ) (U := UR sig nD τ) (Lvl := ℕ) (Val := Elt F) spec1 c [cc1_scratch0]

/-- The class invariant is the scratch accumulator owned whole at some contents, the other scoped buffers at anything,
    and the generator register at some state. -/
theorem PhiA1_eq (c : Dev nD) :
    (Pipeline.ΦA spec1 c : sProp 𝕄)
      = iprop(iprop((∃ d, owns (c : Thread nD τ) scM1 fullShare d) ∗ rest1 c) ∗ (∃ r, prngReg c r)) := by
  unfold Pipeline.ΦA
  rw [Pipeline.scopedRest_split_of_list spec1 c [cc1_scratch0] (by decide) (by decide)]
  simp only [scM1, owns_whole, bigSepL_singleton]; try rfl

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch accumulator after the body at position `n`: zero (`k1_pay3`) stepped once at the first point of a row
    of the grid (`n % 8 = 0`), the point before's contents stepped once elsewhere. -/
def accAt (c : Dev nD) : (n : ℕ) → n < cfg1.N → Vec F S128x50 .f32
  | 0, hn => accStep (iblk1 V c 0 ⟨0, hn⟩) (iblk1 V c 1 ⟨0, hn⟩) (k1_pay3 (F := F))
  | n + 1, hn =>
    if (n + 1) % 8 = 0 then accStep (iblk1 V c 0 ⟨n + 1, hn⟩) (iblk1 V c 1 ⟨n + 1, hn⟩) (k1_pay3 (F := F))
    else accStep (iblk1 V c 0 ⟨n + 1, hn⟩) (iblk1 V c 1 ⟨n + 1, hn⟩) (accAt c n (Nat.lt_of_succ_lt hn))

/-- At the first point of a row the accumulator restarts from zero: the recursion's first branch. -/
theorem accAt_first (c : Dev nD) (t : Fin cfg1.N) (h : t.val % 8 = 0) :
    accAt V c t.val t.isLt = accStep (iblk1 V c 0 t) (iblk1 V c 1 t) (k1_pay3 (F := F)) := by
  obtain ⟨n, hn⟩ := t
  cases n with
  | zero => exact rfl
  | succ n => exact if_pos h
/-- At any other point it is one step from what the point before left: the recursion's second branch. -/
theorem accAt_next (c : Dev nD) (t : Fin cfg1.N) (h : ¬ t.val % 8 = 0) :
    accAt V c t.val t.isLt = accStep (iblk1 V c 0 t) (iblk1 V c 1 t) (accAt V c (t.val - 1) (Nat.lt_of_le_of_lt (Nat.sub_le _ _) t.isLt)) := by
  obtain ⟨n, hn⟩ := t
  cases n with
  | zero => exact absurd (Nat.zero_mod _) h
  | succ n => exact if_neg h

/-- The region invariant before position `n`: before the first point the class's (every scoped buffer no window
    stages at anything, the generator register at some state); afterwards the same split at the scratch accumulator,
    which is held at what the point before left in it (`accAt`), every other scoped buffer still at anything and the
    generator register at some state. -/
def PhiS1 (c : Dev nD) : (n : ℕ) → n ≤ cfg1.N → sProp 𝕄
  | 0, _ => Pipeline.ΦA spec1 c
  | n + 1, hn => iprop(iprop(owns (c : Thread nD τ) scM1 fullShare (accAt V c n hn) ∗ rest1 c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch at that point's contents. -/
theorem PhiS1_succ (c : Dev nD) (n : ℕ) (hn : n < cfg1.N) :
    PhiS1 V c (n + 1) hn = iprop(iprop(owns (c : Thread nD τ) scM1 fullShare (accAt V c n hn) ∗ rest1 c) ∗ (∃ r, prngReg c r)) := rfl

/-- Before a point that is not the first: the scratch at what the point before left. -/
theorem PhiS1_pos (c : Dev nD) (n : ℕ) (h : n ≤ cfg1.N) (hz : n ≠ 0) :
    PhiS1 V c n h = iprop(iprop(owns (c : Thread nD τ) scM1 fullShare (accAt V c (n - 1) (by omega)) ∗ rest1 c) ∗ (∃ r, prngReg c r)) := by
  cases n with
  | zero => exact absurd rfl hz
  | succ n => rfl

/-- The proof data of pipeline 1 on core `c`. Window 6 (the scores) is idle and not written back except at the last
    point of a row, where the body stores `scoreBlk`; the value named at the other points is never consulted. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => scoreBlk (accAt V c t.val t.isLt) (iblk1 V c 2 t) (iblk1 V c 3 t) (iblk1 V c 4 t) (iblk1 V c 5 t)
  Φ t := PhiS1 V c t.val (Nat.le_of_lt_succ t.isLt)
  q w := match w with
    | ⟨0, _⟩ => fullShare.left
    | ⟨1, _⟩ => fullShare.right
    | _ => fullShare
  owed _ := 0

/-! ## The proof data's projections -/

theorem dat1_A (c : Dev nD) (w : Fin cfg1.W) : (dat1 V c).A w = V c (Pipeline.arrRef spec1 w) := by
  dsimp only [dat1]
theorem dat1_owed (c : Dev nD) (t : Fin (cfg1.N + 1)) : (dat1 V c).owed t = 0 := rfl
theorem dat1_q0 (c : Dev nD) : (dat1 V c).q 0 = fullShare.left := rfl
theorem dat1_q1 (c : Dev nD) : (dat1 V c).q 1 = fullShare.right := rfl
theorem dat1_q2 (c : Dev nD) : (dat1 V c).q 2 = fullShare := rfl
theorem dat1_q3 (c : Dev nD) : (dat1 V c).q 3 = fullShare := rfl
theorem dat1_q4 (c : Dev nD) : (dat1 V c).q 4 = fullShare := rfl
theorem dat1_q5 (c : Dev nD) : (dat1 V c).q 5 = fullShare := rfl
theorem after1_6 (c : Dev nD) (t : Fin cfg1.N) :
    (dat1 V c).after 6 t = scoreBlk (accAt V c t.val t.isLt) (iblk1 V c 2 t) (iblk1 V c 3 t) (iblk1 V c 4 t) (iblk1 V c 5 t) := by dsimp only [dat1]

/-- What the body leaves in each input window's buffer: its block (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-! ## What the body finds in the input windows' buffers

An input window's current staging buffer holds its block at every point, fetched there or not: where the pipeline does
not fetch (windows 0 and 2 within a row, windows 3 to 5 after the first point) the block index has not moved and the
body left the block in place. -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [dat1_A]; try rfl) t d).trans
    (by unfold Dat.fetched Dat.blockOf iblk1; rw [dat1_A]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [dat1_A]; try rfl) t d).trans
    (by unfold Dat.fetched Dat.blockOf iblk1; rw [dat1_A]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [dat1_A]; try rfl) t d).trans
    (by unfold Dat.fetched Dat.blockOf iblk1; rw [dat1_A]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [dat1_A]; try rfl) t d).trans
    (by unfold Dat.fetched Dat.blockOf iblk1; rw [dat1_A]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [dat1_A]; try rfl) t d).trans
    (by unfold Dat.fetched Dat.blockOf iblk1; rw [dat1_A]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [dat1_A]; try rfl) t d).trans
    (by unfold Dat.fetched Dat.blockOf iblk1; rw [dat1_A]; try rfl)

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point. The inputs' memrefs hold their blocks (`before1_W`); the closed forms say which of the three
    cases the point is in. The invariant hands the body the scratch accumulator — at anything at the very first point,
    at what the point before left afterwards — and takes it back one accumulator step on (`accAt_first` at the first
    point of a row, `accAt_next` elsewhere); the other scoped buffers and the generator register pass through untouched.
    The score window's buffer is handed back as found where it is idle, and holds the score block of the finished
    accumulator at the last point of a row; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  by_cases h0 : t.val % 8 = 0
  · by_cases h1 : t.val % 8 = 7
    · exfalso; omega
    · rw [Dat.leavesExact_idle (dat1 V c) 6 t (idleAt1_6_A t ((hcond1_0 t).mpr h0) (fun h => h1 ((hcond1_1 t).mp h))) (noFlush1_6_A t ((hcond1_0 t).mpr h0) (fun h => h1 ((hcond1_1 t).mp h)))]
      rw [accAt_first V c t h0]
      by_cases hz : t.val = 0
      · rw [PhiS1_castSucc V c t, PhiS1_zero V c _ _ hz, PhiA1_eq]
        iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
        iapply (run1_A c Set.univ (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) ((dat1 V c).before 6 t d6) _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS]; · iexact HS
        iintro ⟨H0, H1, H2, H3, H4, H5, H6, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS1_castSucc V c t, PhiS1_pos V c _ _ hz]
        iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
        iapply (run1_A c Set.univ (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) ((dat1 V c).before 6 t d6) _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS]; · iexists _; iexact HS
        iintro ⟨H0, H1, H2, H3, H4, H5, H6, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · have hz : t.val ≠ 0 := fun e => h0 (by rw [e])
    by_cases h1 : t.val % 8 = 7
    · rw [show (dat1 V c).leavesExact 6 t = owns (c : Thread nD τ) (ms1_6 t) fullShare ((dat1 V c).after 6 t) from by
        unfold Dat.leavesExact; rw [liveAt1_6_C t (fun h => h0 ((hcond1_0 t).mp h)) ((hcond1_1 t).mpr h1)], after1_6]
      rw [accAt_next V c t h0]
      rw [PhiS1_castSucc V c t, PhiS1_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply (run1_C c Set.univ (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat1 V c) 6 t (idleAt1_6_B t (fun h => h0 ((hcond1_0 t).mp h)) (fun h => h1 ((hcond1_1 t).mp h))) (noFlush1_6_B t (fun h => h0 ((hcond1_0 t).mp h)) (fun h => h1 ((hcond1_1 t).mp h)))]
      rw [accAt_next V c t h0]
      rw [PhiS1_castSucc V c t, PhiS1_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply (run1_B c Set.univ (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) ((dat1 V c).before 6 t d6) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region (the class invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the scratch's named contents are forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, HR⟩, Hg⟩
  isplitl [HS HR]
  · isplitl [HS]
    · iexists _; iexact HS
    iexact HR
  iexact Hg

/-- After the last point the invariant gives the class invariant back: the scratch's named contents are forgotten. -/
theorem hout1 (c : Dev nD) : (dat1 V c).Φ (Fin.last cfg1.N) ⊢ Pipeline.ΦA spec1 c :=
  Phi1_out V c _ (by rw [Fin.val_last]; have : cfg1.N = 64 := N_1; omega)

end Region1

end Cert.Kernel.Hand

end
-- ==== Proof.K.Run.lean ====
import proofs.«180788_j42898133352735_1_alg».proof.Proof.K.R0
import proofs.«180788_j42898133352735_1_alg».proof.Proof.K.R1
import proofs.«180788_j42898133352735_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: five segments from the launch to the return

Host stretch 0, region 0 (the backbone call), host stretch 1, region 1 (the pairwise call), host stretch 2. One run
ends with every unscoped buffer read at the last valuation, so the arguments' frame and the result's contents come
off the same execution.

## The buffer contents at each segment boundary: a fold through @main -/

/-- Core `c`'s buffers at launch. -/
abbrev W0 : Dev nD → Valuation τ sig (Elt F) := fun c b => m (c, b)
/-- After host stretch 0 (region 0's entry). -/
abbrev W1 : Dev nD → Valuation τ sig (Elt F) := fun c => StableHlo.after hostOps0 (W0 m c)
/-- The same read at the TensorCore's references: region 0's entry contents. -/
abbrev V1 : (c : Dev nD) → (b : Ref sig .tc) → Buf (Elt F) ((c : Thread nD τ).loc b) := fun c b => W1 m c b
/-- At region 0's exit: its arrays at what the pipeline leaves (the inputs as entered, each output's write-backs
    folded), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After host stretch 1 (region 1's entry). -/
abbrev W3 : Dev nD → Valuation τ sig (Elt F) := fun c => StableHlo.after hostOps1 (W2 m c)
/-- The same read at the TensorCore's references: region 1's entry contents. -/
abbrev V3 : (c : Dev nD) → (b : Ref sig .tc) → Buf (Elt F) ((c : Thread nD τ).loc b) := fun c b => W3 m c b
/-- At region 1's exit: the score array at what the pipeline's write-backs leave, every other buffer as entered (the
    region's other arrays are inputs). -/
def W4 (c : Dev nD) : Valuation τ sig (Elt F) :=
  Function.update (W3 m c) (Proc.devRef .tc main_v6) ((dat1 (V3 m) c).arrAt 6 cfg1.N)
/-- The same read at the TensorCore's references (region 1's exit contents). -/
abbrev V4 : (c : Dev nD) → (b : Ref sig .tc) → Buf (Elt F) ((c : Thread nD τ).loc b) := fun c b => W4 m c b
/-- After host stretch 2: the contents @main returns with. -/
abbrev W5 : Dev nD → Valuation τ sig (Elt F) := fun c => StableHlo.after hostOps2 (W4 m c)

/-- What the run leaves in the result array. -/
def kernelOut (c : Dev nD) : Buf (Elt F) ((c.tc : Thread nD τ).loc main_v7) := (W5 m c) (Proc.devRef .tc main_v7)

/-! ### What each item leaves unchanged, and what it writes -/

theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h
theorem W4_of (c : Dev nD) (r : Ref sig .tc) (h : r ≠ main_v6) : W4 m c (Proc.devRef .tc r) = W3 m c (Proc.devRef .tc r) := by
  unfold W4; exact Function.update_of_ne (StableHlo.devRef_ne_of_ne h) _ _
theorem W4_main_v6 (c : Dev nD) : W4 m c (Proc.devRef .tc main_v6) = (dat1 (V3 m) c).arrAt 6 cfg1.N := by
  unfold W4; exact Function.update_self _ _ _
theorem W5_of (c : Dev nD) (r : Ref sig .tc) (h : r ∉ hostOps2_W) : W5 m c (Proc.devRef .tc r) = W4 m c (Proc.devRef .tc r) :=
  StableHlo.after_of_writes_sub hostOps2 _ hostOps2_writes h

/-! ### The regions' entry contents, read back to the launch memory and to region 0's results -/

theorem V1_main_arg0 (c : Dev nD) : V1 m c main_arg0 = m ((c.tc : Thread nD τ).loc main_arg0) :=
  (W1_of m c main_arg0 (by decide)).trans rfl
theorem V1_main_arg1 (c : Dev nD) : V1 m c main_arg1 = m ((c.tc : Thread nD τ).loc main_arg1) :=
  (W1_of m c main_arg1 (by decide)).trans rfl
theorem V1_main_arg2 (c : Dev nD) : V1 m c main_arg2 = m ((c.tc : Thread nD τ).loc main_arg2) :=
  (W1_of m c main_arg2 (by decide)).trans rfl
theorem V1_main_arg3 (c : Dev nD) : V1 m c main_arg3 = m ((c.tc : Thread nD τ).loc main_arg3) :=
  (W1_of m c main_arg3 (by decide)).trans rfl
theorem V1_main_arg4 (c : Dev nD) : V1 m c main_arg4 = m ((c.tc : Thread nD τ).loc main_arg4) :=
  (W1_of m c main_arg4 (by decide)).trans rfl
theorem V1_main_arg5 (c : Dev nD) : V1 m c main_arg5 = m ((c.tc : Thread nD τ).loc main_arg5) :=
  (W1_of m c main_arg5 (by decide)).trans rfl
theorem V1_main_arg6 (c : Dev nD) : V1 m c main_arg6 = m ((c.tc : Thread nD τ).loc main_arg6) :=
  (W1_of m c main_arg6 (by decide)).trans rfl
theorem V1_main_arg7 (c : Dev nD) : V1 m c main_arg7 = m ((c.tc : Thread nD τ).loc main_arg7) :=
  (W1_of m c main_arg7 (by decide)).trans rfl
theorem V1_main_arg8 (c : Dev nD) : V1 m c main_arg8 = m ((c.tc : Thread nD τ).loc main_arg8) :=
  (W1_of m c main_arg8 (by decide)).trans rfl
theorem V1_main_arg9 (c : Dev nD) : V1 m c main_arg9 = m ((c.tc : Thread nD τ).loc main_arg9) :=
  (W1_of m c main_arg9 (by decide)).trans rfl
theorem V1_main_arg10 (c : Dev nD) : V1 m c main_arg10 = m ((c.tc : Thread nD τ).loc main_arg10) :=
  (W1_of m c main_arg10 (by decide)).trans rfl
theorem V1_main_arg11 (c : Dev nD) : V1 m c main_arg11 = m ((c.tc : Thread nD τ).loc main_arg11) :=
  (W1_of m c main_arg11 (by decide)).trans rfl
theorem V1_main_arg12 (c : Dev nD) : V1 m c main_arg12 = m ((c.tc : Thread nD τ).loc main_arg12) :=
  (W1_of m c main_arg12 (by decide)).trans rfl
theorem V1_main_v0 (c : Dev nD) : V1 m c main_v0 = shapeCast S64x250 (m ((c.tc : Thread nD τ).loc main_arg13)) shapeCasts_S64x50x5_S64x250 := by
  show StableHlo.after hostOps0 (W0 m c) (Proc.devRef .tc main_v0) = _
  after_results; rfl

theorem V3_main_v2 (c : Dev nD) : V3 m c main_v2 = shapeCast S1024x50x5 ((dat0 (V1 m) c).arrAt 15 cfg0.N) shapeCasts_S1024x250_S1024x50x5 := by
  show StableHlo.after hostOps1 (W2 m c) (Proc.devRef .tc main_v2) = _
  after_results
  rw [show W2 m c (Proc.devRef .tc main_v1_1) = (dat0 (V1 m) c).arrAt 15 cfg0.N from W2_arr m c 15]
  rfl
theorem V3_main_v1_0 (c : Dev nD) : V3 m c main_v1_0 = (dat0 (V1 m) c).arrAt 14 cfg0.N :=
  (W3_of m c main_v1_0 (by decide)).trans (W2_arr m c 14)
theorem W2_main_arg14 (c : Dev nD) : W2 m c (Proc.devRef .tc main_arg14) = m ((c.tc : Thread nD τ).loc main_arg14) :=
  (W2_of_ne m c main_arg14 (by decide)).trans ((W1_of m c main_arg14 (by decide)).trans rfl)
theorem W2_main_arg15 (c : Dev nD) : W2 m c (Proc.devRef .tc main_arg15) = m ((c.tc : Thread nD τ).loc main_arg15) :=
  (W2_of_ne m c main_arg15 (by decide)).trans ((W1_of m c main_arg15 (by decide)).trans rfl)
theorem V3_main_v3 (c : Dev nD) : V3 m c main_v3 = extractStridedSlice S64x1 ![0, 0] (m ((c.tc : Thread nD τ).loc main_arg14)) slices_S114x1_S64x1_0_0 := by
  show StableHlo.after hostOps1 (W2 m c) (Proc.devRef .tc main_v3) = _
  after_results
  rw [W2_main_arg14]
theorem V3_main_v4 (c : Dev nD) : V3 m c main_v4 = extractStridedSlice S50x1 ![64, 0] (m ((c.tc : Thread nD τ).loc main_arg14)) slices_S114x1_S50x1_64_0 := by
  show StableHlo.after hostOps1 (W2 m c) (Proc.devRef .tc main_v4) = _
  after_results
  rw [W2_main_arg14]
theorem V3_main_v5 (c : Dev nD) : V3 m c main_v5 = shapeCast S1x1 (m ((c.tc : Thread nD τ).loc main_arg15)) shapeCasts_S1_S1x1 := by
  show StableHlo.after hostOps1 (W2 m c) (Proc.devRef .tc main_v5) = _
  after_results
  rw [W2_main_arg15]
  rfl

/-- The result array is host stretch 2's reshape of the score array as region 1 leaves it. -/
theorem kernelOut_eq (c : Dev nD) : kernelOut m c = shapeCast S1024 ((dat1 (V3 m) c).arrAt 6 cfg1.N) shapeCasts_S1024x1_S1024 := by
  show StableHlo.after hostOps2 (W4 m c) (Proc.devRef .tc main_v7) = _
  after_results
  rw [W4_main_v6]
  rfl

/-! ### The arguments end as launched: no host operation writes one, and a region only reads it -/

theorem W5_main_arg0 (c : Dev nD) : W5 m c (Proc.devRef .tc main_arg0) = m ((c.tc : Thread nD τ).loc main_arg0) :=
  (W5_of m c main_arg0 (by decide)).trans <| (W4_of m c main_arg0 (by decide)).trans <| (W3_of m c main_arg0 (by decide)).trans <|
    ((W2_arr m c 0).trans (((dat0 (V1 m) c).arrAt_in 0 rfl _).trans (dat0_A (V1 m) c 0))).trans <| (W1_of m c main_arg0 (by decide)).trans rfl
theorem W5_main_arg1 (c : Dev nD) : W5 m c (Proc.devRef .tc main_arg1) = m ((c.tc : Thread nD τ).loc main_arg1) :=
  (W5_of m c main_arg1 (by decide)).trans <| (W4_of m c main_arg1 (by decide)).trans <| (W3_of m c main_arg1 (by decide)).trans <|
    ((W2_arr m c 1).trans (((dat0 (V1 m) c).arrAt_in 1 rfl _).trans (dat0_A (V1 m) c 1))).trans <| (W1_of m c main_arg1 (by decide)).trans rfl
theorem W5_main_arg2 (c : Dev nD) : W5 m c (Proc.devRef .tc main_arg2) = m ((c.tc : Thread nD τ).loc main_arg2) :=
  (W5_of m c main_arg2 (by decide)).trans <| (W4_of m c main_arg2 (by decide)).trans <| (W3_of m c main_arg2 (by decide)).trans <|
    ((W2_arr m c 2).trans (((dat0 (V1 m) c).arrAt_in 2 rfl _).trans (dat0_A (V1 m) c 2))).trans <| (W1_of m c main_arg2 (by decide)).trans rfl
theorem W5_main_arg3 (c : Dev nD) : W5 m c (Proc.devRef .tc main_arg3) = m ((c.tc : Thread nD τ).loc main_arg3) :=
  (W5_of m c main_arg3 (by decide)).trans <| (W4_of m c main_arg3 (by decide)).trans <| (W3_of m c main_arg3 (by decide)).trans <|
    ((W2_arr m c 3).trans (((dat0 (V1 m) c).arrAt_in 3 rfl _).trans (dat0_A (V1 m) c 3))).trans <| (W1_of m c main_arg3 (by decide)).trans rfl
theorem W5_main_arg4 (c : Dev nD) : W5 m c (Proc.devRef .tc main_arg4) = m ((c.tc : Thread nD τ).loc main_arg4) :=
  (W5_of m c main_arg4 (by decide)).trans <| (W4_of m c main_arg4 (by decide)).trans <| (W3_of m c main_arg4 (by decide)).trans <|
    ((W2_arr m c 4).trans (((dat0 (V1 m) c).arrAt_in 4 rfl _).trans (dat0_A (V1 m) c 4))).trans <| (W1_of m c main_arg4 (by decide)).trans rfl
theorem W5_main_arg5 (c : Dev nD) : W5 m c (Proc.devRef .tc main_arg5) = m ((c.tc : Thread nD τ).loc main_arg5) :=
  (W5_of m c main_arg5 (by decide)).trans <| (W4_of m c main_arg5 (by decide)).trans <| (W3_of m c main_arg5 (by decide)).trans <|
    ((W2_arr m c 5).trans (((dat0 (V1 m) c).arrAt_in 5 rfl _).trans (dat0_A (V1 m) c 5))).trans <| (W1_of m c main_arg5 (by decide)).trans rfl
theorem W5_main_arg6 (c : Dev nD) : W5 m c (Proc.devRef .tc main_arg6) = m ((c.tc : Thread nD τ).loc main_arg6) :=
  (W5_of m c main_arg6 (by decide)).trans <| (W4_of m c main_arg6 (by decide)).trans <| (W3_of m c main_arg6 (by decide)).trans <|
    ((W2_arr m c 6).trans (((dat0 (V1 m) c).arrAt_in 6 rfl _).trans (dat0_A (V1 m) c 6))).trans <| (W1_of m c main_arg6 (by decide)).trans rfl
theorem W5_main_arg7 (c : Dev nD) : W5 m c (Proc.devRef .tc main_arg7) = m ((c.tc : Thread nD τ).loc main_arg7) :=
  (W5_of m c main_arg7 (by decide)).trans <| (W4_of m c main_arg7 (by decide)).trans <| (W3_of m c main_arg7 (by decide)).trans <|
    ((W2_arr m c 7).trans (((dat0 (V1 m) c).arrAt_in 7 rfl _).trans (dat0_A (V1 m) c 7))).trans <| (W1_of m c main_arg7 (by decide)).trans rfl
theorem W5_main_arg8 (c : Dev nD) : W5 m c (Proc.devRef .tc main_arg8) = m ((c.tc : Thread nD τ).loc main_arg8) :=
  (W5_of m c main_arg8 (by decide)).trans <| (W4_of m c main_arg8 (by decide)).trans <| (W3_of m c main_arg8 (by decide)).trans <|
    ((W2_arr m c 8).trans (((dat0 (V1 m) c).arrAt_in 8 rfl _).trans (dat0_A (V1 m) c 8))).trans <| (W1_of m c main_arg8 (by decide)).trans rfl
theorem W5_main_arg9 (c : Dev nD) : W5 m c (Proc.devRef .tc main_arg9) = m ((c.tc : Thread nD τ).loc main_arg9) :=
  (W5_of m c main_arg9 (by decide)).trans <| (W4_of m c main_arg9 (by decide)).trans <| (W3_of m c main_arg9 (by decide)).trans <|
    ((W2_arr m c 9).trans (((dat0 (V1 m) c).arrAt_in 9 rfl _).trans (dat0_A (V1 m) c 9))).trans <| (W1_of m c main_arg9 (by decide)).trans rfl
theorem W5_main_arg10 (c : Dev nD) : W5 m c (Proc.devRef .tc main_arg10) = m ((c.tc : Thread nD τ).loc main_arg10) :=
  (W5_of m c main_arg10 (by decide)).trans <| (W4_of m c main_arg10 (by decide)).trans <| (W3_of m c main_arg10 (by decide)).trans <|
    ((W2_arr m c 10).trans (((dat0 (V1 m) c).arrAt_in 10 rfl _).trans (dat0_A (V1 m) c 10))).trans <| (W1_of m c main_arg10 (by decide)).trans rfl
theorem W5_main_arg11 (c : Dev nD) : W5 m c (Proc.devRef .tc main_arg11) = m ((c.tc : Thread nD τ).loc main_arg11) :=
  (W5_of m c main_arg11 (by decide)).trans <| (W4_of m c main_arg11 (by decide)).trans <| (W3_of m c main_arg11 (by decide)).trans <|
    ((W2_arr m c 11).trans (((dat0 (V1 m) c).arrAt_in 11 rfl _).trans (dat0_A (V1 m) c 11))).trans <| (W1_of m c main_arg11 (by decide)).trans rfl
theorem W5_main_arg12 (c : Dev nD) : W5 m c (Proc.devRef .tc main_arg12) = m ((c.tc : Thread nD τ).loc main_arg12) :=
  (W5_of m c main_arg12 (by decide)).trans <| (W4_of m c main_arg12 (by decide)).trans <| (W3_of m c main_arg12 (by decide)).trans <|
    ((W2_arr m c 12).trans (((dat0 (V1 m) c).arrAt_in 12 rfl _).trans (dat0_A (V1 m) c 12))).trans <| (W1_of m c main_arg12 (by decide)).trans rfl
theorem W5_main_arg13 (c : Dev nD) : W5 m c (Proc.devRef .tc main_arg13) = m ((c.tc : Thread nD τ).loc main_arg13) :=
  (W5_of m c main_arg13 (by decide)).trans <| (W4_of m c main_arg13 (by decide)).trans <| (W3_of m c main_arg13 (by decide)).trans <|
    (W2_of_ne m c main_arg13 (by decide)).trans <| (W1_of m c main_arg13 (by decide)).trans rfl
theorem W5_main_arg14 (c : Dev nD) : W5 m c (Proc.devRef .tc main_arg14) = m ((c.tc : Thread nD τ).loc main_arg14) :=
  (W5_of m c main_arg14 (by decide)).trans <| (W4_of m c main_arg14 (by decide)).trans <| (W3_of m c main_arg14 (by decide)).trans <|
    (W2_of_ne m c main_arg14 (by decide)).trans <| (W1_of m c main_arg14 (by decide)).trans rfl
theorem W5_main_arg15 (c : Dev nD) : W5 m c (Proc.devRef .tc main_arg15) = m ((c.tc : Thread nD τ).loc main_arg15) :=
  (W5_of m c main_arg15 (by decide)).trans <| (W4_of m c main_arg15 (by decide)).trans <| (W3_of m c main_arg15 (by decide)).trans <|
    (W2_of_ne m c main_arg15 (by decide)).trans <| (W1_of m c main_arg15 (by decide)).trans rfl

/-! ## The proof data family and the thread state -/

/-- Every pipeline's proof data, each at its region's entry contents: a literal match on the pipeline's index, so
    that the configuration pinned at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and that the core owes nothing. -/
abbrev R (c : Dev nD) : sProp 𝕄 := iprop((∃ r, prngReg c r) ∗ ∃ W, owes (c : Thread nD τ) (0 : CellTallies nD τ sig Unit) W)
/-- A host stretch as a segment: the line of operations over the unscoped references from the contents `W`, `R`
    riding along; it ends with those references at the contents the operations leave. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- REGION 0 (the backbone call) over the thread state: entered from every unscoped buffer at `W1`, left at `W2`.
    Its arrays are split out of the unscoped buffers and put back at the exit contents; the generator register goes
    into the class invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1's arrays: windows 0 and 1 read ONE array, each at half the full share -/

/-- The distinct buffers behind region 1's arrays, conjoined one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v2) ↦{fullShare} V main_v2) ∗ (((c : Thread nD τ).loc main_v1_0) ↦{fullShare} V main_v1_0) ∗ (((c : Thread nD τ).loc main_v3) ↦{fullShare} V main_v3) ∗ (((c : Thread nD τ).loc main_v4) ↦{fullShare} V main_v4) ∗ (((c : Thread nD τ).loc main_v5) ↦{fullShare} V main_v5) ∗ (((c : Thread nD τ).loc main_v6) ↦{fullShare} V main_v6)) := by
  unfold Pipeline.arrBufs
  exact bigSep_eq_bigSepL_of_eq [main_v2, main_v1_0, main_v3, main_v4, main_v5, main_v6] (by decide) (by decide) _

/-- Region 1's arrays, conjoined window by window: each a whole buffer; the feature array twice, at the left and the
    right half of the full share (the two windows reading it); the others at the full share. -/
theorem arrays1_eq (c : Dev nD) (V' : (c : Dev nD) → (b : Ref sig .tc) → Buf (Elt F) ((c : Thread nD τ).loc b))
    (G : (w : Fin cfg1.W) → Buf (Elt F) ((cfg1.win w).arr.view.loc (c.tc : Thread nD τ))) :
    ((dat1 V' c).arrays G : sProp 𝕄)
      = iprop((((c : Thread nD τ).loc main_v2) ↦{fullShare.left} G 0) ∗ (((c : Thread nD τ).loc main_v2) ↦{fullShare.right} G 1) ∗ (((c : Thread nD τ).loc main_v1_0) ↦{fullShare} G 2) ∗ (((c : Thread nD τ).loc main_v3) ↦{fullShare} G 3) ∗ (((c : Thread nD τ).loc main_v4) ↦{fullShare} G 4) ∗ (((c : Thread nD τ).loc main_v5) ↦{fullShare} G 5) ∗ (((c : Thread nD τ).loc main_v6) ↦{fullShare} G 6)) := by
  unfold Dat.arrays
  rw [show (fun w : Fin cfg1.W => ((cfg1.win w).arr.view.loc (c.tc : Thread nD τ) ↦[(cfg1.win w).arr.view.set]{(dat1 V' c).share w} G w : sProp 𝕄))
      = fun w => (((cfg1.win w).arr.view.loc (c.tc : Thread nD τ)) ↦{(dat1 V' c).share w} G w) from funext fun w => by rw [(arr_whole1 w).set_eq_univ]]
  exact bigSep_W1 _

/-- The buffers behind region 1's arrays at contents `V` make the pipeline's arrays at the same contents: the feature
    array's points-to splits along the share into the halves its two windows hold. -/
theorem arrays1_of_arrBufs (c : Dev nD) (V' : (c : Dev nD) → (b : Ref sig .tc) → Buf (Elt F) ((c : Thread nD τ).loc b))
    (V : (b : Ref sig .tc) → Buf (Elt F) ((c : Thread nD τ).loc b))
    (G : (w : Fin cfg1.W) → Buf (Elt F) ((cfg1.win w).arr.view.loc (c.tc : Thread nD τ))) (hG : ∀ w, G w = V (Pipeline.arrRef spec1 w)) :
    (Pipeline.arrBufs (Ix := Unit) (Name := ℕ) (U := UR sig nD τ) (Lvl := ℕ) spec1 c V : sProp 𝕄) ⊢ (dat1 V' c).arrays G := by
  rw [arrBufs1_eq, arrays1_eq, hG 0, hG 1, hG 2, hG 3, hG 4, hG 5, hG 6]
  iintro ⟨H2, H10, H3, H4, H5, H6⟩
  ihave H := (pointsTo_share (PosShare.mem_left_op_right fullShare)).1 $$ H2
  icases H with ⟨Hl, Hr⟩
  isplitl [Hl]; · iexact Hl
  isplitl [Hr]; · iexact Hr
  isplitl [H10]; · iexact H10
  isplitl [H3]; · iexact H3
  isplitl [H4]; · iexact H4
  isplitl [H5]; · iexact H5
  iexact H6

/-- Backwards: the pipeline's arrays at contents read off `V` give the buffers behind them back whole; the two
    halves of the feature array hold the same contents and rejoin. -/
theorem arrBufs_of_arrays1 (c : Dev nD) (V' : (c : Dev nD) → (b : Ref sig .tc) → Buf (Elt F) ((c : Thread nD τ).loc b))
    (V : (b : Ref sig .tc) → Buf (Elt F) ((c : Thread nD τ).loc b))
    (G : (w : Fin cfg1.W) → Buf (Elt F) ((cfg1.win w).arr.view.loc (c.tc : Thread nD τ))) (hG : ∀ w, G w = V (Pipeline.arrRef spec1 w)) :
    ((dat1 V' c).arrays G : sProp 𝕄) ⊢ Pipeline.arrBufs (Ix := Unit) (Name := ℕ) (U := UR sig nD τ) (Lvl := ℕ) spec1 c V := by
  rw [arrBufs1_eq, arrays1_eq, hG 0, hG 1, hG 2, hG 3, hG 4, hG 5, hG 6]
  iintro ⟨Hl, Hr, H10, H3, H4, H5, H6⟩
  isplitl [Hl Hr]
  · iapply (pointsTo_share (PosShare.mem_left_op_right fullShare)).2
    isplitl [Hl]; · iexact Hl
    iexact Hr
  isplitl [H10]; · iexact H10
  isplitl [H3]; · iexact H3
  isplitl [H4]; · iexact H4
  isplitl [H5]; · iexact H5
  iexact H6

/-- At region 1's exit each of its arrays holds what the exit contents `W4` say: an input ends as entered (and no
    input is the score array, the one buffer `W4` changes), the score array ends at its write-backs folded. -/
theorem exit1_arr (c : Dev nD) : ∀ w : Fin 7, (dat1 (V3 m) c).arrAt w cfg1.N = V4 m c (Pipeline.arrRef spec1 w)
  | 0 => ((dat1 (V3 m) c).arrAt_in 0 rfl _).trans ((dat1_A (V3 m) c 0).trans (W4_of m c main_v2 (by decide)).symm)
  | 1 => ((dat1 (V3 m) c).arrAt_in 1 rfl _).trans ((dat1_A (V3 m) c 1).trans (W4_of m c main_v2 (by decide)).symm)
  | 2 => ((dat1 (V3 m) c).arrAt_in 2 rfl _).trans ((dat1_A (V3 m) c 2).trans (W4_of m c main_v1_0 (by decide)).symm)
  | 3 => ((dat1 (V3 m) c).arrAt_in 3 rfl _).trans ((dat1_A (V3 m) c 3).trans (W4_of m c main_v3 (by decide)).symm)
  | 4 => ((dat1 (V3 m) c).arrAt_in 4 rfl _).trans ((dat1_A (V3 m) c 4).trans (W4_of m c main_v4 (by decide)).symm)
  | 5 => ((dat1 (V3 m) c).arrAt_in 5 rfl _).trans ((dat1_A (V3 m) c 5).trans (W4_of m c main_v5 (by decide)).symm)
  | 6 => (W4_main_v6 m c).symm
  | ⟨_ + 7, h⟩ => absurd h (Nat.not_lt.2 (Nat.le_add_left _ _))
/-- Off region 1's arrays the exit contents are the entry contents. -/
theorem exit1_rest (c : Dev nD) :
    (Pipeline.unscopedRest (Ix := Unit) (Name := ℕ) (U := UR sig nD τ) (Lvl := ℕ) spec1 c (V3 m c) : sProp 𝕄)
      = Pipeline.unscopedRest spec1 c (V4 m c) := by
  unfold Pipeline.unscopedRest
  exact bigSep_congr fun b hb => by
    have hne : b ≠ main_v6 := fun e => (Finset.mem_sdiff.mp hb).2 (e ▸ Finset.mem_image.mpr ⟨(6 : Fin 7), Finset.mem_univ _, rfl⟩)
    rw [show V4 m c b = V3 m c b from W4_of m c b hne]

set_option backward.isDefEq.respectTransparency.types false in
/-- REGION 1 (the pairwise call) over the thread state: entered from every unscoped buffer at `W3`, left at `W4`.
    The buffers behind its arrays are split out of the unscoped buffers, the feature array's into the two halves its
    two windows hold, and put back whole at the exit contents; the generator register and the scoped rest go into the
    region's invariant through the class invariant and come out of it; nothing is owed; no semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit : (unscopedBufs (Ix := Unit) (Name := ℕ) (U := UR sig nD τ) (Lvl := ℕ) c (V3 m c) : sProp 𝕄)
        ⊢ iprop((pdats m 1 c).arrays ((pdats m 1 c).arrAt · 0) ∗ Pipeline.unscopedRest spec1 c (V3 m c)) := by
      rw [Pipeline.unscopedBufs_split₀ cfgs 1 winFacts₀1.arr_unscoped c (V3 m c)]
      exact sep_mono (arrays1_of_arrBufs c (V3 m) (V3 m c) _ fun w => dat1_A (V3 m) c w) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m) c)
    unfold Pipeline.ΦA
    iintro ⟨Hp, -, Hr⟩
    isplitl [Hr]; · iexact Hr
    iexact Hp
  hout c := by
    refine BIBase.Entails.trans (hout1 (V3 m) c) ?_
    rw [Pipeline.ownSems0_none]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (V3 m c))
        ⊢ (unscopedBufs (Ix := Unit) (Name := ℕ) (U := UR sig nD τ) (Lvl := ℕ) c (V4 m c) : sProp 𝕄) := by
      rw [Pipeline.unscopedBufs_split₀ cfgs 1 winFacts₀1.arr_unscoped c (V4 m c), exit1_rest m c]
      exact sep_mono (arrBufs_of_arrays1 c (V3 m) (V4 m c) _ (exit1_arr m c)) .rfl
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five segments in order: a host segment per stretch from its boundary's contents, a region per call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
/-- @main IS the run of the segments: it is the chain of its items, and so is the segments' run. -/
theorem main_run (c : Dev nD) : main (F := F) c = Pipeline.Seg.run (segs m) := (main_chain c).trans (by chain_rfl)

set_option backward.isDefEq.respectTransparency.types false in
/-- THE RUN. At the compiled mesh, from any memory with zero counters, every weakly fair execution of @main on the
    TensorCores terminates, nothing faulting, and every final state has the result array at `kernelOut` and the
    argument arrays as launched: the launch over the five segments, the last thread state (every unscoped buffer at
    `W5`) read against the final state, the result by definition of `kernelOut`, each argument by `W5_main_argK`. -/
theorem run_all : θ_run defs (onTc (τ := τ) (main (F := F))) ⟨m, fun _ => 0, ρ⟩ (fun r => ∀ c : Dev nD,
      r.2.mem ((c.tc : Thread nD τ).loc main_v7) = kernelOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c) ⊢ iprop((StableHlo.held (c : Thread nD τ) (Pipeline.ucRefs τ sig) (W5 m c) ∗ ∃ r, prngReg c r) ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c =>
      ⟨h c _ (mem_uc main_v7 (by decide)),
       (h c _ (mem_uc main_arg0 (by decide))).trans (W5_main_arg0 m c),
       (h c _ (mem_uc main_arg1 (by decide))).trans (W5_main_arg1 m c),
       (h c _ (mem_uc main_arg2 (by decide))).trans (W5_main_arg2 m c),
       (h c _ (mem_uc main_arg3 (by decide))).trans (W5_main_arg3 m c),
       (h c _ (mem_uc main_arg4 (by decide))).trans (W5_main_arg4 m c),
       (h c _ (mem_uc main_arg5 (by decide))).trans (W5_main_arg5 m c),
       (h c _ (mem_uc main_arg6 (by decide))).trans (W5_main_arg6 m c),
       (h c _ (mem_uc main_arg7 (by decide))).trans (W5_main_arg7 m c),
       (h c _ (mem_uc main_arg8 (by decide))).trans (W5_main_arg8 m c),
       (h c _ (mem_uc main_arg9 (by decide))).trans (W5_main_arg9 m c),
       (h c _ (mem_uc main_arg10 (by decide))).trans (W5_main_arg10 m c),
       (h c _ (mem_uc main_arg11 (by decide))).trans (W5_main_arg11 m c),
       (h c _ (mem_uc main_arg12 (by decide))).trans (W5_main_arg12 m c),
       (h c _ (mem_uc main_arg13 (by decide))).trans (W5_main_arg13 m c),
       (h c _ (mem_uc main_arg14 (by decide))).trans (W5_main_arg14 m c),
       (h c _ (mem_uc main_arg15 (by decide))).trans (W5_main_arg15 m c)⟩)

/-- The frame alone: the same run, keeping of its post only that the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run _ _ _).mono (fun _ h c => (h c).2) (run_all m ρ)

end Cert.Kernel.Hand

end
-- ==== Proof.KI.R0.lean ====
import proofs.«180788_j42898133352735_1_alg».proof.Proof.Gen.KernelIdeal.Launch
import proofs.«180788_j42898133352735_1_alg».proof.Proof.Gen.KernelIdeal.Skeleton
import proofs.«180788_j42898133352735_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (the backbone call): one grid point, every window a whole array

The region's half is stated at a parameter `V`: the TensorCore's buffer contents when the region is entered. -/

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangle of each shape the body loads or stores through. -/
abbrev rw_S1024x128 : Rect S1024x128 := Rect.unit (s := S1024x128) ![0, 0] S1024x128.size inb_S1024x128_S1024x128_0_0
abbrev rw_S128x256 : Rect S128x256 := Rect.unit (s := S128x256) ![0, 0] S128x256.size inb_S128x256_S128x256_0_0
abbrev rw_S256 : Rect S256 := Rect.unit (s := S256) ![0] S256.size inb_S256_S256_0
abbrev rw_S256x128 : Rect S256x128 := Rect.unit (s := S256x128) ![0, 0] S256x128.size inb_S256x128_S256x128_0_0
abbrev rw_S128 : Rect S128 := Rect.unit (s := S128) ![0] S128.size inb_S128_S128_0
abbrev rw_S128x64 : Rect S128x64 := Rect.unit (s := S128x64) ![0, 0] S128x64.size inb_S128x64_S128x64_0_0
abbrev rw_S64 : Rect S64 := Rect.unit (s := S64) ![0] S64.size inb_S64_S64_0
abbrev rw_S64x64 : Rect S64x64 := Rect.unit (s := S64x64) ![0, 0] S64x64.size inb_S64x64_S64x64_0_0
abbrev rw_S64x250 : Rect S64x250 := Rect.unit (s := S64x250) ![0, 0] S64x250.size inb_S64x250_S64x250_0_0
abbrev rw_S1024x64 : Rect S1024x64 := Rect.unit (s := S1024x64) ![0, 0] S1024x64.size inb_S1024x64_S1024x64_0_0
abbrev rw_S1024x250 : Rect S1024x250 := Rect.unit (s := S1024x250) ![0, 0] S1024x250.size inb_S1024x250_S1024x250_0_0

/-- The backbone's hidden state `h` (the first output), as the body's payloads composed over the thirteen input
    buffers it reads: the normalised two-layer prefix (`k0_pay2`), then the affine map, the third layer and the two
    value / output projections added back (`k0_pay3`). -/
def hPay (x0 : Vec F S1024x128 .f32) (x1 : Vec F S128x256 .f32) (x2 : Vec F S256 .f32) (x3 : Vec F S256x128 .f32) (x4 x5 x6 : Vec F S128 .f32)
    (x7 : Vec F S128x64 .f32) (x8 : Vec F S64 .f32) (x9 : Vec F S64x64 .f32) (x10 : Vec F S64 .f32) (x11 : Vec F S64x64 .f32) (x12 : Vec F S64 .f32) : Vec F S1024x64 .f32 :=
  k0_pay3 (k0_pay2 x0 x1 x2 x3 x4) x5 x6 x7 x8 x9 x10 x11 x12

/-- The projected features `h · Tf` (the second output), likewise. -/
def mPay (x0 : Vec F S1024x128 .f32) (x1 : Vec F S128x256 .f32) (x2 : Vec F S256 .f32) (x3 : Vec F S256x128 .f32) (x4 x5 x6 : Vec F S128 .f32)
    (x7 : Vec F S128x64 .f32) (x8 : Vec F S64 .f32) (x9 : Vec F S64x64 .f32) (x10 : Vec F S64 .f32) (x11 : Vec F S64x64 .f32) (x12 : Vec F S64 .f32) (x13 : Vec F S64x250 .f32) : Vec F S1024x250 .f32 :=
  k0_pay1 (k0_pay4 (k0_pay2 x0 x1 x2 x3 x4) x5 x6 x7 x8 x9 x10 x11 x12) x13

/-- What the body leaves in output window 14's staging buffer: its one store as a piece over the loaded inputs. -/
def out0_14 (x0 : Vec F S1024x128 .f32) (x1 : Vec F S128x256 .f32) (x2 : Vec F S256 .f32) (x3 : Vec F S256x128 .f32) (x4 x5 x6 : Vec F S128 .f32)
    (x7 : Vec F S128x64 .f32) (x8 : Vec F S64 .f32) (x9 : Vec F S64x64 .f32) (x10 : Vec F S64 .f32) (x11 : Vec F S64x64 .f32) (x12 : Vec F S64 .f32) : Vec F S1024x64 .f32 :=
  View.canon [⟨rw_S1024x64, hPay (View.ld x0 rw_S1024x128) (View.ld x1 rw_S128x256) (View.ld x2 rw_S256) (View.ld x3 rw_S256x128) (View.ld x4 rw_S128) (View.ld x5 rw_S128) (View.ld x6 rw_S128)
    (View.ld x7 rw_S128x64) (View.ld x8 rw_S64) (View.ld x9 rw_S64x64) (View.ld x10 rw_S64) (View.ld x11 rw_S64x64) (View.ld x12 rw_S64)⟩]

/-- What the body leaves in output window 15's staging buffer. -/
def out0_15 (x0 : Vec F S1024x128 .f32) (x1 : Vec F S128x256 .f32) (x2 : Vec F S256 .f32) (x3 : Vec F S256x128 .f32) (x4 x5 x6 : Vec F S128 .f32)
    (x7 : Vec F S128x64 .f32) (x8 : Vec F S64 .f32) (x9 : Vec F S64x64 .f32) (x10 : Vec F S64 .f32) (x11 : Vec F S64x64 .f32) (x12 : Vec F S64 .f32) (x13 : Vec F S64x250 .f32) : Vec F S1024x250 .f32 :=
  View.canon [⟨rw_S1024x250, mPay (View.ld x0 rw_S1024x128) (View.ld x1 rw_S128x256) (View.ld x2 rw_S256) (View.ld x3 rw_S256x128) (View.ld x4 rw_S128) (View.ld x5 rw_S128) (View.ld x6 rw_S128)
    (View.ld x7 rw_S128x64) (View.ld x8 rw_S64) (View.ld x9 rw_S64x64) (View.ld x10 rw_S64) (View.ld x11 rw_S64x64) (View.ld x12 rw_S64) (View.ld x13 rw_S64x250)⟩]

/-- The proof data of pipeline 0 on core `c`: the arrays as the region finds them; after the body each input's buffer
    at its block and each output's at what the body stored; the class-A invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t)
    | ⟨15, _⟩ => out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
    | ⟨_ + 16, h⟩ => absurd h (Nat.not_lt.2 (Nat.le_add_left _ _))
  Φ _ := Pipeline.ΦA spec0 c
  q _ := fullShare
  owed _ := 0

/-! ## What the other modules take from this one (statements fixed; proofs below them) -/

theorem dat0_A (c : Dev nD) (w : Fin cfg0.W) : (dat0 V c).A w = V c (Pipeline.arrRef spec0 w) := by
  dsimp only [dat0]
theorem dat0_Phi (c : Dev nD) (t : Fin (cfg0.N + 1)) : (dat0 V c).Φ t = Pipeline.ΦA spec0 c := rfl
theorem dat0_owed (c : Dev nD) (t : Fin (cfg0.N + 1)) : (dat0 V c).owed t = 0 := rfl
theorem dat0_q (c : Dev nD) (w : Fin cfg0.W) : (dat0 V c).q w = fullShare := rfl
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) := by dsimp only [dat0]
theorem after0_15 (c : Dev nD) (t : Fin cfg0.N) : (dat0 V c).after 15 t = out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) := by dsimp only [dat0]

/-- The origin of a rectangle over a whole buffer, however its zeros are spelt, is the zero offset. -/
private theorem hz1 : (![0] : Fin 1 → Nat) = fun _ => 0 := funext fun a => by fin_cases a; rfl
private theorem hz2 : (![0, 0] : Fin 2 → Nat) = fun _ => 0 := funext fun a => by fin_cases a <;> rfl

/-- A whole-buffer store over whole-buffer loads is the payload itself. -/
theorem out0_14_eq (x0 : Vec F S1024x128 .f32) (x1 : Vec F S128x256 .f32) (x2 : Vec F S256 .f32) (x3 : Vec F S256x128 .f32) (x4 x5 x6 : Vec F S128 .f32)
    (x7 : Vec F S128x64 .f32) (x8 : Vec F S64 .f32) (x9 : Vec F S64x64 .f32) (x10 : Vec F S64 .f32) (x11 : Vec F S64x64 .f32) (x12 : Vec F S64 .f32) :
    out0_14 x0 x1 x2 x3 x4 x5 x6 x7 x8 x9 x10 x11 x12 = hPay x0 x1 x2 x3 x4 x5 x6 x7 x8 x9 x10 x11 x12 := by
  unfold out0_14
  rw [View.canon_unit_zero hz2]
  simp only [View.ld_unit_zero (S := S1024x128) hz2, View.ld_unit_zero (S := S128x256) hz2, View.ld_unit_zero (S := S256) hz1, View.ld_unit_zero (S := S256x128) hz2, View.ld_unit_zero (S := S128) hz1, View.ld_unit_zero (S := S128x64) hz2, View.ld_unit_zero (S := S64) hz1, View.ld_unit_zero (S := S64x64) hz2, View.ld_unit_zero (S := S64x250) hz2]
theorem out0_15_eq (x0 : Vec F S1024x128 .f32) (x1 : Vec F S128x256 .f32) (x2 : Vec F S256 .f32) (x3 : Vec F S256x128 .f32) (x4 x5 x6 : Vec F S128 .f32)
    (x7 : Vec F S128x64 .f32) (x8 : Vec F S64 .f32) (x9 : Vec F S64x64 .f32) (x10 : Vec F S64 .f32) (x11 : Vec F S64x64 .f32) (x12 : Vec F S64 .f32) (x13 : Vec F S64x250 .f32) :
    out0_15 x0 x1 x2 x3 x4 x5 x6 x7 x8 x9 x10 x11 x12 x13 = mPay x0 x1 x2 x3 x4 x5 x6 x7 x8 x9 x10 x11 x12 x13 := by
  unfold out0_15
  rw [View.canon_unit_zero hz2]
  simp only [View.ld_unit_zero (S := S1024x128) hz2, View.ld_unit_zero (S := S128x256) hz2, View.ld_unit_zero (S := S256) hz1, View.ld_unit_zero (S := S256x128) hz2, View.ld_unit_zero (S := S128) hz1, View.ld_unit_zero (S := S128x64) hz2, View.ld_unit_zero (S := S64) hz1, View.ld_unit_zero (S := S64x64) hz2, View.ld_unit_zero (S := S64x250) hz2]

/-! ## The input windows' buffers when the body is called

Each input window is uncut and never idle, and the body leaves its block in place: its current staging buffer holds
its block at every point, fetched there or not (unfetched, the block index has not moved). -/

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [dat0_A]; try rfl) t d).trans
    (by unfold Dat.fetched Dat.blockOf iblk0; rw [dat0_A]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [dat0_A]; try rfl) t d).trans
    (by unfold Dat.fetched Dat.blockOf iblk0; rw [dat0_A]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [dat0_A]; try rfl) t d).trans
    (by unfold Dat.fetched Dat.blockOf iblk0; rw [dat0_A]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [dat0_A]; try rfl) t d).trans
    (by unfold Dat.fetched Dat.blockOf iblk0; rw [dat0_A]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [dat0_A]; try rfl) t d).trans
    (by unfold Dat.fetched Dat.blockOf iblk0; rw [dat0_A]; try rfl)
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [dat0_A]; try rfl) t d).trans
    (by unfold Dat.fetched Dat.blockOf iblk0; rw [dat0_A]; try rfl)
theorem before0_6 (c : Dev nD) (t : Fin cfg0.N) (d) : (dat0 V c).before 6 t d = iblk0 V c 6 t :=
  ((dat0 V c).before_in_eq_fetched 6 rfl (fun _ => rfl) (fun _ _ _ => rfl) (fun t => by rw [after0_6]; unfold Dat.blockOf iblk0; rw [dat0_A]; try rfl) t d).trans
    (by unfold Dat.fetched Dat.blockOf iblk0; rw [dat0_A]; try rfl)
theorem before0_7 (c : Dev nD) (t : Fin cfg0.N) (d) : (dat0 V c).before 7 t d = iblk0 V c 7 t :=
  ((dat0 V c).before_in_eq_fetched 7 rfl (fun _ => rfl) (fun _ _ _ => rfl) (fun t => by rw [after0_7]; unfold Dat.blockOf iblk0; rw [dat0_A]; try rfl) t d).trans
    (by unfold Dat.fetched Dat.blockOf iblk0; rw [dat0_A]; try rfl)
theorem before0_8 (c : Dev nD) (t : Fin cfg0.N) (d) : (dat0 V c).before 8 t d = iblk0 V c 8 t :=
  ((dat0 V c).before_in_eq_fetched 8 rfl (fun _ => rfl) (fun _ _ _ => rfl) (fun t => by rw [after0_8]; unfold Dat.blockOf iblk0; rw [dat0_A]; try rfl) t d).trans
    (by unfold Dat.fetched Dat.blockOf iblk0; rw [dat0_A]; try rfl)
theorem before0_9 (c : Dev nD) (t : Fin cfg0.N) (d) : (dat0 V c).before 9 t d = iblk0 V c 9 t :=
  ((dat0 V c).before_in_eq_fetched 9 rfl (fun _ => rfl) (fun _ _ _ => rfl) (fun t => by rw [after0_9]; unfold Dat.blockOf iblk0; rw [dat0_A]; try rfl) t d).trans
    (by unfold Dat.fetched Dat.blockOf iblk0; rw [dat0_A]; try rfl)
theorem before0_10 (c : Dev nD) (t : Fin cfg0.N) (d) : (dat0 V c).before 10 t d = iblk0 V c 10 t :=
  ((dat0 V c).before_in_eq_fetched 10 rfl (fun _ => rfl) (fun _ _ _ => rfl) (fun t => by rw [after0_10]; unfold Dat.blockOf iblk0; rw [dat0_A]; try rfl) t d).trans
    (by unfold Dat.fetched Dat.blockOf iblk0; rw [dat0_A]; try rfl)
theorem before0_11 (c : Dev nD) (t : Fin cfg0.N) (d) : (dat0 V c).before 11 t d = iblk0 V c 11 t :=
  ((dat0 V c).before_in_eq_fetched 11 rfl (fun _ => rfl) (fun _ _ _ => rfl) (fun t => by rw [after0_11]; unfold Dat.blockOf iblk0; rw [dat0_A]; try rfl) t d).trans
    (by unfold Dat.fetched Dat.blockOf iblk0; rw [dat0_A]; try rfl)
theorem before0_12 (c : Dev nD) (t : Fin cfg0.N) (d) : (dat0 V c).before 12 t d = iblk0 V c 12 t :=
  ((dat0 V c).before_in_eq_fetched 12 rfl (fun _ => rfl) (fun _ _ _ => rfl) (fun t => by rw [after0_12]; unfold Dat.blockOf iblk0; rw [dat0_A]; try rfl) t d).trans
    (by unfold Dat.fetched Dat.blockOf iblk0; rw [dat0_A]; try rfl)
theorem before0_13 (c : Dev nD) (t : Fin cfg0.N) (d) : (dat0 V c).before 13 t d = iblk0 V c 13 t :=
  ((dat0 V c).before_in_eq_fetched 13 rfl (fun _ => rfl) (fun _ _ _ => rfl) (fun t => by rw [after0_13]; unfold Dat.blockOf iblk0; rw [dat0_A]; try rfl) t d).trans
    (by unfold Dat.fetched Dat.blockOf iblk0; rw [dat0_A]; try rfl)

/-! ## The body's stores cover each output buffer -/

/-- The one store into output window 14's buffer is through the whole-buffer rectangle, which holds every index. -/
theorem cover0_14 (p0 : Vec F S1024x64 .f32) (y : S1024x64.Idx) :
    ∃ pc ∈ ([⟨rw_S1024x64, p0⟩] : List (View.Piece (Elt F) S1024x64 .f32)), y ∈ pc.1.set :=
  ⟨_, List.mem_singleton_self _, View.mem_set_unit_zero hz2 inb_S1024x64_S1024x64_0_0 y⟩
/-- Likewise output window 15's. -/
theorem cover0_15 (p0 : Vec F S1024x250 .f32) (y : S1024x250.Idx) :
    ∃ pc ∈ ([⟨rw_S1024x250, p0⟩] : List (View.Piece (Elt F) S1024x250 .f32)), y ∈ pc.1.set :=
  ⟨_, List.mem_singleton_self _, View.mem_set_unit_zero hz2 inb_S1024x250_S1024x250_0_0 y⟩

/-! ## The body's triple -/

set_option maxHeartbeats 4000000 in
/-- The kernel body on whole staging memrefs, the inputs' at read contents `xW` and the outputs' at anything, runs to
    the continuation holding the inputs' as they were and each output's at what its one store left: the printed
    functions are their skeletons, run operation by operation through both part calls; the outputs' buffers are
    loaded before they are stored into, and the loaded values are dropped. -/
theorem sound_kernel0 (c : Dev nD) (E : Set ℕ) (i : grid0.Coords) (a0 : Memref sig .tc .vmem S1024x128 .f32) (ha0 : a0.IsWhole) (a1 : Memref sig .tc .vmem S128x256 .f32) (ha1 : a1.IsWhole) (a2 : Memref sig .tc .vmem S256 .f32) (ha2 : a2.IsWhole) (a3 : Memref sig .tc .vmem S256x128 .f32) (ha3 : a3.IsWhole) (a4 : Memref sig .tc .vmem S128 .f32) (ha4 : a4.IsWhole) (a5 : Memref sig .tc .vmem S128 .f32) (ha5 : a5.IsWhole) (a6 : Memref sig .tc .vmem S128 .f32) (ha6 : a6.IsWhole) (a7 : Memref sig .tc .vmem S128x64 .f32) (ha7 : a7.IsWhole) (a8 : Memref sig .tc .vmem S64 .f32) (ha8 : a8.IsWhole) (a9 : Memref sig .tc .vmem S64x64 .f32) (ha9 : a9.IsWhole) (a10 : Memref sig .tc .vmem S64 .f32) (ha10 : a10.IsWhole) (a11 : Memref sig .tc .vmem S64x64 .f32) (ha11 : a11.IsWhole) (a12 : Memref sig .tc .vmem S64 .f32) (ha12 : a12.IsWhole) (a13 : Memref sig .tc .vmem S64x250 .f32) (ha13 : a13.IsWhole) (a14 : Memref sig .tc .vmem S1024x64 .f32) (ha14 : a14.IsWhole) (a15 : Memref sig .tc .vmem S1024x250 .f32) (ha15 : a15.IsWhole)
    (x0 : Vec F S1024x128 .f32) (x1 : Vec F S128x256 .f32) (x2 : Vec F S256 .f32) (x3 : Vec F S256x128 .f32) (x4 : Vec F S128 .f32) (x5 : Vec F S128 .f32) (x6 : Vec F S128 .f32) (x7 : Vec F S128x64 .f32) (x8 : Vec F S64 .f32) (x9 : Vec F S64x64 .f32) (x10 : Vec F S64 .f32) (x11 : Vec F S64x64 .f32) (x12 : Vec F S64 .f32) (x13 : Vec F S64x250 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ (∃ d, owns (c : Thread nD τ) a14 fullShare d) ∗ (∃ d, owns (c : Thread nD τ) a15 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare (out0_14 x0 x1 x2 x3 x4 x5 x6 x7 x8 x9 x10 x11 x12) ∗ owns (c : Thread nD τ) a15 fullShare (out0_15 x0 x1 x2 x3 x4 x5 x6 x7 x8 x9 x10 x11 x12 x13)) -∗ K ⟨⟩))
      ⊢ wp frame (wpE (defs₀ (F := F)) Variants.none c none) E (cc0_backbone_kernel i a0 ha0 a1 ha1 a2 ha2 a3 ha3 a4 ha4 a5 ha5 a6 ha6 a7 ha7 a8 ha8 a9 ha9 a10 ha10 a11 ha11 a12 ha12 a13 ha13 a14 ha14 a15 ha15) K := by
  simp only [cc0_backbone_kernel_eq_skeleton]; unfold cc0_backbone_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, Hk⟩
  subst hf0; subst hf1; subst hf2; subst hf3; subst hf4; subst hf5; subst hf6; subst hf7; subst hf8; subst hf9; subst hf10; subst hf11; subst hf12; subst hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    exact View.read_writes_eq_canon _ _ _ (cover0_14 _)
  iexists _; isplitr
  swap; · iexact H15
  ipureintro
  exact View.read_writes_eq_canon _ _ _ (cover0_15 _)

/-! ## The body obligation, at a generic point -/

/-- What the body is called with at point `t`: the invariant, what the core owes, and each window's current staging
    buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d)))

/-- and what it returns: the same, each buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t))

set_option maxHeartbeats 1000000 in
/-- The body at any point: the inputs' memrefs hold their blocks, so the body's triple applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel0 c Set.univ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.R1Defs.lean ====
import proofs.«180788_j42898133352735_1_alg».proof.Proof.Gen.KernelIdeal.Launch
import proofs.«180788_j42898133352735_1_alg».proof.Proof.Gen.KernelIdeal.Skeleton
import proofs.«180788_j42898133352735_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the pairwise call): what its modules share

An 8 × 8 grid, point `t = 8·i + j`. At point `(i, j)` the body adds, into a scratch accumulator carried along `j`
(zeroed at `j = 0`), the row sums over key block `j` of `exp (0 − Σ_k |Mq − Mk|)`; at `j = 7` it stores the score
block of query block `i`. -/

/-- The rectangle of component `k` of a feature block (every row and channel, one component). -/
abbrev rk0 : Rect S128x50x5 := Rect.unit (s := S128x50x5) ![0, 0, 0] S128x50x1.size inb_S128x50x5_S128x50x1_0_0_0
abbrev rk1 : Rect S128x50x5 := Rect.unit (s := S128x50x5) ![0, 0, 1] S128x50x1.size inb_S128x50x5_S128x50x1_0_0_1
abbrev rk2 : Rect S128x50x5 := Rect.unit (s := S128x50x5) ![0, 0, 2] S128x50x1.size inb_S128x50x5_S128x50x1_0_0_2
abbrev rk3 : Rect S128x50x5 := Rect.unit (s := S128x50x5) ![0, 0, 3] S128x50x1.size inb_S128x50x5_S128x50x1_0_0_3
abbrev rk4 : Rect S128x50x5 := Rect.unit (s := S128x50x5) ![0, 0, 4] S128x50x1.size inb_S128x50x5_S128x50x1_0_0_4

/-- One step along `j`: the accumulator `acc` plus the row sums over the key block `b` for the query block `a`
    (the body's payloads `k1_pay4`, `k1_pay5`, `k1_pay1` composed over the five component loads of each block). -/
def accStep (a b : Vec F S128x50x5 .f32) (acc : Vec F S128x50 .f32) : Vec F S128x50 .f32 :=
  k1_pay1 (k1_pay4 (View.ld a rk0) (View.ld b rk0) (View.ld a rk1) (View.ld b rk1)) (k1_pay5 (View.ld a rk2) (View.ld b rk2))
    (View.ld a rk3) (View.ld b rk3) (View.ld a rk4) (View.ld b rk4) acc

/-- The score block stored at the last point of a row: the body's payload `k1_pay2` over the finished accumulator, the
    hidden-state block and the three small operands (each loaded whole). -/
def scoreBlk (acc : Vec F S128x50 .f32) (h : Vec F S128x64 .f32) (wh : Vec F S64x1 .f32) (wo : Vec F S50x1 .f32) (b : Vec F S1x1 .f32) : Vec F S128x1 .f32 :=
  k1_pay2 acc h wh wo b

/-- The scratch operand the kernel carries between points. -/
abbrev scM1 : Memref sig .tc .vmem S128x50 .f32 := Memref.whole cc1_scratch0

/-- The body's first branch condition (`j = 0`: zero the accumulator), from the grid coordinates. -/
abbrev cond1_0 (i : grid1.Coords) : Prop := (Scalar.cmpi .ne (Scalar.extui (Scalar.cmpi .eq (BitVec.ofNat 32 (i 1).val) 0#32)) 0#32) = 1#1
/-- The body's second branch condition (`j = 7`: store the scores). -/
abbrev cond1_1 (i : grid1.Coords) : Prop := k1_cond2 i = 1#1

end Cert.KernelIdeal.Hand

end
-- ==== Proof.KI.R1Runs.lean ====
import proofs.«180788_j42898133352735_1_alg».proof.Proof.KI.R1Defs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the kernel body's triple in each of the three cases its two branches meet on the grid

On whole staging memrefs — the six inputs' at their contents, the score window's and the scratch's as the case finds
them — the body runs to the continuation holding the inputs' as they were, the scratch at one accumulator step
(`accStep`) from zero or from what it held, and, in the last case, the score window's at `scoreBlk`. -/

/-- The offsets of a whole-buffer rectangle of rank two are the constant zero. -/
private theorem run1_off0 : (![0, 0] : Fin 2 → Nat) = fun _ => 0 := funext fun a => by fin_cases a <;> rfl

set_option maxHeartbeats 4000000 in
/-- `j = 0` (and not `j = 7`): the scratch is zeroed, then stepped once; the score window's buffer is not touched. -/
theorem run1_A (c : Dev nD) (E : Set ℕ) (i : grid1.Coords) (arg2 : Memref sig .tc .vmem S128x50x5 .f32) (harg2 : arg2.IsWhole) (arg3 : Memref sig .tc .vmem S128x50x5 .f32) (harg3 : arg3.IsWhole) (arg4 : Memref sig .tc .vmem S128x64 .f32) (harg4 : arg4.IsWhole) (arg5 : Memref sig .tc .vmem S64x1 .f32) (harg5 : arg5.IsWhole) (arg6 : Memref sig .tc .vmem S50x1 .f32) (harg6 : arg6.IsWhole) (arg7 : Memref sig .tc .vmem S1x1 .f32) (harg7 : arg7.IsWhole) (arg8 : Memref sig .tc .vmem S128x1 .f32) (harg8 : arg8.IsWhole) (arg9 : Memref sig .tc .vmem S128x50 .f32) (harg9 : arg9.IsWhole)
    (hc0 : cond1_0 i) (hc1 : ¬cond1_1 i) (x0 x1 : Vec F S128x50x5 .f32) (x2 : Vec F S128x64 .f32) (x3 : Vec F S64x1 .f32) (x4 : Vec F S50x1 .f32) (x5 : Vec F S1x1 .f32) (xi6 : Vec F S128x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg8 fullShare xi6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare xi6 ∗ owns (c : Thread nD τ) arg9 fullShare (accStep x0 x1 (k1_pay3 (F := F)))) -∗ K ⟨⟩))
      ⊢ wp frame (wpE (defs₀ (F := F)) Variants.none c none) E (cc1_mbd_kernel i arg2 harg2 arg3 harg3 arg4 harg4 arg5 harg5 arg6 harg6 arg7 harg7 arg8 harg8 arg9 harg9) K := by
  simp only [cc1_mbd_kernel_eq_skeleton]; unfold cc1_mbd_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  iexists _; isplitr
  rotate_left
  · iexact HS
  · -- the accumulating store is the later of two whole-buffer stores, so the scratch reads as its payload; there the
    -- read-back of the accumulator is what the zeroing store left, and each input is read through its component rectangle
    ipureintro
    rw [View.read_writes_eq_canon _ _ _ (fun y => ⟨_, List.Mem.head _, View.mem_set_unit_zero (S := S128x50) run1_off0 inb_S128x50_S128x50_0_0 y⟩)]
    sl_unfold_words
    rw [View.canon_cons_unit_zero (S := S128x50) run1_off0, View.readCov_unit_zero (S := S128x50) _ run1_off0]
    unfold accStep
    simp only [View.readAt_eq_ld, harg2.read_unread, harg3.read_unread, View.ld_unit_zero (S := S128x50) run1_off0]

set_option maxHeartbeats 4000000 in
/-- `0 < j < 7`: the scratch, found at `xs`, is stepped once; the score window's buffer is not touched. -/
theorem run1_B (c : Dev nD) (E : Set ℕ) (i : grid1.Coords) (arg2 : Memref sig .tc .vmem S128x50x5 .f32) (harg2 : arg2.IsWhole) (arg3 : Memref sig .tc .vmem S128x50x5 .f32) (harg3 : arg3.IsWhole) (arg4 : Memref sig .tc .vmem S128x64 .f32) (harg4 : arg4.IsWhole) (arg5 : Memref sig .tc .vmem S64x1 .f32) (harg5 : arg5.IsWhole) (arg6 : Memref sig .tc .vmem S50x1 .f32) (harg6 : arg6.IsWhole) (arg7 : Memref sig .tc .vmem S1x1 .f32) (harg7 : arg7.IsWhole) (arg8 : Memref sig .tc .vmem S128x1 .f32) (harg8 : arg8.IsWhole) (arg9 : Memref sig .tc .vmem S128x50 .f32) (harg9 : arg9.IsWhole)
    (hc0 : ¬cond1_0 i) (hc1 : ¬cond1_1 i) (x0 x1 : Vec F S128x50x5 .f32) (x2 : Vec F S128x64 .f32) (x3 : Vec F S64x1 .f32) (x4 : Vec F S50x1 .f32) (x5 : Vec F S1x1 .f32) (xi6 : Vec F S128x1 .f32) (xs : Vec F S128x50 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg8 fullShare xi6 ∗ owns (c : Thread nD τ) arg9 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare xi6 ∗ owns (c : Thread nD τ) arg9 fullShare (accStep x0 x1 xs)) -∗ K ⟨⟩))
      ⊢ wp frame (wpE (defs₀ (F := F)) Variants.none c none) E (cc1_mbd_kernel i arg2 harg2 arg3 harg3 arg4 harg4 arg5 harg5 arg6 harg6 arg7 harg7 arg8 harg8 arg9 harg9) K := by
  simp only [cc1_mbd_kernel_eq_skeleton]; unfold cc1_mbd_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  iexists _; isplitr
  rotate_left
  · iexact HS
  · -- one whole-buffer store: the scratch reads as its payload, whose loads read the inputs through the component
    -- rectangles and the accumulator as it was found
    ipureintro
    rw [View.read_writes_eq_canon _ _ _ (fun y => ⟨_, List.mem_singleton_self _, View.mem_set_unit_zero (S := S128x50) run1_off0 inb_S128x50_S128x50_0_0 y⟩)]
    sl_unfold_words
    rw [View.canon_unit_zero run1_off0]
    unfold accStep
    simp only [View.readAt_eq_ld, harg2.read_unread, harg3.read_unread, harg9.read_unread, View.ld_unit_zero (S := S128x50) run1_off0]

set_option maxHeartbeats 4000000 in
/-- `j = 7`: the scratch, found at `xs`, is stepped once, and the score window's buffer (found at anything) ends at
    the score block of the finished accumulator. -/
theorem run1_C (c : Dev nD) (E : Set ℕ) (i : grid1.Coords) (arg2 : Memref sig .tc .vmem S128x50x5 .f32) (harg2 : arg2.IsWhole) (arg3 : Memref sig .tc .vmem S128x50x5 .f32) (harg3 : arg3.IsWhole) (arg4 : Memref sig .tc .vmem S128x64 .f32) (harg4 : arg4.IsWhole) (arg5 : Memref sig .tc .vmem S64x1 .f32) (harg5 : arg5.IsWhole) (arg6 : Memref sig .tc .vmem S50x1 .f32) (harg6 : arg6.IsWhole) (arg7 : Memref sig .tc .vmem S1x1 .f32) (harg7 : arg7.IsWhole) (arg8 : Memref sig .tc .vmem S128x1 .f32) (harg8 : arg8.IsWhole) (arg9 : Memref sig .tc .vmem S128x50 .f32) (harg9 : arg9.IsWhole)
    (hc0 : ¬cond1_0 i) (hc1 : cond1_1 i) (x0 x1 : Vec F S128x50x5 .f32) (x2 : Vec F S128x64 .f32) (x3 : Vec F S64x1 .f32) (x4 : Vec F S50x1 .f32) (x5 : Vec F S1x1 .f32) (xs : Vec F S128x50 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (scoreBlk (accStep x0 x1 xs) x2 x3 x4 x5) ∗ owns (c : Thread nD τ) arg9 fullShare (accStep x0 x1 xs)) -∗ K ⟨⟩))
      ⊢ wp frame (wpE (defs₀ (F := F)) Variants.none c none) E (cc1_mbd_kernel i arg2 harg2 arg3 harg3 arg4 harg4 arg5 harg5 arg6 harg6 arg7 harg7 arg8 harg8 arg9 harg9) K := by
  simp only [cc1_mbd_kernel_eq_skeleton]; unfold cc1_mbd_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg9.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    rotate_left
    · iexact H6
    · -- one whole-buffer store into the score window's buffer: it reads as the payload, over the accumulator read back
      -- after its step and the four operands read whole
      ipureintro
      rw [View.read_writes_eq_canon _ _ _ (fun y => ⟨_, List.Mem.head _, View.mem_set_unit_zero (S := S128x1) run1_off0 inb_S128x1_S128x1_0_0 y⟩)]
      sl_unfold_words
      rw [View.canon_unit_zero run1_off0]
      unfold scoreBlk accStep
      simp only [View.readAt_eq_ld, harg2.read_unread, harg3.read_unread, harg4.read_unread, harg5.read_unread, harg6.read_unread,
        harg7.read_unread, harg9.read_unread, View.readCov_unit_zero (S := S128x50) _ run1_off0, View.ld_unit_zero (S := S128x50) run1_off0,
        View.ld_unit_zero (S := S128x64) run1_off0, View.ld_unit_zero (S := S64x1) run1_off0, View.ld_unit_zero (S := S50x1) run1_off0,
        View.ld_unit_zero (S := S1x1) run1_off0]
  iexists _; isplitr
  rotate_left
  · iexact HS
  · -- the scratch: one whole-buffer store, as in the middle case
    ipureintro
    sl_unfold_words
    rw [View.read_writes_eq_canon _ _ _ (fun y => ⟨_, List.Mem.head _, View.mem_set_unit_zero (S := S128x50) run1_off0 inb_S128x50_S128x50_0_0 y⟩)]
    rw [View.canon_unit_zero run1_off0]
    unfold accStep
    simp only [View.readAt_eq_ld, harg2.read_unread, harg3.read_unread, harg9.read_unread, View.ld_unit_zero (S := S128x50) run1_off0]

end Cert.KernelIdeal.Hand

end
-- ==== Proof.KI.R1.lean ====
import proofs.«180788_j42898133352735_1_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the pairwise call): an 8 × 8 grid, point `t = 8·i + j`

At point `(i, j)` the body adds, into a scratch accumulator it carries along `j` (zeroed at `j = 0`), the row sums over
key block `j` of `exp (0 − Σ_k |Mq − Mk|)`; at `j = 7` it stores the score block of query block `i`. Windows 0 and 1
read ONE array (the features) at blocks `i` and `j`: they hold it at complementary shares. Stated at a parameter
`V`, the TensorCore's buffer contents when the region is entered. -/

/-! ## The body's two branch conditions, in closed form over the 64 points -/

/-- The first condition (`j = 0`) holds exactly at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The second condition (`j = 7`) holds exactly at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The six input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
/-- At the first point of a row (`j = 0`) the score window is idle: nothing is stored into it, -/
theorem idleAt1_6_A : ∀ t : Fin cfg1.N, cond1_0 (grid1.coords t) → ¬cond1_1 (grid1.coords t) → cfg1.idle 6 (grid1.coords t) = true := by decide +kernel
/-- and its block is not written back there. -/
theorem noFlush1_6_A : ∀ t : Fin cfg1.N, cond1_0 (grid1.coords t) → ¬cond1_1 (grid1.coords t) → (cfg1.win 6).flush t = false := by decide +kernel
/-- The same at the inner points of a row (`0 < j < 7`). -/
theorem idleAt1_6_B : ∀ t : Fin cfg1.N, ¬cond1_0 (grid1.coords t) → ¬cond1_1 (grid1.coords t) → cfg1.idle 6 (grid1.coords t) = true := by decide +kernel
theorem noFlush1_6_B : ∀ t : Fin cfg1.N, ¬cond1_0 (grid1.coords t) → ¬cond1_1 (grid1.coords t) → (cfg1.win 6).flush t = false := by decide +kernel
/-- At the last point of a row (`j = 7`) the score window is live: the body stores its block. -/
theorem liveAt1_6_C : ∀ t : Fin cfg1.N, ¬cond1_0 (grid1.coords t) → cond1_1 (grid1.coords t) → cfg1.idle 6 (grid1.coords t) = false := by decide +kernel

/-! ## The staging memrefs the body is called with -/

/-- Each window's current staging memref at point `t`, and its wholeness. -/
abbrev ms1_0 (t : Fin cfg1.N) : Memref sig .tc .vmem S128x50x5 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x50x5 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S50x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x1 .f32 := win1_6.stage (cfg1.slots t 6)
abbrev hs1_6 (t : Fin cfg1.N) : (ms1_6 t).IsWhole := hstage1_6 ((cfg1.slots t 6).cast nbuf1_6)

/-! ## The class invariant split at the call's own scratch -/

/-- Every scoped buffer of the core that is neither a staging buffer of this call nor its scratch accumulator, at some
    contents each: the other call's staging buffers, carried unopened. -/
abbrev rest1 (c : Dev nD) : sProp 𝕄 :=
  Pipeline.scopedRestBut (Ix := Unit) (Name := ℕ) (U := UR sig nD τ) (Lvl := ℕ) (Val := Elt F) spec1 c [cc1_scratch0]

/-- The class invariant is the scratch accumulator owned whole at some contents, the other scoped buffers at anything,
    and the generator register at some state. -/
theorem PhiA1_eq (c : Dev nD) :
    (Pipeline.ΦA spec1 c : sProp 𝕄)
      = iprop(iprop((∃ d, owns (c : Thread nD τ) scM1 fullShare d) ∗ rest1 c) ∗ (∃ r, prngReg c r)) := by
  unfold Pipeline.ΦA
  rw [Pipeline.scopedRest_split_of_list spec1 c [cc1_scratch0] (by decide) (by decide)]
  simp only [scM1, owns_whole, bigSepL_singleton]; try rfl

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch accumulator after the body at position `n`: zero (`k1_pay3`) stepped once at the first point of a row
    of the grid (`n % 8 = 0`), the point before's contents stepped once elsewhere. -/
def accAt (c : Dev nD) : (n : ℕ) → n < cfg1.N → Vec F S128x50 .f32
  | 0, hn => accStep (iblk1 V c 0 ⟨0, hn⟩) (iblk1 V c 1 ⟨0, hn⟩) (k1_pay3 (F := F))
  | n + 1, hn =>
    if (n + 1) % 8 = 0 then accStep (iblk1 V c 0 ⟨n + 1, hn⟩) (iblk1 V c 1 ⟨n + 1, hn⟩) (k1_pay3 (F := F))
    else accStep (iblk1 V c 0 ⟨n + 1, hn⟩) (iblk1 V c 1 ⟨n + 1, hn⟩) (accAt c n (Nat.lt_of_succ_lt hn))

/-- At the first point of a row the accumulator restarts from zero: the recursion's first branch. -/
theorem accAt_first (c : Dev nD) (t : Fin cfg1.N) (h : t.val % 8 = 0) :
    accAt V c t.val t.isLt = accStep (iblk1 V c 0 t) (iblk1 V c 1 t) (k1_pay3 (F := F)) := by
  obtain ⟨n, hn⟩ := t
  cases n with
  | zero => exact rfl
  | succ n => exact if_pos h
/-- At any other point it is one step from what the point before left: the recursion's second branch. -/
theorem accAt_next (c : Dev nD) (t : Fin cfg1.N) (h : ¬ t.val % 8 = 0) :
    accAt V c t.val t.isLt = accStep (iblk1 V c 0 t) (iblk1 V c 1 t) (accAt V c (t.val - 1) (Nat.lt_of_le_of_lt (Nat.sub_le _ _) t.isLt)) := by
  obtain ⟨n, hn⟩ := t
  cases n with
  | zero => exact absurd (Nat.zero_mod _) h
  | succ n => exact if_neg h

/-- The region invariant before position `n`: before the first point the class's (every scoped buffer no window
    stages at anything, the generator register at some state); afterwards the same split at the scratch accumulator,
    which is held at what the point before left in it (`accAt`), every other scoped buffer still at anything and the
    generator register at some state. -/
def PhiS1 (c : Dev nD) : (n : ℕ) → n ≤ cfg1.N → sProp 𝕄
  | 0, _ => Pipeline.ΦA spec1 c
  | n + 1, hn => iprop(iprop(owns (c : Thread nD τ) scM1 fullShare (accAt V c n hn) ∗ rest1 c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch at that point's contents. -/
theorem PhiS1_succ (c : Dev nD) (n : ℕ) (hn : n < cfg1.N) :
    PhiS1 V c (n + 1) hn = iprop(iprop(owns (c : Thread nD τ) scM1 fullShare (accAt V c n hn) ∗ rest1 c) ∗ (∃ r, prngReg c r)) := rfl

/-- Before a point that is not the first: the scratch at what the point before left. -/
theorem PhiS1_pos (c : Dev nD) (n : ℕ) (h : n ≤ cfg1.N) (hz : n ≠ 0) :
    PhiS1 V c n h = iprop(iprop(owns (c : Thread nD τ) scM1 fullShare (accAt V c (n - 1) (by omega)) ∗ rest1 c) ∗ (∃ r, prngReg c r)) := by
  cases n with
  | zero => exact absurd rfl hz
  | succ n => rfl

/-- The proof data of pipeline 1 on core `c`. Window 6 (the scores) is idle and not written back except at the last
    point of a row, where the body stores `scoreBlk`; the value named at the other points is never consulted. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => scoreBlk (accAt V c t.val t.isLt) (iblk1 V c 2 t) (iblk1 V c 3 t) (iblk1 V c 4 t) (iblk1 V c 5 t)
  Φ t := PhiS1 V c t.val (Nat.le_of_lt_succ t.isLt)
  q w := match w with
    | ⟨0, _⟩ => fullShare.left
    | ⟨1, _⟩ => fullShare.right
    | _ => fullShare
  owed _ := 0

/-! ## The proof data's projections -/

theorem dat1_A (c : Dev nD) (w : Fin cfg1.W) : (dat1 V c).A w = V c (Pipeline.arrRef spec1 w) := by
  dsimp only [dat1]
theorem dat1_owed (c : Dev nD) (t : Fin (cfg1.N + 1)) : (dat1 V c).owed t = 0 := rfl
theorem dat1_q0 (c : Dev nD) : (dat1 V c).q 0 = fullShare.left := rfl
theorem dat1_q1 (c : Dev nD) : (dat1 V c).q 1 = fullShare.right := rfl
theorem dat1_q2 (c : Dev nD) : (dat1 V c).q 2 = fullShare := rfl
theorem dat1_q3 (c : Dev nD) : (dat1 V c).q 3 = fullShare := rfl
theorem dat1_q4 (c : Dev nD) : (dat1 V c).q 4 = fullShare := rfl
theorem dat1_q5 (c : Dev nD) : (dat1 V c).q 5 = fullShare := rfl
theorem after1_6 (c : Dev nD) (t : Fin cfg1.N) :
    (dat1 V c).after 6 t = scoreBlk (accAt V c t.val t.isLt) (iblk1 V c 2 t) (iblk1 V c 3 t) (iblk1 V c 4 t) (iblk1 V c 5 t) := by dsimp only [dat1]

/-- What the body leaves in each input window's buffer: its block (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-! ## What the body finds in the input windows' buffers

An input window's current staging buffer holds its block at every point, fetched there or not: where the pipeline does
not fetch (windows 0 and 2 within a row, windows 3 to 5 after the first point) the block index has not moved and the
body left the block in place. -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [dat1_A]; try rfl) t d).trans
    (by unfold Dat.fetched Dat.blockOf iblk1; rw [dat1_A]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [dat1_A]; try rfl) t d).trans
    (by unfold Dat.fetched Dat.blockOf iblk1; rw [dat1_A]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [dat1_A]; try rfl) t d).trans
    (by unfold Dat.fetched Dat.blockOf iblk1; rw [dat1_A]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [dat1_A]; try rfl) t d).trans
    (by unfold Dat.fetched Dat.blockOf iblk1; rw [dat1_A]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [dat1_A]; try rfl) t d).trans
    (by unfold Dat.fetched Dat.blockOf iblk1; rw [dat1_A]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [dat1_A]; try rfl) t d).trans
    (by unfold Dat.fetched Dat.blockOf iblk1; rw [dat1_A]; try rfl)

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point. The inputs' memrefs hold their blocks (`before1_W`); the closed forms say which of the three
    cases the point is in. The invariant hands the body the scratch accumulator — at anything at the very first point,
    at what the point before left afterwards — and takes it back one accumulator step on (`accAt_first` at the first
    point of a row, `accAt_next` elsewhere); the other scoped buffers and the generator register pass through untouched.
    The score window's buffer is handed back as found where it is idle, and holds the score block of the finished
    accumulator at the last point of a row; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  by_cases h0 : t.val % 8 = 0
  · by_cases h1 : t.val % 8 = 7
    · exfalso; omega
    · rw [Dat.leavesExact_idle (dat1 V c) 6 t (idleAt1_6_A t ((hcond1_0 t).mpr h0) (fun h => h1 ((hcond1_1 t).mp h))) (noFlush1_6_A t ((hcond1_0 t).mpr h0) (fun h => h1 ((hcond1_1 t).mp h)))]
      rw [accAt_first V c t h0]
      by_cases hz : t.val = 0
      · rw [PhiS1_castSucc V c t, PhiS1_zero V c _ _ hz, PhiA1_eq]
        iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
        iapply (run1_A c Set.univ (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) ((dat1 V c).before 6 t d6) _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS]; · iexact HS
        iintro ⟨H0, H1, H2, H3, H4, H5, H6, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS1_castSucc V c t, PhiS1_pos V c _ _ hz]
        iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
        iapply (run1_A c Set.univ (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) ((dat1 V c).before 6 t d6) _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS]; · iexists _; iexact HS
        iintro ⟨H0, H1, H2, H3, H4, H5, H6, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · have hz : t.val ≠ 0 := fun e => h0 (by rw [e])
    by_cases h1 : t.val % 8 = 7
    · rw [show (dat1 V c).leavesExact 6 t = owns (c : Thread nD τ) (ms1_6 t) fullShare ((dat1 V c).after 6 t) from by
        unfold Dat.leavesExact; rw [liveAt1_6_C t (fun h => h0 ((hcond1_0 t).mp h)) ((hcond1_1 t).mpr h1)], after1_6]
      rw [accAt_next V c t h0]
      rw [PhiS1_castSucc V c t, PhiS1_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply (run1_C c Set.univ (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat1 V c) 6 t (idleAt1_6_B t (fun h => h0 ((hcond1_0 t).mp h)) (fun h => h1 ((hcond1_1 t).mp h))) (noFlush1_6_B t (fun h => h0 ((hcond1_0 t).mp h)) (fun h => h1 ((hcond1_1 t).mp h)))]
      rw [accAt_next V c t h0]
      rw [PhiS1_castSucc V c t, PhiS1_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply (run1_B c Set.univ (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) ((dat1 V c).before 6 t d6) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region (the class invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the scratch's named contents are forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, HR⟩, Hg⟩
  isplitl [HS HR]
  · isplitl [HS]
    · iexists _; iexact HS
    iexact HR
  iexact Hg

/-- After the last point the invariant gives the class invariant back: the scratch's named contents are forgotten. -/
theorem hout1 (c : Dev nD) : (dat1 V c).Φ (Fin.last cfg1.N) ⊢ Pipeline.ΦA spec1 c :=
  Phi1_out V c _ (by rw [Fin.val_last]; have : cfg1.N = 64 := N_1; omega)

end Region1

end Cert.KernelIdeal.Hand

end
-- ==== Proof.KI.Run.lean ====
import proofs.«180788_j42898133352735_1_alg».proof.Proof.KI.R0
import proofs.«180788_j42898133352735_1_alg».proof.Proof.KI.R1
import proofs.«180788_j42898133352735_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: five segments from the launch to the return

Host stretch 0, region 0 (the backbone call), host stretch 1, region 1 (the pairwise call), host stretch 2. One run
ends with every unscoped buffer read at the last valuation, so the arguments' frame and the result's contents come
off the same execution.

## The buffer contents at each segment boundary: a fold through @main -/

/-- Core `c`'s buffers at launch. -/
abbrev W0 : Dev nD → Valuation τ sig (Elt F) := fun c b => m (c, b)
/-- After host stretch 0 (region 0's entry). -/
abbrev W1 : Dev nD → Valuation τ sig (Elt F) := fun c => StableHlo.after hostOps0 (W0 m c)
/-- The same read at the TensorCore's references: region 0's entry contents. -/
abbrev V1 : (c : Dev nD) → (b : Ref sig .tc) → Buf (Elt F) ((c : Thread nD τ).loc b) := fun c b => W1 m c b
/-- At region 0's exit: its arrays at what the pipeline leaves (the inputs as entered, each output's write-backs
    folded), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After host stretch 1 (region 1's entry). -/
abbrev W3 : Dev nD → Valuation τ sig (Elt F) := fun c => StableHlo.after hostOps1 (W2 m c)
/-- The same read at the TensorCore's references: region 1's entry contents. -/
abbrev V3 : (c : Dev nD) → (b : Ref sig .tc) → Buf (Elt F) ((c : Thread nD τ).loc b) := fun c b => W3 m c b
/-- At region 1's exit: the score array at what the pipeline's write-backs leave, every other buffer as entered (the
    region's other arrays are inputs). -/
def W4 (c : Dev nD) : Valuation τ sig (Elt F) :=
  Function.update (W3 m c) (Proc.devRef .tc main_v6) ((dat1 (V3 m) c).arrAt 6 cfg1.N)
/-- The same read at the TensorCore's references (region 1's exit contents). -/
abbrev V4 : (c : Dev nD) → (b : Ref sig .tc) → Buf (Elt F) ((c : Thread nD τ).loc b) := fun c b => W4 m c b
/-- After host stretch 2: the contents @main returns with. -/
abbrev W5 : Dev nD → Valuation τ sig (Elt F) := fun c => StableHlo.after hostOps2 (W4 m c)

/-- What the run leaves in the result array. -/
def kernelOut (c : Dev nD) : Buf (Elt F) ((c.tc : Thread nD τ).loc main_v7) := (W5 m c) (Proc.devRef .tc main_v7)

/-! ### What each item leaves unchanged, and what it writes -/

theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h
theorem W4_of (c : Dev nD) (r : Ref sig .tc) (h : r ≠ main_v6) : W4 m c (Proc.devRef .tc r) = W3 m c (Proc.devRef .tc r) := by
  unfold W4; exact Function.update_of_ne (StableHlo.devRef_ne_of_ne h) _ _
theorem W4_main_v6 (c : Dev nD) : W4 m c (Proc.devRef .tc main_v6) = (dat1 (V3 m) c).arrAt 6 cfg1.N := by
  unfold W4; exact Function.update_self _ _ _
theorem W5_of (c : Dev nD) (r : Ref sig .tc) (h : r ∉ hostOps2_W) : W5 m c (Proc.devRef .tc r) = W4 m c (Proc.devRef .tc r) :=
  StableHlo.after_of_writes_sub hostOps2 _ hostOps2_writes h

/-! ### The regions' entry contents, read back to the launch memory and to region 0's results -/

theorem V1_main_arg0 (c : Dev nD) : V1 m c main_arg0 = m ((c.tc : Thread nD τ).loc main_arg0) :=
  (W1_of m c main_arg0 (by decide)).trans rfl
theorem V1_main_arg1 (c : Dev nD) : V1 m c main_arg1 = m ((c.tc : Thread nD τ).loc main_arg1) :=
  (W1_of m c main_arg1 (by decide)).trans rfl
theorem V1_main_arg2 (c : Dev nD) : V1 m c main_arg2 = m ((c.tc : Thread nD τ).loc main_arg2) :=
  (W1_of m c main_arg2 (by decide)).trans rfl
theorem V1_main_arg3 (c : Dev nD) : V1 m c main_arg3 = m ((c.tc : Thread nD τ).loc main_arg3) :=
  (W1_of m c main_arg3 (by decide)).trans rfl
theorem V1_main_arg4 (c : Dev nD) : V1 m c main_arg4 = m ((c.tc : Thread nD τ).loc main_arg4) :=
  (W1_of m c main_arg4 (by decide)).trans rfl
theorem V1_main_arg5 (c : Dev nD) : V1 m c main_arg5 = m ((c.tc : Thread nD τ).loc main_arg5) :=
  (W1_of m c main_arg5 (by decide)).trans rfl
theorem V1_main_arg6 (c : Dev nD) : V1 m c main_arg6 = m ((c.tc : Thread nD τ).loc main_arg6) :=
  (W1_of m c main_arg6 (by decide)).trans rfl
theorem V1_main_arg7 (c : Dev nD) : V1 m c main_arg7 = m ((c.tc : Thread nD τ).loc main_arg7) :=
  (W1_of m c main_arg7 (by decide)).trans rfl
theorem V1_main_arg8 (c : Dev nD) : V1 m c main_arg8 = m ((c.tc : Thread nD τ).loc main_arg8) :=
  (W1_of m c main_arg8 (by decide)).trans rfl
theorem V1_main_arg9 (c : Dev nD) : V1 m c main_arg9 = m ((c.tc : Thread nD τ).loc main_arg9) :=
  (W1_of m c main_arg9 (by decide)).trans rfl
theorem V1_main_arg10 (c : Dev nD) : V1 m c main_arg10 = m ((c.tc : Thread nD τ).loc main_arg10) :=
  (W1_of m c main_arg10 (by decide)).trans rfl
theorem V1_main_arg11 (c : Dev nD) : V1 m c main_arg11 = m ((c.tc : Thread nD τ).loc main_arg11) :=
  (W1_of m c main_arg11 (by decide)).trans rfl
theorem V1_main_arg12 (c : Dev nD) : V1 m c main_arg12 = m ((c.tc : Thread nD τ).loc main_arg12) :=
  (W1_of m c main_arg12 (by decide)).trans rfl
theorem V1_main_v0 (c : Dev nD) : V1 m c main_v0 = shapeCast S64x250 (m ((c.tc : Thread nD τ).loc main_arg13)) shapeCasts_S64x50x5_S64x250 := by
  show StableHlo.after hostOps0 (W0 m c) (Proc.devRef .tc main_v0) = _
  after_results; rfl

theorem V3_main_v2 (c : Dev nD) : V3 m c main_v2 = shapeCast S1024x50x5 ((dat0 (V1 m) c).arrAt 15 cfg0.N) shapeCasts_S1024x250_S1024x50x5 := by
  show StableHlo.after hostOps1 (W2 m c) (Proc.devRef .tc main_v2) = _
  after_results
  rw [show W2 m c (Proc.devRef .tc main_v1_1) = (dat0 (V1 m) c).arrAt 15 cfg0.N from W2_arr m c 15]
  rfl
theorem V3_main_v1_0 (c : Dev nD) : V3 m c main_v1_0 = (dat0 (V1 m) c).arrAt 14 cfg0.N :=
  (W3_of m c main_v1_0 (by decide)).trans (W2_arr m c 14)
theorem W2_main_arg14 (c : Dev nD) : W2 m c (Proc.devRef .tc main_arg14) = m ((c.tc : Thread nD τ).loc main_arg14) :=
  (W2_of_ne m c main_arg14 (by decide)).trans ((W1_of m c main_arg14 (by decide)).trans rfl)
theorem W2_main_arg15 (c : Dev nD) : W2 m c (Proc.devRef .tc main_arg15) = m ((c.tc : Thread nD τ).loc main_arg15) :=
  (W2_of_ne m c main_arg15 (by decide)).trans ((W1_of m c main_arg15 (by decide)).trans rfl)
theorem V3_main_v3 (c : Dev nD) : V3 m c main_v3 = extractStridedSlice S64x1 ![0, 0] (m ((c.tc : Thread nD τ).loc main_arg14)) slices_S114x1_S64x1_0_0 := by
  show StableHlo.after hostOps1 (W2 m c) (Proc.devRef .tc main_v3) = _
  after_results
  rw [W2_main_arg14]
theorem V3_main_v4 (c : Dev nD) : V3 m c main_v4 = extractStridedSlice S50x1 ![64, 0] (m ((c.tc : Thread nD τ).loc main_arg14)) slices_S114x1_S50x1_64_0 := by
  show StableHlo.after hostOps1 (W2 m c) (Proc.devRef .tc main_v4) = _
  after_results
  rw [W2_main_arg14]
theorem V3_main_v5 (c : Dev nD) : V3 m c main_v5 = shapeCast S1x1 (m ((c.tc : Thread nD τ).loc main_arg15)) shapeCasts_S1_S1x1 := by
  show StableHlo.after hostOps1 (W2 m c) (Proc.devRef .tc main_v5) = _
  after_results
  rw [W2_main_arg15]
  rfl

/-- The result array is host stretch 2's reshape of the score array as region 1 leaves it. -/
theorem kernelOut_eq (c : Dev nD) : kernelOut m c = shapeCast S1024 ((dat1 (V3 m) c).arrAt 6 cfg1.N) shapeCasts_S1024x1_S1024 := by
  show StableHlo.after hostOps2 (W4 m c) (Proc.devRef .tc main_v7) = _
  after_results
  rw [W4_main_v6]
  rfl

/-! ### The arguments end as launched: no host operation writes one, and a region only reads it -/

theorem W5_main_arg0 (c : Dev nD) : W5 m c (Proc.devRef .tc main_arg0) = m ((c.tc : Thread nD τ).loc main_arg0) :=
  (W5_of m c main_arg0 (by decide)).trans <| (W4_of m c main_arg0 (by decide)).trans <| (W3_of m c main_arg0 (by decide)).trans <|
    ((W2_arr m c 0).trans (((dat0 (V1 m) c).arrAt_in 0 rfl _).trans (dat0_A (V1 m) c 0))).trans <| (W1_of m c main_arg0 (by decide)).trans rfl
theorem W5_main_arg1 (c : Dev nD) : W5 m c (Proc.devRef .tc main_arg1) = m ((c.tc : Thread nD τ).loc main_arg1) :=
  (W5_of m c main_arg1 (by decide)).trans <| (W4_of m c main_arg1 (by decide)).trans <| (W3_of m c main_arg1 (by decide)).trans <|
    ((W2_arr m c 1).trans (((dat0 (V1 m) c).arrAt_in 1 rfl _).trans (dat0_A (V1 m) c 1))).trans <| (W1_of m c main_arg1 (by decide)).trans rfl
theorem W5_main_arg2 (c : Dev nD) : W5 m c (Proc.devRef .tc main_arg2) = m ((c.tc : Thread nD τ).loc main_arg2) :=
  (W5_of m c main_arg2 (by decide)).trans <| (W4_of m c main_arg2 (by decide)).trans <| (W3_of m c main_arg2 (by decide)).trans <|
    ((W2_arr m c 2).trans (((dat0 (V1 m) c).arrAt_in 2 rfl _).trans (dat0_A (V1 m) c 2))).trans <| (W1_of m c main_arg2 (by decide)).trans rfl
theorem W5_main_arg3 (c : Dev nD) : W5 m c (Proc.devRef .tc main_arg3) = m ((c.tc : Thread nD τ).loc main_arg3) :=
  (W5_of m c main_arg3 (by decide)).trans <| (W4_of m c main_arg3 (by decide)).trans <| (W3_of m c main_arg3 (by decide)).trans <|
    ((W2_arr m c 3).trans (((dat0 (V1 m) c).arrAt_in 3 rfl _).trans (dat0_A (V1 m) c 3))).trans <| (W1_of m c main_arg3 (by decide)).trans rfl
theorem W5_main_arg4 (c : Dev nD) : W5 m c (Proc.devRef .tc main_arg4) = m ((c.tc : Thread nD τ).loc main_arg4) :=
  (W5_of m c main_arg4 (by decide)).trans <| (W4_of m c main_arg4 (by decide)).trans <| (W3_of m c main_arg4 (by decide)).trans <|
    ((W2_arr m c 4).trans (((dat0 (V1 m) c).arrAt_in 4 rfl _).trans (dat0_A (V1 m) c 4))).trans <| (W1_of m c main_arg4 (by decide)).trans rfl
theorem W5_main_arg5 (c : Dev nD) : W5 m c (Proc.devRef .tc main_arg5) = m ((c.tc : Thread nD τ).loc main_arg5) :=
  (W5_of m c main_arg5 (by decide)).trans <| (W4_of m c main_arg5 (by decide)).trans <| (W3_of m c main_arg5 (by decide)).trans <|
    ((W2_arr m c 5).trans (((dat0 (V1 m) c).arrAt_in 5 rfl _).trans (dat0_A (V1 m) c 5))).trans <| (W1_of m c main_arg5 (by decide)).trans rfl
theorem W5_main_arg6 (c : Dev nD) : W5 m c (Proc.devRef .tc main_arg6) = m ((c.tc : Thread nD τ).loc main_arg6) :=
  (W5_of m c main_arg6 (by decide)).trans <| (W4_of m c main_arg6 (by decide)).trans <| (W3_of m c main_arg6 (by decide)).trans <|
    ((W2_arr m c 6).trans (((dat0 (V1 m) c).arrAt_in 6 rfl _).trans (dat0_A (V1 m) c 6))).trans <| (W1_of m c main_arg6 (by decide)).trans rfl
theorem W5_main_arg7 (c : Dev nD) : W5 m c (Proc.devRef .tc main_arg7) = m ((c.tc : Thread nD τ).loc main_arg7) :=
  (W5_of m c main_arg7 (by decide)).trans <| (W4_of m c main_arg7 (by decide)).trans <| (W3_of m c main_arg7 (by decide)).trans <|
    ((W2_arr m c 7).trans (((dat0 (V1 m) c).arrAt_in 7 rfl _).trans (dat0_A (V1 m) c 7))).trans <| (W1_of m c main_arg7 (by decide)).trans rfl
theorem W5_main_arg8 (c : Dev nD) : W5 m c (Proc.devRef .tc main_arg8) = m ((c.tc : Thread nD τ).loc main_arg8) :=
  (W5_of m c main_arg8 (by decide)).trans <| (W4_of m c main_arg8 (by decide)).trans <| (W3_of m c main_arg8 (by decide)).trans <|
    ((W2_arr m c 8).trans (((dat0 (V1 m) c).arrAt_in 8 rfl _).trans (dat0_A (V1 m) c 8))).trans <| (W1_of m c main_arg8 (by decide)).trans rfl
theorem W5_main_arg9 (c : Dev nD) : W5 m c (Proc.devRef .tc main_arg9) = m ((c.tc : Thread nD τ).loc main_arg9) :=
  (W5_of m c main_arg9 (by decide)).trans <| (W4_of m c main_arg9 (by decide)).trans <| (W3_of m c main_arg9 (by decide)).trans <|
    ((W2_arr m c 9).trans (((dat0 (V1 m) c).arrAt_in 9 rfl _).trans (dat0_A (V1 m) c 9))).trans <| (W1_of m c main_arg9 (by decide)).trans rfl
theorem W5_main_arg10 (c : Dev nD) : W5 m c (Proc.devRef .tc main_arg10) = m ((c.tc : Thread nD τ).loc main_arg10) :=
  (W5_of m c main_arg10 (by decide)).trans <| (W4_of m c main_arg10 (by decide)).trans <| (W3_of m c main_arg10 (by decide)).trans <|
    ((W2_arr m c 10).trans (((dat0 (V1 m) c).arrAt_in 10 rfl _).trans (dat0_A (V1 m) c 10))).trans <| (W1_of m c main_arg10 (by decide)).trans rfl
theorem W5_main_arg11 (c : Dev nD) : W5 m c (Proc.devRef .tc main_arg11) = m ((c.tc : Thread nD τ).loc main_arg11) :=
  (W5_of m c main_arg11 (by decide)).trans <| (W4_of m c main_arg11 (by decide)).trans <| (W3_of m c main_arg11 (by decide)).trans <|
    ((W2_arr m c 11).trans (((dat0 (V1 m) c).arrAt_in 11 rfl _).trans (dat0_A (V1 m) c 11))).trans <| (W1_of m c main_arg11 (by decide)).trans rfl
theorem W5_main_arg12 (c : Dev nD) : W5 m c (Proc.devRef .tc main_arg12) = m ((c.tc : Thread nD τ).loc main_arg12) :=
  (W5_of m c main_arg12 (by decide)).trans <| (W4_of m c main_arg12 (by decide)).trans <| (W3_of m c main_arg12 (by decide)).trans <|
    ((W2_arr m c 12).trans (((dat0 (V1 m) c).arrAt_in 12 rfl _).trans (dat0_A (V1 m) c 12))).trans <| (W1_of m c main_arg12 (by decide)).trans rfl
theorem W5_main_arg13 (c : Dev nD) : W5 m c (Proc.devRef .tc main_arg13) = m ((c.tc : Thread nD τ).loc main_arg13) :=
  (W5_of m c main_arg13 (by decide)).trans <| (W4_of m c main_arg13 (by decide)).trans <| (W3_of m c main_arg13 (by decide)).trans <|
    (W2_of_ne m c main_arg13 (by decide)).trans <| (W1_of m c main_arg13 (by decide)).trans rfl
theorem W5_main_arg14 (c : Dev nD) : W5 m c (Proc.devRef .tc main_arg14) = m ((c.tc : Thread nD τ).loc main_arg14) :=
  (W5_of m c main_arg14 (by decide)).trans <| (W4_of m c main_arg14 (by decide)).trans <| (W3_of m c main_arg14 (by decide)).trans <|
    (W2_of_ne m c main_arg14 (by decide)).trans <| (W1_of m c main_arg14 (by decide)).trans rfl
theorem W5_main_arg15 (c : Dev nD) : W5 m c (Proc.devRef .tc main_arg15) = m ((c.tc : Thread nD τ).loc main_arg15) :=
  (W5_of m c main_arg15 (by decide)).trans <| (W4_of m c main_arg15 (by decide)).trans <| (W3_of m c main_arg15 (by decide)).trans <|
    (W2_of_ne m c main_arg15 (by decide)).trans <| (W1_of m c main_arg15 (by decide)).trans rfl

/-! ## The proof data family and the thread state -/

/-- Every pipeline's proof data, each at its region's entry contents: a literal match on the pipeline's index, so
    that the configuration pinned at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and that the core owes nothing. -/
abbrev R (c : Dev nD) : sProp 𝕄 := iprop((∃ r, prngReg c r) ∗ ∃ W, owes (c : Thread nD τ) (0 : CellTallies nD τ sig Unit) W)
/-- A host stretch as a segment: the line of operations over the unscoped references from the contents `W`, `R`
    riding along; it ends with those references at the contents the operations leave. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- REGION 0 (the backbone call) over the thread state: entered from every unscoped buffer at `W1`, left at `W2`.
    Its arrays are split out of the unscoped buffers and put back at the exit contents; the generator register goes
    into the class invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1's arrays: windows 0 and 1 read ONE array, each at half the full share -/

/-- The distinct buffers behind region 1's arrays, conjoined one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v2) ↦{fullShare} V main_v2) ∗ (((c : Thread nD τ).loc main_v1_0) ↦{fullShare} V main_v1_0) ∗ (((c : Thread nD τ).loc main_v3) ↦{fullShare} V main_v3) ∗ (((c : Thread nD τ).loc main_v4) ↦{fullShare} V main_v4) ∗ (((c : Thread nD τ).loc main_v5) ↦{fullShare} V main_v5) ∗ (((c : Thread nD τ).loc main_v6) ↦{fullShare} V main_v6)) := by
  unfold Pipeline.arrBufs
  exact bigSep_eq_bigSepL_of_eq [main_v2, main_v1_0, main_v3, main_v4, main_v5, main_v6] (by decide) (by decide) _

/-- Region 1's arrays, conjoined window by window: each a whole buffer; the feature array twice, at the left and the
    right half of the full share (the two windows reading it); the others at the full share. -/
theorem arrays1_eq (c : Dev nD) (V' : (c : Dev nD) → (b : Ref sig .tc) → Buf (Elt F) ((c : Thread nD τ).loc b))
    (G : (w : Fin cfg1.W) → Buf (Elt F) ((cfg1.win w).arr.view.loc (c.tc : Thread nD τ))) :
    ((dat1 V' c).arrays G : sProp 𝕄)
      = iprop((((c : Thread nD τ).loc main_v2) ↦{fullShare.left} G 0) ∗ (((c : Thread nD τ).loc main_v2) ↦{fullShare.right} G 1) ∗ (((c : Thread nD τ).loc main_v1_0) ↦{fullShare} G 2) ∗ (((c : Thread nD τ).loc main_v3) ↦{fullShare} G 3) ∗ (((c : Thread nD τ).loc main_v4) ↦{fullShare} G 4) ∗ (((c : Thread nD τ).loc main_v5) ↦{fullShare} G 5) ∗ (((c : Thread nD τ).loc main_v6) ↦{fullShare} G 6)) := by
  unfold Dat.arrays
  rw [show (fun w : Fin cfg1.W => ((cfg1.win w).arr.view.loc (c.tc : Thread nD τ) ↦[(cfg1.win w).arr.view.set]{(dat1 V' c).share w} G w : sProp 𝕄))
      = fun w => (((cfg1.win w).arr.view.loc (c.tc : Thread nD τ)) ↦{(dat1 V' c).share w} G w) from funext fun w => by rw [(arr_whole1 w).set_eq_univ]]
  exact bigSep_W1 _

/-- The buffers behind region 1's arrays at contents `V` make the pipeline's arrays at the same contents: the feature
    array's points-to splits along the share into the halves its two windows hold. -/
theorem arrays1_of_arrBufs (c : Dev nD) (V' : (c : Dev nD) → (b : Ref sig .tc) → Buf (Elt F) ((c : Thread nD τ).loc b))
    (V : (b : Ref sig .tc) → Buf (Elt F) ((c : Thread nD τ).loc b))
    (G : (w : Fin cfg1.W) → Buf (Elt F) ((cfg1.win w).arr.view.loc (c.tc : Thread nD τ))) (hG : ∀ w, G w = V (Pipeline.arrRef spec1 w)) :
    (Pipeline.arrBufs (Ix := Unit) (Name := ℕ) (U := UR sig nD τ) (Lvl := ℕ) spec1 c V : sProp 𝕄) ⊢ (dat1 V' c).arrays G := by
  rw [arrBufs1_eq, arrays1_eq, hG 0, hG 1, hG 2, hG 3, hG 4, hG 5, hG 6]
  iintro ⟨H2, H10, H3, H4, H5, H6⟩
  ihave H := (pointsTo_share (PosShare.mem_left_op_right fullShare)).1 $$ H2
  icases H with ⟨Hl, Hr⟩
  isplitl [Hl]; · iexact Hl
  isplitl [Hr]; · iexact Hr
  isplitl [H10]; · iexact H10
  isplitl [H3]; · iexact H3
  isplitl [H4]; · iexact H4
  isplitl [H5]; · iexact H5
  iexact H6

/-- Backwards: the pipeline's arrays at contents read off `V` give the buffers behind them back whole; the two
    halves of the feature array hold the same contents and rejoin. -/
theorem arrBufs_of_arrays1 (c : Dev nD) (V' : (c : Dev nD) → (b : Ref sig .tc) → Buf (Elt F) ((c : Thread nD τ).loc b))
    (V : (b : Ref sig .tc) → Buf (Elt F) ((c : Thread nD τ).loc b))
    (G : (w : Fin cfg1.W) → Buf (Elt F) ((cfg1.win w).arr.view.loc (c.tc : Thread nD τ))) (hG : ∀ w, G w = V (Pipeline.arrRef spec1 w)) :
    ((dat1 V' c).arrays G : sProp 𝕄) ⊢ Pipeline.arrBufs (Ix := Unit) (Name := ℕ) (U := UR sig nD τ) (Lvl := ℕ) spec1 c V := by
  rw [arrBufs1_eq, arrays1_eq, hG 0, hG 1, hG 2, hG 3, hG 4, hG 5, hG 6]
  iintro ⟨Hl, Hr, H10, H3, H4, H5, H6⟩
  isplitl [Hl Hr]
  · iapply (pointsTo_share (PosShare.mem_left_op_right fullShare)).2
    isplitl [Hl]; · iexact Hl
    iexact Hr
  isplitl [H10]; · iexact H10
  isplitl [H3]; · iexact H3
  isplitl [H4]; · iexact H4
  isplitl [H5]; · iexact H5
  iexact H6

/-- At region 1's exit each of its arrays holds what the exit contents `W4` say: an input ends as entered (and no
    input is the score array, the one buffer `W4` changes), the score array ends at its write-backs folded. -/
theorem exit1_arr (c : Dev nD) : ∀ w : Fin 7, (dat1 (V3 m) c).arrAt w cfg1.N = V4 m c (Pipeline.arrRef spec1 w)
  | 0 => ((dat1 (V3 m) c).arrAt_in 0 rfl _).trans ((dat1_A (V3 m) c 0).trans (W4_of m c main_v2 (by decide)).symm)
  | 1 => ((dat1 (V3 m) c).arrAt_in 1 rfl _).trans ((dat1_A (V3 m) c 1).trans (W4_of m c main_v2 (by decide)).symm)
  | 2 => ((dat1 (V3 m) c).arrAt_in 2 rfl _).trans ((dat1_A (V3 m) c 2).trans (W4_of m c main_v1_0 (by decide)).symm)
  | 3 => ((dat1 (V3 m) c).arrAt_in 3 rfl _).trans ((dat1_A (V3 m) c 3).trans (W4_of m c main_v3 (by decide)).symm)
  | 4 => ((dat1 (V3 m) c).arrAt_in 4 rfl _).trans ((dat1_A (V3 m) c 4).trans (W4_of m c main_v4 (by decide)).symm)
  | 5 => ((dat1 (V3 m) c).arrAt_in 5 rfl _).trans ((dat1_A (V3 m) c 5).trans (W4_of m c main_v5 (by decide)).symm)
  | 6 => (W4_main_v6 m c).symm
  | ⟨_ + 7, h⟩ => absurd h (Nat.not_lt.2 (Nat.le_add_left _ _))
/-- Off region 1's arrays the exit contents are the entry contents. -/
theorem exit1_rest (c : Dev nD) :
    (Pipeline.unscopedRest (Ix := Unit) (Name := ℕ) (U := UR sig nD τ) (Lvl := ℕ) spec1 c (V3 m c) : sProp 𝕄)
      = Pipeline.unscopedRest spec1 c (V4 m c) := by
  unfold Pipeline.unscopedRest
  exact bigSep_congr fun b hb => by
    have hne : b ≠ main_v6 := fun e => (Finset.mem_sdiff.mp hb).2 (e ▸ Finset.mem_image.mpr ⟨(6 : Fin 7), Finset.mem_univ _, rfl⟩)
    rw [show V4 m c b = V3 m c b from W4_of m c b hne]

set_option backward.isDefEq.respectTransparency.types false in
/-- REGION 1 (the pairwise call) over the thread state: entered from every unscoped buffer at `W3`, left at `W4`.
    The buffers behind its arrays are split out of the unscoped buffers, the feature array's into the two halves its
    two windows hold, and put back whole at the exit contents; the generator register and the scoped rest go into the
    region's invariant through the class invariant and come out of it; nothing is owed; no semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit : (unscopedBufs (Ix := Unit) (Name := ℕ) (U := UR sig nD τ) (Lvl := ℕ) c (V3 m c) : sProp 𝕄)
        ⊢ iprop((pdats m 1 c).arrays ((pdats m 1 c).arrAt · 0) ∗ Pipeline.unscopedRest spec1 c (V3 m c)) := by
      rw [Pipeline.unscopedBufs_split₀ cfgs 1 winFacts₀1.arr_unscoped c (V3 m c)]
      exact sep_mono (arrays1_of_arrBufs c (V3 m) (V3 m c) _ fun w => dat1_A (V3 m) c w) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m) c)
    unfold Pipeline.ΦA
    iintro ⟨Hp, -, Hr⟩
    isplitl [Hr]; · iexact Hr
    iexact Hp
  hout c := by
    refine BIBase.Entails.trans (hout1 (V3 m) c) ?_
    rw [Pipeline.ownSems0_none]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (V3 m c))
        ⊢ (unscopedBufs (Ix := Unit) (Name := ℕ) (U := UR sig nD τ) (Lvl := ℕ) c (V4 m c) : sProp 𝕄) := by
      rw [Pipeline.unscopedBufs_split₀ cfgs 1 winFacts₀1.arr_unscoped c (V4 m c), exit1_rest m c]
      exact sep_mono (arrBufs_of_arrays1 c (V3 m) (V4 m c) _ (exit1_arr m c)) .rfl
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five segments in order: a host segment per stretch from its boundary's contents, a region per call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
/-- @main IS the run of the segments: it is the chain of its items, and so is the segments' run. -/
theorem main_run (c : Dev nD) : main (F := F) c = Pipeline.Seg.run (segs m) := (main_chain c).trans (by chain_rfl)

set_option backward.isDefEq.respectTransparency.types false in
/-- THE RUN. At the compiled mesh, from any memory with zero counters, every weakly fair execution of @main on the
    TensorCores terminates, nothing faulting, and every final state has the result array at `kernelOut` and the
    argument arrays as launched: the launch over the five segments, the last thread state (every unscoped buffer at
    `W5`) read against the final state, the result by definition of `kernelOut`, each argument by `W5_main_argK`. -/
theorem run_all : θ_run defs (onTc (τ := τ) (main (F := F))) ⟨m, fun _ => 0, ρ⟩ (fun r => ∀ c : Dev nD,
      r.2.mem ((c.tc : Thread nD τ).loc main_v7) = kernelOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c) ⊢ iprop((StableHlo.held (c : Thread nD τ) (Pipeline.ucRefs τ sig) (W5 m c) ∗ ∃ r, prngReg c r) ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c =>
      ⟨h c _ (mem_uc main_v7 (by decide)),
       (h c _ (mem_uc main_arg0 (by decide))).trans (W5_main_arg0 m c),
       (h c _ (mem_uc main_arg1 (by decide))).trans (W5_main_arg1 m c),
       (h c _ (mem_uc main_arg2 (by decide))).trans (W5_main_arg2 m c),
       (h c _ (mem_uc main_arg3 (by decide))).trans (W5_main_arg3 m c),
       (h c _ (mem_uc main_arg4 (by decide))).trans (W5_main_arg4 m c),
       (h c _ (mem_uc main_arg5 (by decide))).trans (W5_main_arg5 m c),
       (h c _ (mem_uc main_arg6 (by decide))).trans (W5_main_arg6 m c),
       (h c _ (mem_uc main_arg7 (by decide))).trans (W5_main_arg7 m c),
       (h c _ (mem_uc main_arg8 (by decide))).trans (W5_main_arg8 m c),
       (h c _ (mem_uc main_arg9 (by decide))).trans (W5_main_arg9 m c),
       (h c _ (mem_uc main_arg10 (by decide))).trans (W5_main_arg10 m c),
       (h c _ (mem_uc main_arg11 (by decide))).trans (W5_main_arg11 m c),
       (h c _ (mem_uc main_arg12 (by decide))).trans (W5_main_arg12 m c),
       (h c _ (mem_uc main_arg13 (by decide))).trans (W5_main_arg13 m c),
       (h c _ (mem_uc main_arg14 (by decide))).trans (W5_main_arg14 m c),
       (h c _ (mem_uc main_arg15 (by decide))).trans (W5_main_arg15 m c)⟩)

/-- The frame alone: the same run, keeping of its post only that the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run _ _ _).mono (fun _ h c => (h c).2) (run_all m ρ)

end Cert.KernelIdeal.Hand

end
-- ==== Proof.KI.Val0.lean ====
import proofs.«180788_j42898133352735_1_alg».proof.Proof.KI.R0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0's two result arrays after the run

One grid point whose blocks are the whole arrays: each output array ends at what the one point wrote back, the body's
payload of the input ARRAYS. -/

/-! ## Every block starts at the origin of its array

A block's offset on an axis is its block index there times the block's size there. At the grid's one point every
window's block index is zero on every axis, so every offset is zero. -/

theorem off0_0 : ∀ t : Fin cfg0.N, (fun a => win0_0.index t a * main_arg0.ty.shape.size a) = fun _ => 0 :=
  (by decide +kernel : ∀ t : Fin grid0.N, (fun a => win0_0.index t a * main_arg0.ty.shape.size a) = fun _ => 0)
theorem off0_1 : ∀ t : Fin cfg0.N, (fun a => win0_1.index t a * main_arg1.ty.shape.size a) = fun _ => 0 :=
  (by decide +kernel : ∀ t : Fin grid0.N, (fun a => win0_1.index t a * main_arg1.ty.shape.size a) = fun _ => 0)
theorem off0_2 : ∀ t : Fin cfg0.N, (fun a => win0_2.index t a * main_arg2.ty.shape.size a) = fun _ => 0 :=
  (by decide +kernel : ∀ t : Fin grid0.N, (fun a => win0_2.index t a * main_arg2.ty.shape.size a) = fun _ => 0)
theorem off0_3 : ∀ t : Fin cfg0.N, (fun a => win0_3.index t a * main_arg3.ty.shape.size a) = fun _ => 0 :=
  (by decide +kernel : ∀ t : Fin grid0.N, (fun a => win0_3.index t a * main_arg3.ty.shape.size a) = fun _ => 0)
theorem off0_4 : ∀ t : Fin cfg0.N, (fun a => win0_4.index t a * main_arg4.ty.shape.size a) = fun _ => 0 :=
  (by decide +kernel : ∀ t : Fin grid0.N, (fun a => win0_4.index t a * main_arg4.ty.shape.size a) = fun _ => 0)
theorem off0_5 : ∀ t : Fin cfg0.N, (fun a => win0_5.index t a * main_arg5.ty.shape.size a) = fun _ => 0 :=
  (by decide +kernel : ∀ t : Fin grid0.N, (fun a => win0_5.index t a * main_arg5.ty.shape.size a) = fun _ => 0)
theorem off0_6 : ∀ t : Fin cfg0.N, (fun a => win0_6.index t a * main_arg6.ty.shape.size a) = fun _ => 0 :=
  (by decide +kernel : ∀ t : Fin grid0.N, (fun a => win0_6.index t a * main_arg6.ty.shape.size a) = fun _ => 0)
theorem off0_7 : ∀ t : Fin cfg0.N, (fun a => win0_7.index t a * main_arg7.ty.shape.size a) = fun _ => 0 :=
  (by decide +kernel : ∀ t : Fin grid0.N, (fun a => win0_7.index t a * main_arg7.ty.shape.size a) = fun _ => 0)
theorem off0_8 : ∀ t : Fin cfg0.N, (fun a => win0_8.index t a * main_arg8.ty.shape.size a) = fun _ => 0 :=
  (by decide +kernel : ∀ t : Fin grid0.N, (fun a => win0_8.index t a * main_arg8.ty.shape.size a) = fun _ => 0)
theorem off0_9 : ∀ t : Fin cfg0.N, (fun a => win0_9.index t a * main_arg9.ty.shape.size a) = fun _ => 0 :=
  (by decide +kernel : ∀ t : Fin grid0.N, (fun a => win0_9.index t a * main_arg9.ty.shape.size a) = fun _ => 0)
theorem off0_10 : ∀ t : Fin cfg0.N, (fun a => win0_10.index t a * main_arg10.ty.shape.size a) = fun _ => 0 :=
  (by decide +kernel : ∀ t : Fin grid0.N, (fun a => win0_10.index t a * main_arg10.ty.shape.size a) = fun _ => 0)
theorem off0_11 : ∀ t : Fin cfg0.N, (fun a => win0_11.index t a * main_arg11.ty.shape.size a) = fun _ => 0 :=
  (by decide +kernel : ∀ t : Fin grid0.N, (fun a => win0_11.index t a * main_arg11.ty.shape.size a) = fun _ => 0)
theorem off0_12 : ∀ t : Fin cfg0.N, (fun a => win0_12.index t a * main_arg12.ty.shape.size a) = fun _ => 0 :=
  (by decide +kernel : ∀ t : Fin grid0.N, (fun a => win0_12.index t a * main_arg12.ty.shape.size a) = fun _ => 0)
theorem off0_13 : ∀ t : Fin cfg0.N, (fun a => win0_13.index t a * main_v0.ty.shape.size a) = fun _ => 0 :=
  (by decide +kernel : ∀ t : Fin grid0.N, (fun a => win0_13.index t a * main_v0.ty.shape.size a) = fun _ => 0)
theorem off0_14 : ∀ t : Fin cfg0.N, (fun a => win0_14.index t a * main_v1_0.ty.shape.size a) = fun _ => 0 :=
  (by decide +kernel : ∀ t : Fin grid0.N, (fun a => win0_14.index t a * main_v1_0.ty.shape.size a) = fun _ => 0)
theorem off0_15 : ∀ t : Fin cfg0.N, (fun a => win0_15.index t a * main_v1_1.ty.shape.size a) = fun _ => 0 :=
  (by decide +kernel : ∀ t : Fin grid0.N, (fun a => win0_15.index t a * main_v1_1.ty.shape.size a) = fun _ => 0)

section
variable (V : (c : Dev nD) → (b : Ref sig .tc) → Buf (Elt F) ((c : Thread nD τ).loc b))

/-! ## Each input block is its array

The block is the array read through the rectangle of the array's own sizes at zero offsets, and that read is the
identity. -/

theorem blk0_0 (c : Dev nD) (t : Fin cfg0.N) : iblk0 V c 0 t = V c main_arg0 :=
  Memref.read_access_unit_zero (Elt F) main_arg0 (off0_0 t) (fun a => by rw [congrFun (off0_0 t) a]; simp) (V c main_arg0)
theorem blk0_1 (c : Dev nD) (t : Fin cfg0.N) : iblk0 V c 1 t = V c main_arg1 :=
  Memref.read_access_unit_zero (Elt F) main_arg1 (off0_1 t) (fun a => by rw [congrFun (off0_1 t) a]; simp) (V c main_arg1)
theorem blk0_2 (c : Dev nD) (t : Fin cfg0.N) : iblk0 V c 2 t = V c main_arg2 :=
  Memref.read_access_unit_zero (Elt F) main_arg2 (off0_2 t) (fun a => by rw [congrFun (off0_2 t) a]; simp) (V c main_arg2)
theorem blk0_3 (c : Dev nD) (t : Fin cfg0.N) : iblk0 V c 3 t = V c main_arg3 :=
  Memref.read_access_unit_zero (Elt F) main_arg3 (off0_3 t) (fun a => by rw [congrFun (off0_3 t) a]; simp) (V c main_arg3)
theorem blk0_4 (c : Dev nD) (t : Fin cfg0.N) : iblk0 V c 4 t = V c main_arg4 :=
  Memref.read_access_unit_zero (Elt F) main_arg4 (off0_4 t) (fun a => by rw [congrFun (off0_4 t) a]; simp) (V c main_arg4)
theorem blk0_5 (c : Dev nD) (t : Fin cfg0.N) : iblk0 V c 5 t = V c main_arg5 :=
  Memref.read_access_unit_zero (Elt F) main_arg5 (off0_5 t) (fun a => by rw [congrFun (off0_5 t) a]; simp) (V c main_arg5)
theorem blk0_6 (c : Dev nD) (t : Fin cfg0.N) : iblk0 V c 6 t = V c main_arg6 :=
  Memref.read_access_unit_zero (Elt F) main_arg6 (off0_6 t) (fun a => by rw [congrFun (off0_6 t) a]; simp) (V c main_arg6)
theorem blk0_7 (c : Dev nD) (t : Fin cfg0.N) : iblk0 V c 7 t = V c main_arg7 :=
  Memref.read_access_unit_zero (Elt F) main_arg7 (off0_7 t) (fun a => by rw [congrFun (off0_7 t) a]; simp) (V c main_arg7)
theorem blk0_8 (c : Dev nD) (t : Fin cfg0.N) : iblk0 V c 8 t = V c main_arg8 :=
  Memref.read_access_unit_zero (Elt F) main_arg8 (off0_8 t) (fun a => by rw [congrFun (off0_8 t) a]; simp) (V c main_arg8)
theorem blk0_9 (c : Dev nD) (t : Fin cfg0.N) : iblk0 V c 9 t = V c main_arg9 :=
  Memref.read_access_unit_zero (Elt F) main_arg9 (off0_9 t) (fun a => by rw [congrFun (off0_9 t) a]; simp) (V c main_arg9)
theorem blk0_10 (c : Dev nD) (t : Fin cfg0.N) : iblk0 V c 10 t = V c main_arg10 :=
  Memref.read_access_unit_zero (Elt F) main_arg10 (off0_10 t) (fun a => by rw [congrFun (off0_10 t) a]; simp) (V c main_arg10)
theorem blk0_11 (c : Dev nD) (t : Fin cfg0.N) : iblk0 V c 11 t = V c main_arg11 :=
  Memref.read_access_unit_zero (Elt F) main_arg11 (off0_11 t) (fun a => by rw [congrFun (off0_11 t) a]; simp) (V c main_arg11)
theorem blk0_12 (c : Dev nD) (t : Fin cfg0.N) : iblk0 V c 12 t = V c main_arg12 :=
  Memref.read_access_unit_zero (Elt F) main_arg12 (off0_12 t) (fun a => by rw [congrFun (off0_12 t) a]; simp) (V c main_arg12)
theorem blk0_13 (c : Dev nD) (t : Fin cfg0.N) : iblk0 V c 13 t = V c main_v0 :=
  Memref.read_access_unit_zero (Elt F) main_v0 (off0_13 t) (fun a => by rw [congrFun (off0_13 t) a]; simp) (V c main_v0)

/-! ## What the one point writes back

The body leaves in each output's staging buffer its payload of the input blocks, which are the arrays; the write-back
moves all of it; and that payload, read back through the output's block (the whole array again), is itself. -/

theorem flushed0_14 (c : Dev nD) (t : Fin cfg0.N) :
    (dat0 V c).flushed 14 t = ((cfg0.win 14).blk t).view.read (Elt F) (hPay (V c main_arg0) (V c main_arg1) (V c main_arg2) (V c main_arg3) (V c main_arg4)
      (V c main_arg5) (V c main_arg6) (V c main_arg7) (V c main_arg8) (V c main_arg9) (V c main_arg10) (V c main_arg11) (V c main_arg12)) := by
  show (cfg0.win 14).cut (grid0.coords t) ((dat0 V c).after 14 t) = _
  rw [after0_14, out0_14_eq, blk0_0, blk0_1, blk0_2, blk0_3, blk0_4, blk0_5, blk0_6, blk0_7, blk0_8, blk0_9, blk0_10, blk0_11, blk0_12]
  exact (Memref.read_access_unit_zero (Elt F) main_v1_0 (off0_14 t) (fun a => by rw [congrFun (off0_14 t) a]; simp)
    (hPay (V c main_arg0) (V c main_arg1) (V c main_arg2) (V c main_arg3) (V c main_arg4) (V c main_arg5) (V c main_arg6)
      (V c main_arg7) (V c main_arg8) (V c main_arg9) (V c main_arg10) (V c main_arg11) (V c main_arg12))).symm

theorem flushed0_15 (c : Dev nD) (t : Fin cfg0.N) :
    (dat0 V c).flushed 15 t = ((cfg0.win 15).blk t).view.read (Elt F) (mPay (V c main_arg0) (V c main_arg1) (V c main_arg2) (V c main_arg3) (V c main_arg4)
      (V c main_arg5) (V c main_arg6) (V c main_arg7) (V c main_arg8) (V c main_arg9) (V c main_arg10) (V c main_arg11) (V c main_arg12) (V c main_v0)) := by
  show (cfg0.win 15).cut (grid0.coords t) ((dat0 V c).after 15 t) = _
  rw [after0_15, out0_15_eq, blk0_0, blk0_1, blk0_2, blk0_3, blk0_4, blk0_5, blk0_6, blk0_7, blk0_8, blk0_9, blk0_10, blk0_11, blk0_12, blk0_13]
  exact (Memref.read_access_unit_zero (Elt F) main_v1_1 (off0_15 t) (fun a => by rw [congrFun (off0_15 t) a]; simp)
    (mPay (V c main_arg0) (V c main_arg1) (V c main_arg2) (V c main_arg3) (V c main_arg4) (V c main_arg5) (V c main_arg6)
      (V c main_arg7) (V c main_arg8) (V c main_arg9) (V c main_arg10) (V c main_arg11) (V c main_arg12) (V c main_v0))).symm

/-! ## The one block covers its array

The block's index set is the rectangle of the array's own sizes at zero offsets, which holds every index; and the one
point writes its block back. -/

theorem covered0_14 (i : S1024x64.Idx) : ∃ t : Fin cfg0.N, (cfg0.win 14).flush t = true ∧ i ∈ ((cfg0.win 14).blk t).view.set := by
  refine ⟨t0_0, flush0_14 t0_0, ?_⟩
  show i ∈ ((View.whole main_v1_0).slice (win0_14.rect t0_0)).set
  rw [View.set_slice_whole]
  exact View.mem_set_unit_zero (off0_14 t0_0) _ i

theorem covered0_15 (i : S1024x250.Idx) : ∃ t : Fin cfg0.N, (cfg0.win 15).flush t = true ∧ i ∈ ((cfg0.win 15).blk t).view.set := by
  refine ⟨t0_0, flush0_15 t0_0, ?_⟩
  show i ∈ ((View.whole main_v1_1).slice (win0_15.rect t0_0)).set
  rw [View.set_slice_whole]
  exact View.mem_set_unit_zero (off0_15 t0_0) _ i

/-! ## The arrays after the region

Every write-back writes its block of one whole-array contents, and the blocks cover the array: the array ends at those
contents. -/

/-- The hidden state after the region: `hPay` of the thirteen argument arrays. -/
theorem arr0_14 (c : Dev nD) :
    (dat0 V c).arrAt 14 cfg0.N = hPay (V c main_arg0) (V c main_arg1) (V c main_arg2) (V c main_arg3) (V c main_arg4) (V c main_arg5) (V c main_arg6)
      (V c main_arg7) (V c main_arg8) (V c main_arg9) (V c main_arg10) (V c main_arg11) (V c main_arg12) :=
  (dat0 V c).arrAt_eq_of_cover 14 _ (fun t _ => flushed0_14 V c t) covered0_14

/-- The flat features after the region: `mPay` of the same arrays and the reshaped table. -/
theorem arr0_15 (c : Dev nD) :
    (dat0 V c).arrAt 15 cfg0.N = mPay (V c main_arg0) (V c main_arg1) (V c main_arg2) (V c main_arg3) (V c main_arg4) (V c main_arg5) (V c main_arg6)
      (V c main_arg7) (V c main_arg8) (V c main_arg9) (V c main_arg10) (V c main_arg11) (V c main_arg12) (V c main_v0) :=
  (dat0 V c).arrAt_eq_of_cover 15 _ (fun t _ => flushed0_15 V c t) covered0_15

end

end Cert.KernelIdeal.Hand

end
-- ==== Proof.KI.ValDefs.lean ====
import proofs.«180788_j42898133352735_1_alg».proof.Proof.KI.R1Defs
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! # The pairwise call's result as ONE function of the five arrays it reads

`M` the features [1024, 50, 5], `H` the hidden state [1024, 64], `wh` / `wo` the two halves of the score weights, `b`
the bias. Row `y` lies in query block `y / 128` at row `y % 128` of it. -/

/-- Rows `128·i … 128·i + 127` of the features (block `i`; the row index is reduced mod 1024, the identity for `i < 8`). -/
def blkM (M : Vec F S1024x50x5 .f32) (i : ℕ) : Vec F S128x50x5 .f32 :=
  fun x => M (ix3 (⟨(128 * i + (x 0).val) % 1024, Nat.mod_lt _ (by decide)⟩ : Fin 1024) (⟨(x 1).val, (x 1).isLt⟩ : Fin 50) (⟨(x 2).val, (x 2).isLt⟩ : Fin 5))

/-- Rows `128·i … 128·i + 127` of the hidden state. -/
def blkH (H : Vec F S1024x64 .f32) (i : ℕ) : Vec F S128x64 .f32 :=
  fun x => H (ix2 (⟨(128 * i + (x 0).val) % 1024, Nat.mod_lt _ (by decide)⟩ : Fin 1024) (⟨(x 1).val, (x 1).isLt⟩ : Fin 64))

/-- The accumulator of query block `i` after key blocks `0 … j`: zero stepped through them in order. -/
def accRow (M : Vec F S1024x50x5 .f32) (i : ℕ) : ℕ → Vec F S128x50 .f32
  | 0 => accStep (blkM M i) (blkM M 0) (k1_pay3 (F := F))
  | j + 1 => accStep (blkM M i) (blkM M (j + 1)) (accRow M i j)

/-- The score array [1024, 1]: row `y` is row `y % 128` of the score block of query block `y / 128`, computed from
    that block's accumulator after all eight key blocks. -/
def scoreArr (M : Vec F S1024x50x5 .f32) (H : Vec F S1024x64 .f32) (wh : Vec F S64x1 .f32) (wo : Vec F S50x1 .f32) (b : Vec F S1x1 .f32) : Vec F S1024x1 .f32 :=
  fun y => scoreBlk (accRow M ((y 0).val / 128) 7) (blkH H ((y 0).val / 128)) wh wo b
    (ix2 (⟨(y 0).val % 128, Nat.mod_lt _ (by decide)⟩ : Fin 128) (⟨0, by decide⟩ : Fin 1))

end Cert.KernelIdeal.Hand

end
-- ==== Proof.KI.Val1.lean ====
import proofs.«180788_j42898133352735_1_alg».proof.Proof.KI.R1
import proofs.«180788_j42898133352735_1_alg».proof.Proof.KI.ValDefs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

/-! # Region 1's result array after the run

Point `t = 8·i + j` reads feature blocks `i` and `j` and hidden-state block `i`; its accumulator after the point is
`accRow M i j`; the score block of row `i` is written back at `j = 7` only, and the eight blocks cover the array. -/

/-- The windows' index maps at each of the 64 points `t = 8·i + j`: windows 0, 2 and 6 sit at block `i = t / 8`, window 1
    at block `j = t % 8`, the three small windows at block 0; every other block coordinate is 0. -/
theorem idx1 : ∀ t : Fin cfg1.N,
    win1_0.index t (0 : Fin 3) = t.val / 8 ∧ win1_0.index t (1 : Fin 3) = 0 ∧ win1_0.index t (2 : Fin 3) = 0
  ∧ win1_1.index t (0 : Fin 3) = t.val % 8 ∧ win1_1.index t (1 : Fin 3) = 0 ∧ win1_1.index t (2 : Fin 3) = 0
  ∧ win1_2.index t (0 : Fin 2) = t.val / 8 ∧ win1_2.index t (1 : Fin 2) = 0
  ∧ win1_3.index t (0 : Fin 2) = 0 ∧ win1_3.index t (1 : Fin 2) = 0
  ∧ win1_4.index t (0 : Fin 2) = 0 ∧ win1_4.index t (1 : Fin 2) = 0
  ∧ win1_5.index t (0 : Fin 2) = 0 ∧ win1_5.index t (1 : Fin 2) = 0
  ∧ win1_6.index t (0 : Fin 2) = t.val / 8 ∧ win1_6.index t (1 : Fin 2) = 0 :=
  (by decide +kernel : ∀ t : Fin grid1.N, _)

section
variable (V : (c : Dev nD) → (b : Ref sig .tc) → Buf (Elt F) ((c : Thread nD τ).loc b))

/-! ## The blocks the windows read, as blocks of the arrays the region finds

A block's coordinate along an axis is (block index) × (block extent) + 1 × (coordinate inside the block). -/

/-- Window 0 at point `t` holds feature block `t / 8` (the query block). -/
theorem iblk1_0 (c : Dev nD) (t : Fin cfg1.N) : iblk1 V c 0 t = blkM (V c main_v2) (t.val / 8) := by
  obtain ⟨e0, e1, e2, -⟩ := idx1 t
  have ht : t.val < 64 := Nat.lt_of_lt_of_eq t.isLt N_1
  funext x
  show V c main_v2 (((cfg1.win 0).blk t).view.emb x) = V c main_v2 (ix3 _ _ _)
  congr 1
  funext a; apply Fin.ext
  match a with
  | ⟨0, _⟩ =>
    show win1_0.index t (0 : Fin 3) * 128 + 1 * (x 0).val = (128 * (t.val / 8) + (x 0).val) % 1024
    have hx : (x 0).val < 128 := (x 0).isLt
    rw [e0, Nat.mod_eq_of_lt (by omega)]; omega
  | ⟨1, _⟩ =>
    show win1_0.index t (1 : Fin 3) * 50 + 1 * (x 1).val = (x 1).val
    rw [e1]; omega
  | ⟨2, _⟩ =>
    show win1_0.index t (2 : Fin 3) * 5 + 1 * (x 2).val = (x 2).val
    rw [e2]; omega

/-- Window 1 at point `t` holds feature block `t % 8` (the key block) of the same array. -/
theorem iblk1_1 (c : Dev nD) (t : Fin cfg1.N) : iblk1 V c 1 t = blkM (V c main_v2) (t.val % 8) := by
  obtain ⟨-, -, -, e0, e1, e2, -⟩ := idx1 t
  funext x
  show V c main_v2 (((cfg1.win 1).blk t).view.emb x) = V c main_v2 (ix3 _ _ _)
  congr 1
  funext a; apply Fin.ext
  match a with
  | ⟨0, _⟩ =>
    show win1_1.index t (0 : Fin 3) * 128 + 1 * (x 0).val = (128 * (t.val % 8) + (x 0).val) % 1024
    have hx : (x 0).val < 128 := (x 0).isLt
    rw [e0]; omega
  | ⟨1, _⟩ =>
    show win1_1.index t (1 : Fin 3) * 50 + 1 * (x 1).val = (x 1).val
    rw [e1]; omega
  | ⟨2, _⟩ =>
    show win1_1.index t (2 : Fin 3) * 5 + 1 * (x 2).val = (x 2).val
    rw [e2]; omega

/-- Window 2 at point `t` holds hidden-state block `t / 8`. -/
theorem iblk1_2 (c : Dev nD) (t : Fin cfg1.N) : iblk1 V c 2 t = blkH (V c main_v1_0) (t.val / 8) := by
  obtain ⟨-, -, -, -, -, -, e0, e1, -⟩ := idx1 t
  have ht : t.val < 64 := Nat.lt_of_lt_of_eq t.isLt N_1
  funext x
  show V c main_v1_0 (((cfg1.win 2).blk t).view.emb x) = V c main_v1_0 (ix2 _ _)
  congr 1
  funext a; apply Fin.ext
  match a with
  | ⟨0, _⟩ =>
    show win1_2.index t (0 : Fin 2) * 128 + 1 * (x 0).val = (128 * (t.val / 8) + (x 0).val) % 1024
    have hx : (x 0).val < 128 := (x 0).isLt
    rw [e0, Nat.mod_eq_of_lt (by omega)]; omega
  | ⟨1, _⟩ =>
    show win1_2.index t (1 : Fin 2) * 64 + 1 * (x 1).val = (x 1).val
    rw [e1]; omega

/-- Window 3 holds its whole array at every point. -/
theorem iblk1_3 (c : Dev nD) (t : Fin cfg1.N) : iblk1 V c 3 t = V c main_v3 := by
  obtain ⟨-, -, -, -, -, -, -, -, e0, e1, -⟩ := idx1 t
  funext x
  show V c main_v3 (((cfg1.win 3).blk t).view.emb x) = V c main_v3 x
  congr 1
  funext a; apply Fin.ext
  match a with
  | ⟨0, _⟩ =>
    show win1_3.index t (0 : Fin 2) * 64 + 1 * (x 0).val = (x 0).val
    rw [e0]; omega
  | ⟨1, _⟩ =>
    show win1_3.index t (1 : Fin 2) * 1 + 1 * (x 1).val = (x 1).val
    rw [e1]; omega

/-- Window 4 holds its whole array at every point. -/
theorem iblk1_4 (c : Dev nD) (t : Fin cfg1.N) : iblk1 V c 4 t = V c main_v4 := by
  obtain ⟨-, -, -, -, -, -, -, -, -, -, e0, e1, -⟩ := idx1 t
  funext x
  show V c main_v4 (((cfg1.win 4).blk t).view.emb x) = V c main_v4 x
  congr 1
  funext a; apply Fin.ext
  match a with
  | ⟨0, _⟩ =>
    show win1_4.index t (0 : Fin 2) * 50 + 1 * (x 0).val = (x 0).val
    rw [e0]; omega
  | ⟨1, _⟩ =>
    show win1_4.index t (1 : Fin 2) * 1 + 1 * (x 1).val = (x 1).val
    rw [e1]; omega

/-- Window 5 holds its whole array at every point. -/
theorem iblk1_5 (c : Dev nD) (t : Fin cfg1.N) : iblk1 V c 5 t = V c main_v5 := by
  obtain ⟨-, -, -, -, -, -, -, -, -, -, -, -, e0, e1, -⟩ := idx1 t
  funext x
  show V c main_v5 (((cfg1.win 5).blk t).view.emb x) = V c main_v5 x
  congr 1
  funext a; apply Fin.ext
  match a with
  | ⟨0, _⟩ =>
    show win1_5.index t (0 : Fin 2) * 1 + 1 * (x 0).val = (x 0).val
    rw [e0]; omega
  | ⟨1, _⟩ =>
    show win1_5.index t (1 : Fin 2) * 1 + 1 * (x 1).val = (x 1).val
    rw [e1]; omega

/-! ## The accumulator along a row of the grid -/

/-- After point `n = 8·i + j` the scratch holds the accumulator of query block `i` over key blocks `0 … j`: by
    induction on the point, a row's first point starting from zero and every other stepping the point before's. -/
theorem accAt_eq (c : Dev nD) : ∀ (n : ℕ) (hn : n < cfg1.N), accAt V c n hn = accRow (V c main_v2) (n / 8) (n % 8) := by
  intro n
  induction n using Nat.strong_induction_on with
  | _ n ih =>
    intro hn
    by_cases h : n % 8 = 0
    · refine (accAt_first V c ⟨n, hn⟩ h).trans ?_
      rw [iblk1_0, iblk1_1]
      show accStep (blkM (V c main_v2) (n / 8)) (blkM (V c main_v2) (n % 8)) (k1_pay3 (F := F)) = accRow (V c main_v2) (n / 8) (n % 8)
      rw [h]
      rfl
    · refine (accAt_next V c ⟨n, hn⟩ h).trans ?_
      rw [iblk1_0, iblk1_1]
      show accStep (blkM (V c main_v2) (n / 8)) (blkM (V c main_v2) (n % 8)) (accAt V c (n - 1) _) = accRow (V c main_v2) (n / 8) (n % 8)
      rw [ih (n - 1) (by omega)]
      obtain ⟨j, hj⟩ : ∃ j, n % 8 = j + 1 := ⟨n % 8 - 1, by omega⟩
      rw [show (n - 1) / 8 = n / 8 by omega, show (n - 1) % 8 = j by omega, hj]
      rfl

/-! ## The block written back at the last point of a row, and the array -/

/-- The score array at an index whose row lies in block `q` at row `y 0` of it is the score block of `q` at `y`. -/
theorem scoreArr_apply (M : Vec F S1024x50x5 .f32) (H : Vec F S1024x64 .f32) (wh : Vec F S64x1 .f32) (wo : Vec F S50x1 .f32) (b : Vec F S1x1 .f32)
    (i : S1024x1.Idx) (q : ℕ) (y : S128x1.Idx) (hq : (i 0).val / 128 = q) (hy : (i 0).val % 128 = (y 0).val) :
    scoreArr M H wh wo b i = scoreBlk (accRow M q 7) (blkH H q) wh wo b y := by
  subst hq
  show scoreBlk (accRow M ((i 0).val / 128) 7) (blkH H ((i 0).val / 128)) wh wo b (ix2 _ _) = scoreBlk (accRow M ((i 0).val / 128) 7) (blkH H ((i 0).val / 128)) wh wo b y
  congr 1
  funext a; apply Fin.ext
  match a with
  | ⟨0, _⟩ => exact hy
  | ⟨1, _⟩ =>
    show 0 = (y 1).val
    have h1 : (y 1).val < 1 := (y 1).isLt
    omega

/-- At the last point of row `i` of the grid the block written back is block `i` of the score array. -/
theorem flushed1_6 (c : Dev nD) (t : Fin cfg1.N) (hf : t.val % 8 = 7) :
    (dat1 V c).flushed 6 t = ((cfg1.win 6).blk t).view.read (Elt F) (scoreArr (V c main_v2) (V c main_v1_0) (V c main_v3) (V c main_v4) (V c main_v5)) := by
  obtain ⟨-, -, -, -, -, -, -, -, -, -, -, -, -, -, e0, e1⟩ := idx1 t
  show (cfg1.win 6).cut (cfg1.grid.coords t) ((dat1 V c).after 6 t) = _
  rw [after1_6, iblk1_2, iblk1_3, iblk1_4, iblk1_5, accAt_eq V c t.val t.isLt, hf]
  funext y
  show scoreBlk (accRow (V c main_v2) (t.val / 8) 7) (blkH (V c main_v1_0) (t.val / 8)) (V c main_v3) (V c main_v4) (V c main_v5) y
    = scoreArr (V c main_v2) (V c main_v1_0) (V c main_v3) (V c main_v4) (V c main_v5) (((cfg1.win 6).blk t).view.emb y)
  have hy : (y 0).val < 128 := (y 0).isLt
  have hv : ((((cfg1.win 6).blk t).view.emb y) 0).val = win1_6.index t (0 : Fin 2) * 128 + 1 * (y 0).val := rfl
  refine (scoreArr_apply _ _ _ _ _ _ (t.val / 8) y ?_ ?_).symm
  · rw [hv, e0]; omega
  · rw [hv, e0]; omega

/-- An index of the score array is in point `t`'s block iff each coordinate is in the block's range on its axis. -/
theorem mem_blk1_6 (t : Fin cfg1.N) (i : S1024x1.Idx) :
    i ∈ ((cfg1.win 6).blk t).view.set ↔ ∀ a : Fin 2, win1_6.index t a * S128x1.size a ≤ (i a).val ∧ (i a).val < win1_6.index t a * S128x1.size a + S128x1.size a := by
  show i ∈ ((View.whole main_v6).slice (win1_6.rect t)).set ↔ _
  rw [View.set_slice_whole, Rect.mem_set_unit]
  exact Iff.rfl

/-- Every row of the score array lies in the block written back at the last point of its row of the grid. -/
theorem cover1_6 (i : S1024x1.Idx) :
    ∃ t : Fin cfg1.N, (cfg1.win 6).flush t = true ∧ i ∈ ((cfg1.win 6).blk t).view.set := by
  have hi0 : (i 0).val < 1024 := (i 0).isLt
  have hi1 : (i 1).val < 1 := (i 1).isLt
  have hN : 8 * ((i 0).val / 128) + 7 < cfg1.N := Nat.lt_of_lt_of_eq (by omega) N_1.symm
  refine ⟨⟨8 * ((i 0).val / 128) + 7, hN⟩, (flush1_6 _).mpr (by show (8 * ((i 0).val / 128) + 7) % 8 = 7; omega), ?_⟩
  obtain ⟨-, -, -, -, -, -, -, -, -, -, -, -, -, -, e0, e1⟩ := idx1 ⟨8 * ((i 0).val / 128) + 7, hN⟩
  have e0' : win1_6.index ⟨8 * ((i 0).val / 128) + 7, hN⟩ (0 : Fin 2) = (8 * ((i 0).val / 128) + 7) / 8 := e0
  rw [mem_blk1_6]
  intro a
  match a with
  | ⟨0, _⟩ =>
    show win1_6.index ⟨8 * ((i 0).val / 128) + 7, hN⟩ (0 : Fin 2) * 128 ≤ (i 0).val ∧ (i 0).val < win1_6.index ⟨8 * ((i 0).val / 128) + 7, hN⟩ (0 : Fin 2) * 128 + 128
    rw [e0']; omega
  | ⟨1, _⟩ =>
    show win1_6.index ⟨8 * ((i 0).val / 128) + 7, hN⟩ (1 : Fin 2) * 1 ≤ (i 1).val ∧ (i 1).val < win1_6.index ⟨8 * ((i 0).val / 128) + 7, hN⟩ (1 : Fin 2) * 1 + 1
    rw [e1]; omega

/-- The score array after the region, as `scoreArr` of the five arrays the region reads. -/
theorem arr1_6 (c : Dev nD) :
    (dat1 V c).arrAt 6 cfg1.N = scoreArr (V c main_v2) (V c main_v1_0) (V c main_v3) (V c main_v4) (V c main_v5) :=
  (dat1 V c).arrAt_eq_of_cover 6 (scoreArr (V c main_v2) (V c main_v1_0) (V c main_v3) (V c main_v4) (V c main_v5))
    (fun t hf => flushed1_6 V c t ((flush1_6 t).mp hf)) cover1_6

end

end Cert.KernelIdeal.Hand

end
-- ==== Proof.KI.MathA.lean ====
import proofs.«180788_j42898133352735_1_alg».proof.Proof.KI.R0
import proofs.«180788_j42898133352735_1_alg».proof.Proof.RefReadGen
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.ValueIdx
open Cert.ReferenceIdeal.ReadP

/-! # The backbone's first half over the extended reals: kernel and reference agree

Two dense layers (the first with the leaky rectifier), then the batch normalisation's centred value times the inverse
standard deviation: the kernel's payload `k0_pay2` and the reference's stage of the same name are one function of
the five arrays. Format changes are the identity; the matrix unit's product into a zero accumulator is the host's
contraction; a keep-dims row broadcast is the host's two-step broadcast; the lane reduction is the host's sum. -/

/-! ## The payload cut at its stages -/

/-- A dense layer before its rectifier: the product into a zero accumulator plus the bias row over every row. -/
def lay1 (x0 : Vec Ideal S1024x128 .f32) (x1 : Vec Ideal S128x256 .f32) (x2 : Vec Ideal S256 .f32) : FVec Ideal S1024x256 .f32 :=
  addf (matmul dot_S1024x128_S128x256_S1024x256_1_0_0_1_n_n none (truncf .bf16 x0 bitsLt_bf16_f32) (truncf .bf16 x1 bitsLt_bf16_f32)
      (constant (F := Ideal) S1024x256 .f32 0x00000000#32))
    (broadcastTo S1024x256 (shapeCast S1x256 x2 shapeCasts_S256_S1x256) broadcasts_S1x256_S1024x256)

/-- The leaky rectifier: the value where it is positive, its multiple by the slope elsewhere. -/
def rect (y : FVec Ideal S1024x256 .f32) : FVec Ideal S1024x256 .f32 :=
  select (cmpf .ogt y (broadcast S1024x256 (Scalar.ofBits (F := Ideal) .f32 0x00000000#32))) y
    (mulf (broadcast S1024x256 (Scalar.ofBits (F := Ideal) .f32 0x3E4CCCCD#32)) y)

/-- The second dense layer. -/
def lay2 (h : FVec Ideal S1024x256 .f32) (x3 : Vec Ideal S256x128 .f32) (x4 : Vec Ideal S128 .f32) : FVec Ideal S1024x128 .f32 :=
  addf (matmul dot_S1024x256_S256x128_S1024x128_1_0_0_1_n_n none (truncf .bf16 h bitsLt_bf16_f32) (truncf .bf16 x3 bitsLt_bf16_f32)
      (constant (F := Ideal) S1024x128 .f32 0x00000000#32))
    (broadcastTo S1024x128 (shapeCast S1x128 x4 shapeCasts_S128_S1x128) broadcasts_S1x128_S1024x128)

/-- The mean of each column over the 1024 rows, kept as one row. -/
def colMean (z : FVec Ideal S1024x128 .f32) : FVec Ideal S1x128 .f32 :=
  divf (shapeCast S1x128 (multiReduction (F := Ideal) .add [0] S128 z 0x00000000#32 reduces_S1024x128_S128 (.inl rfl) rfl) shapeCasts_S128_S1x128)
    (broadcast S1x128 (Scalar.ofBits (F := Ideal) .f32 0x44800000#32))

/-- The value less its column's mean. -/
def centred (z : FVec Ideal S1024x128 .f32) : FVec Ideal S1024x128 .f32 :=
  subf z (broadcastTo S1024x128 (colMean z) broadcasts_S1x128_S1024x128)

/-- The centred value times the inverse square root of the centred value's mean square plus ε. -/
def norm (z : FVec Ideal S1024x128 .f32) : FVec Ideal S1024x128 .f32 :=
  mulf (centred z) (broadcastTo S1024x128
    (rsqrt (addf (colMean (mulf (centred z) (centred z))) (broadcast S1x128 (Scalar.ofBits (F := Ideal) .f32 0x3727C5AC#32))))
    broadcasts_S1x128_S1024x128)

/-- The payload is the composition of its stages. -/
theorem pay2_stages (x0 : Vec Ideal S1024x128 .f32) (x1 : Vec Ideal S128x256 .f32) (x2 : Vec Ideal S256 .f32) (x3 : Vec Ideal S256x128 .f32) (x4 : Vec Ideal S128 .f32) :
    k0_pay2 (F := Ideal) x0 x1 x2 x3 x4 = norm (lay2 (rect (lay1 x0 x1 x2)) x3 x4) := rfl

/-! ## The first layer's product -/

theorem lhs_mm1_0 (i : S1024x256.Idx) (q : dot_S1024x128_S128x256_S1024x256_1_0_0_1_n_n.contr.Idx) :
    (dot_S1024x128_S128x256_S1024x256_1_0_0_1_n_n.lhsIdx i q 0).val = (i 0).val := by
  unfold DotDims.lhsIdx
  rw [dif_neg (show ¬(0 : Fin S1024x128.rank) ∈ dot_S1024x128_S128x256_S1024x256_1_0_0_1_n_n.lhsBatch by decide), dif_pos (show (0 : Fin S1024x128.rank) ∈ dot_S1024x128_S128x256_S1024x256_1_0_0_1_n_n.lhsNonContracting by decide)]
  rfl
theorem lhs_mm1_1 (i : S1024x256.Idx) (q : dot_S1024x128_S128x256_S1024x256_1_0_0_1_n_n.contr.Idx) :
    (dot_S1024x128_S128x256_S1024x256_1_0_0_1_n_n.lhsIdx i q 1).val = (q ⟨0, by decide⟩).val :=
  dot_S1024x128_S128x256_S1024x256_1_0_0_1_n_n.lhsIdx_val_of_single rfl i q
theorem rhs_mm1_0 (i : S1024x256.Idx) (q : dot_S1024x128_S128x256_S1024x256_1_0_0_1_n_n.contr.Idx) :
    (dot_S1024x128_S128x256_S1024x256_1_0_0_1_n_n.rhsIdx i q 0).val = (q ⟨0, by decide⟩).val :=
  dot_S1024x128_S128x256_S1024x256_1_0_0_1_n_n.rhsIdx_val_of_single rfl i q
theorem rhs_mm1_1 (i : S1024x256.Idx) (q : dot_S1024x128_S128x256_S1024x256_1_0_0_1_n_n.contr.Idx) :
    (dot_S1024x128_S128x256_S1024x256_1_0_0_1_n_n.rhsIdx i q 1).val = (i 1).val := by
  unfold DotDims.rhsIdx
  rw [dif_neg (show ¬(1 : Fin S128x256.rank) ∈ dot_S1024x128_S128x256_S1024x256_1_0_0_1_n_n.rhsBatch by decide), dif_pos (show (1 : Fin S128x256.rank) ∈ dot_S1024x128_S128x256_S1024x256_1_0_0_1_n_n.rhsNonContracting by decide)]
  rfl

/-- The matrix unit's product into a zero accumulator, read at an index: the sum over the contracted axis of the row's
    entries times the column's — the host contraction's own reading. -/
theorem mm1_apply (a : FVec Ideal S1024x128 .bf16) (b : FVec Ideal S128x256 .bf16) (i : S1024x256.Idx) :
    matmul dot_S1024x128_S128x256_S1024x256_1_0_0_1_n_n none a b (constant (F := Ideal) S1024x256 .f32 0x00000000#32) i
      = ∑ k : Fin 128, a (lidx_main_v0 i k) * b (ridx_main_v0 i k) := by
  simp only [matmul]
  rw [Ideal.matmul_constant_zero_apply, ← Equiv.sum_comp (ValueIdx.contrEquiv1 dot_S1024x128_S128x256_S1024x256_1_0_0_1_n_n 128 rfl rfl).symm]
  refine Finset.sum_congr rfl fun k _ => ?_
  have hk := ValueIdx.contrEquiv1_symm_val dot_S1024x128_S128x256_S1024x256_1_0_0_1_n_n 128 rfl rfl k
  have el : dot_S1024x128_S128x256_S1024x256_1_0_0_1_n_n.lhsIdx i ((ValueIdx.contrEquiv1 dot_S1024x128_S128x256_S1024x256_1_0_0_1_n_n 128 rfl rfl).symm k) = lidx_main_v0 i k := funext fun a => Fin.ext (by
    match a with
    | ⟨0, _⟩ => exact lhs_mm1_0 _ _
    | ⟨1, _⟩ => exact (lhs_mm1_1 _ _).trans hk)
  have er : dot_S1024x128_S128x256_S1024x256_1_0_0_1_n_n.rhsIdx i ((ValueIdx.contrEquiv1 dot_S1024x128_S128x256_S1024x256_1_0_0_1_n_n 128 rfl rfl).symm k) = ridx_main_v0 i k := funext fun a => Fin.ext (by
    match a with
    | ⟨0, _⟩ => exact (rhs_mm1_0 _ _).trans hk
    | ⟨1, _⟩ => exact rhs_mm1_1 _ _)
  rw [el, er]

/-- The bias kept as one row and laid over every row is the host's two-step broadcast of the same array. -/
theorem bias1_apply (x2 : Vec Ideal S256 .f32) (p : Fin 1024) (q : Fin 256) :
    broadcastTo S1024x256 (shapeCast S1x256 x2 shapeCasts_S256_S1x256) broadcasts_S1x256_S1024x256 (ix2 p q)
      = val_main_v2 (F := Ideal) x2 (ix2 p q) := by
  rw [broadcastTo_1b_ab_apply, shapeCast_a_1a_apply, val_main_v2_apply, val_main_v1_apply]
  exact congrArg x2 (funext fun a => Fin.ext (by match a with | ⟨0, _⟩ => rfl))

/-- The first layer before its rectifier is the reference's. -/
theorem lay1_eq (x0 : Vec Ideal S1024x128 .f32) (x1 : Vec Ideal S128x256 .f32) (x2 : Vec Ideal S256 .f32) :
    lay1 x0 x1 x2 = val_main_v3 (F := Ideal) x0 x1 x2 := by
  funext i
  obtain ⟨p, q, rfl⟩ : ∃ (p : Fin 1024) (q : Fin 256), i = ix2 p q := ⟨i 0, i 1, eq_ix2 i⟩
  unfold lay1
  rw [addf_apply, mm1_apply, bias1_apply, val_main_v3_apply, Ideal.addf_def, val_main_v0_apply]
  rfl

/-! ## The rectifier -/

/-- The leaky rectifier of the reference's first layer is the reference's: comparison, product and choice are pointwise, and
    the two scalars are the host's constants laid over the array. -/
theorem rect_eq (x0 : Vec Ideal S1024x128 .f32) (x1 : Vec Ideal S128x256 .f32) (x2 : Vec Ideal S256 .f32) :
    rect (val_main_v3 (F := Ideal) x0 x1 x2) = val_main_v8 (F := Ideal) x0 x1 x2 := by
  funext i
  rw [val_main_v8_apply, val_main_v5_apply, val_main_v7_apply, val_main_v4_apply, val_main_v6_apply]
  rfl

/-! ## The second layer -/

theorem lhs_mm2_0 (i : S1024x128.Idx) (q : dot_S1024x256_S256x128_S1024x128_1_0_0_1_n_n.contr.Idx) :
    (dot_S1024x256_S256x128_S1024x128_1_0_0_1_n_n.lhsIdx i q 0).val = (i 0).val := by
  unfold DotDims.lhsIdx
  rw [dif_neg (show ¬(0 : Fin S1024x256.rank) ∈ dot_S1024x256_S256x128_S1024x128_1_0_0_1_n_n.lhsBatch by decide), dif_pos (show (0 : Fin S1024x256.rank) ∈ dot_S1024x256_S256x128_S1024x128_1_0_0_1_n_n.lhsNonContracting by decide)]
  rfl
theorem lhs_mm2_1 (i : S1024x128.Idx) (q : dot_S1024x256_S256x128_S1024x128_1_0_0_1_n_n.contr.Idx) :
    (dot_S1024x256_S256x128_S1024x128_1_0_0_1_n_n.lhsIdx i q 1).val = (q ⟨0, by decide⟩).val :=
  dot_S1024x256_S256x128_S1024x128_1_0_0_1_n_n.lhsIdx_val_of_single rfl i q
theorem rhs_mm2_0 (i : S1024x128.Idx) (q : dot_S1024x256_S256x128_S1024x128_1_0_0_1_n_n.contr.Idx) :
    (dot_S1024x256_S256x128_S1024x128_1_0_0_1_n_n.rhsIdx i q 0).val = (q ⟨0, by decide⟩).val :=
  dot_S1024x256_S256x128_S1024x128_1_0_0_1_n_n.rhsIdx_val_of_single rfl i q
theorem rhs_mm2_1 (i : S1024x128.Idx) (q : dot_S1024x256_S256x128_S1024x128_1_0_0_1_n_n.contr.Idx) :
    (dot_S1024x256_S256x128_S1024x128_1_0_0_1_n_n.rhsIdx i q 1).val = (i 1).val := by
  unfold DotDims.rhsIdx
  rw [dif_neg (show ¬(1 : Fin S256x128.rank) ∈ dot_S1024x256_S256x128_S1024x128_1_0_0_1_n_n.rhsBatch by decide), dif_pos (show (1 : Fin S256x128.rank) ∈ dot_S1024x256_S256x128_S1024x128_1_0_0_1_n_n.rhsNonContracting by decide)]
  rfl

/-- The matrix unit's product into a zero accumulator, read at an index: the sum over the contracted axis of the row's
    entries times the column's — the host contraction's own reading. -/
theorem mm2_apply (a : FVec Ideal S1024x256 .bf16) (b : FVec Ideal S256x128 .bf16) (i : S1024x128.Idx) :
    matmul dot_S1024x256_S256x128_S1024x128_1_0_0_1_n_n none a b (constant (F := Ideal) S1024x128 .f32 0x00000000#32) i
      = ∑ k : Fin 256, a (lidx_main_v9 i k) * b (ridx_main_v9 i k) := by
  simp only [matmul]
  rw [Ideal.matmul_constant_zero_apply, ← Equiv.sum_comp (ValueIdx.contrEquiv1 dot_S1024x256_S256x128_S1024x128_1_0_0_1_n_n 256 rfl rfl).symm]
  refine Finset.sum_congr rfl fun k _ => ?_
  have hk := ValueIdx.contrEquiv1_symm_val dot_S1024x256_S256x128_S1024x128_1_0_0_1_n_n 256 rfl rfl k
  have el : dot_S1024x256_S256x128_S1024x128_1_0_0_1_n_n.lhsIdx i ((ValueIdx.contrEquiv1 dot_S1024x256_S256x128_S1024x128_1_0_0_1_n_n 256 rfl rfl).symm k) = lidx_main_v9 i k := funext fun a => Fin.ext (by
    match a with
    | ⟨0, _⟩ => exact lhs_mm2_0 _ _
    | ⟨1, _⟩ => exact (lhs_mm2_1 _ _).trans hk)
  have er : dot_S1024x256_S256x128_S1024x128_1_0_0_1_n_n.rhsIdx i ((ValueIdx.contrEquiv1 dot_S1024x256_S256x128_S1024x128_1_0_0_1_n_n 256 rfl rfl).symm k) = ridx_main_v9 i k := funext fun a => Fin.ext (by
    match a with
    | ⟨0, _⟩ => exact (rhs_mm2_0 _ _).trans hk
    | ⟨1, _⟩ => exact rhs_mm2_1 _ _)
  rw [el, er]

/-- The second bias, one row over every row, is the host's two-step broadcast. -/
theorem bias2_apply (x4 : Vec Ideal S128 .f32) (p : Fin 1024) (q : Fin 128) :
    broadcastTo S1024x128 (shapeCast S1x128 x4 shapeCasts_S128_S1x128) broadcasts_S1x128_S1024x128 (ix2 p q)
      = val_main_v11 (F := Ideal) x4 (ix2 p q) := by
  rw [broadcastTo_1b_ab_apply, shapeCast_a_1a_apply, val_main_v11_apply, val_main_v10_apply]
  exact congrArg x4 (funext fun a => Fin.ext (by match a with | ⟨0, _⟩ => rfl))

/-- The second layer of the reference's rectified first layer is the reference's. -/
theorem lay2_eq (x0 : Vec Ideal S1024x128 .f32) (x1 : Vec Ideal S128x256 .f32) (x2 : Vec Ideal S256 .f32) (x3 : Vec Ideal S256x128 .f32) (x4 : Vec Ideal S128 .f32) :
    lay2 (val_main_v8 (F := Ideal) x0 x1 x2) x3 x4 = val_main_v12 (F := Ideal) x0 x1 x2 x3 x4 := by
  funext i
  obtain ⟨p, q, rfl⟩ : ∃ (p : Fin 1024) (q : Fin 128), i = ix2 p q := ⟨i 0, i 1, eq_ix2 i⟩
  unfold lay2
  rw [addf_apply, mm2_apply, bias2_apply, val_main_v12_apply, Ideal.addf_def, val_main_v9_apply]
  rfl

/-! ## The column mean and the centred value -/

/-- The lane reduction over the rows, read at a column: the column's sum. -/
theorem colSum_apply (z : FVec Ideal S1024x128 .f32) (q : Fin 128) :
    multiReduction (F := Ideal) .add [0] S128 z 0x00000000#32 reduces_S1024x128_S128 (.inl rfl) rfl (ix1 q)
      = ∑ k : Fin 1024, z (ix2 k q) := by
  refine (Ideal.multiReduction_add_single z 0x00000000#32 reduces_S1024x128_S128 (.inl rfl) rfl (ix1 q)).trans ?_
  refine Finset.sum_congr rfl fun k _ => ?_
  exact congrArg z (funext fun a => Fin.ext (by match a with | ⟨0, _⟩ => rfl | ⟨1, _⟩ => rfl))

/-- The column mean read at a column: the column's sum divided by the row count's word. -/
theorem colMean_apply (z : FVec Ideal S1024x128 .f32) (u : Fin 1) (q : Fin 128) :
    colMean z (ix2 u q) = Ideal.div (∑ k : Fin 1024, z (ix2 k q)) (Ideal.ofBits .f32 0x44800000#32) := by
  unfold colMean
  rw [divf_apply, shapeCast_a_1a_apply, colSum_apply, broadcast_apply]
  rfl

/-- The host's mean of the second layer's columns: its sum starts from the zero word, which adds nothing. -/
theorem refMean_apply (x0 : Vec Ideal S1024x128 .f32) (x1 : Vec Ideal S128x256 .f32) (x2 : Vec Ideal S256 .f32) (x3 : Vec Ideal S256x128 .f32) (x4 : Vec Ideal S128 .f32) (q : Fin 128) :
    val_main_v15 (F := Ideal) x0 x1 x2 x3 x4 (ix1 q)
      = Ideal.div (∑ k : Fin 1024, val_main_v12 (F := Ideal) x0 x1 x2 x3 x4 (ix2 k q)) (Ideal.ofBits .f32 0x44800000#32) := by
  rw [val_main_v15_apply, val_main_v13_apply, val_main_v14_apply, val_main_cst_2_apply, val_main_cst_1_apply]
  simp only [Ideal.hostDivf_def, Ideal.ofBits_def, Ideal.ofBits_zero_f32, zero_add]
  refine congrArg (Ideal.div · _) (Finset.sum_congr rfl fun k _ => ?_)
  exact congrArg _ (funext fun a => Fin.ext (by match a with | ⟨0, _⟩ => rfl | ⟨1, _⟩ => rfl))

/-- The host's mean of the squares' columns likewise. -/
theorem refMeanSq_apply (x0 : Vec Ideal S1024x128 .f32) (x1 : Vec Ideal S128x256 .f32) (x2 : Vec Ideal S256 .f32) (x3 : Vec Ideal S256x128 .f32) (x4 : Vec Ideal S128 .f32) (q : Fin 128) :
    val_main_v22 (F := Ideal) x0 x1 x2 x3 x4 (ix1 q)
      = Ideal.div (∑ k : Fin 1024, val_main_v19 (F := Ideal) x0 x1 x2 x3 x4 (ix2 k q)) (Ideal.ofBits .f32 0x44800000#32) := by
  rw [val_main_v22_apply, val_main_v20_apply, val_main_v21_apply, val_main_cst_4_apply, val_main_cst_3_apply]
  simp only [Ideal.hostDivf_def, Ideal.ofBits_def, Ideal.ofBits_zero_f32, zero_add]
  refine congrArg (Ideal.div · _) (Finset.sum_congr rfl fun k _ => ?_)
  exact congrArg _ (funext fun a => Fin.ext (by match a with | ⟨0, _⟩ => rfl | ⟨1, _⟩ => rfl))

/-- The value less its column's mean, read at an entry. -/
theorem centred_apply (z : FVec Ideal S1024x128 .f32) (p : Fin 1024) (q : Fin 128) :
    centred z (ix2 p q) = z (ix2 p q) - Ideal.div (∑ k : Fin 1024, z (ix2 k q)) (Ideal.ofBits .f32 0x44800000#32) := by
  unfold centred
  rw [subf_apply, broadcastTo_1b_ab_apply, colMean_apply]

/-- The centred second layer is the reference's, in the copy its square is taken of … -/
theorem centred_eq_v18 (x0 : Vec Ideal S1024x128 .f32) (x1 : Vec Ideal S128x256 .f32) (x2 : Vec Ideal S256 .f32) (x3 : Vec Ideal S256x128 .f32) (x4 : Vec Ideal S128 .f32) :
    centred (val_main_v12 (F := Ideal) x0 x1 x2 x3 x4) = val_main_v18 (F := Ideal) x0 x1 x2 x3 x4 := by
  funext i
  obtain ⟨p, q, rfl⟩ : ∃ (p : Fin 1024) (q : Fin 128), i = ix2 p q := ⟨i 0, i 1, eq_ix2 i⟩
  have e : idx_main_v16 (idx_main_v17 (ix2 p q)) = ix1 q := funext fun a => Fin.ext (by match a with | ⟨0, _⟩ => rfl)
  rw [centred_apply, val_main_v18_apply, val_main_v17_apply, val_main_v16_apply, e, refMean_apply, Ideal.subf_def]

/-- … and in the copy the inverse deviation multiplies. -/
theorem centred_eq_v25 (x0 : Vec Ideal S1024x128 .f32) (x1 : Vec Ideal S128x256 .f32) (x2 : Vec Ideal S256 .f32) (x3 : Vec Ideal S256x128 .f32) (x4 : Vec Ideal S128 .f32) :
    centred (val_main_v12 (F := Ideal) x0 x1 x2 x3 x4) = val_main_v25 (F := Ideal) x0 x1 x2 x3 x4 := by
  funext i
  obtain ⟨p, q, rfl⟩ : ∃ (p : Fin 1024) (q : Fin 128), i = ix2 p q := ⟨i 0, i 1, eq_ix2 i⟩
  have e : idx_main_v23 (idx_main_v24 (ix2 p q)) = ix1 q := funext fun a => Fin.ext (by match a with | ⟨0, _⟩ => rfl)
  rw [centred_apply, val_main_v25_apply, val_main_v24_apply, val_main_v23_apply, e, refMean_apply, Ideal.subf_def]

/-! ## The inverse deviation and the product -/

/-- The mean square of the centred second layer, at a column, is the host's. -/
theorem meanSq_eq (x0 : Vec Ideal S1024x128 .f32) (x1 : Vec Ideal S128x256 .f32) (x2 : Vec Ideal S256 .f32) (x3 : Vec Ideal S256x128 .f32) (x4 : Vec Ideal S128 .f32) (u : Fin 1) (q : Fin 128) :
    colMean (mulf (centred (val_main_v12 (F := Ideal) x0 x1 x2 x3 x4)) (centred (val_main_v12 (F := Ideal) x0 x1 x2 x3 x4))) (ix2 u q) = val_main_v22 (F := Ideal) x0 x1 x2 x3 x4 (ix1 q) := by
  rw [centred_eq_v18, colMean_apply, refMeanSq_apply]
  rfl

/-- The host's inverse deviation laid over the array, read at an entry: the inverse square root of the column's mean
    square plus ε. -/
theorem refInv_apply (x0 : Vec Ideal S1024x128 .f32) (x1 : Vec Ideal S128x256 .f32) (x2 : Vec Ideal S256 .f32) (x3 : Vec Ideal S256x128 .f32) (x4 : Vec Ideal S128 .f32) (p : Fin 1024) (q : Fin 128) :
    val_main_v30 (F := Ideal) x0 x1 x2 x3 x4 (ix2 p q)
      = Ideal.rsqrt (val_main_v22 (F := Ideal) x0 x1 x2 x3 x4 (ix1 q) + Ideal.ofBits .f32 0x3727C5AC#32) := by
  have e : idx_main_v29 (idx_main_v30 (ix2 p q)) = ix1 q := funext fun a => Fin.ext (by match a with | ⟨0, _⟩ => rfl)
  rw [val_main_v30_apply, val_main_v29_apply, e, val_main_v28_apply, val_main_v27_apply, val_main_v26_apply, val_main_cst_5_apply]
  rfl

/-- The normalisation of the reference's second layer is the reference's. -/
theorem norm_eq (x0 : Vec Ideal S1024x128 .f32) (x1 : Vec Ideal S128x256 .f32) (x2 : Vec Ideal S256 .f32) (x3 : Vec Ideal S256x128 .f32) (x4 : Vec Ideal S128 .f32) :
    norm (val_main_v12 (F := Ideal) x0 x1 x2 x3 x4) = val_main_v31 (F := Ideal) x0 x1 x2 x3 x4 := by
  funext i
  obtain ⟨p, q, rfl⟩ : ∃ (p : Fin 1024) (q : Fin 128), i = ix2 p q := ⟨i 0, i 1, eq_ix2 i⟩
  unfold norm
  rw [mulf_apply, broadcastTo_1b_ab_apply, val_main_v31_apply, refInv_apply, ← meanSq_eq x0 x1 x2 x3 x4 0 q, ← centred_eq_v25]
  rfl

/-! ## The payload is the reference's stage -/

theorem pay2_eq (x0 : Vec Ideal S1024x128 .f32) (x1 : Vec Ideal S128x256 .f32) (x2 : Vec Ideal S256 .f32) (x3 : Vec Ideal S256x128 .f32) (x4 : Vec Ideal S128 .f32) :
    k0_pay2 (F := Ideal) x0 x1 x2 x3 x4 = val_main_v31 (F := Ideal) x0 x1 x2 x3 x4 := by
  rw [pay2_stages, lay1_eq, rect_eq, lay2_eq, norm_eq]

end Cert.KernelIdeal.Hand

end
-- ==== Proof.KI.MathB.lean ====
import proofs.«180788_j42898133352735_1_alg».proof.Proof.KI.MathA
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.ValueIdx
open Cert.ReferenceIdeal.ReadP

/-! # The backbone's second half over the extended reals, and the projected features

From the normalised value: scale and shift, the rectifier, the third layer with its rectifier, the value and output
projections added back to it — the kernel adds the output bias to the projection before the residual, the reference
after: addition of extended reals is associative —, then the projection onto the flattened table. -/

/-! ## The kernel's layers, one definition each -/

/-- A vector of 128 lanes laid over the 1024 rows: a unit axis in front, then every row the same. -/
def rows128 (x : FVec Ideal S128 .f32) : FVec Ideal S1024x128 .f32 :=
  broadcastTo S1024x128 (shapeCast S1x128 x shapeCasts_S128_S1x128) broadcasts_S1x128_S1024x128

/-- A vector of 64 lanes laid over the 1024 rows. -/
def rows64 (x : FVec Ideal S64 .f32) : FVec Ideal S1024x64 .f32 :=
  broadcastTo S1024x64 (shapeCast S1x64 x shapeCasts_S64_S1x64) broadcasts_S1x64_S1024x64

/-- The leaky rectifier on 128 lanes: the value where it is positive, a fifth of it elsewhere. -/
def leaky128 (a : FVec Ideal S1024x128 .f32) : FVec Ideal S1024x128 .f32 :=
  select (cmpf .ogt a (broadcast S1024x128 (Scalar.ofBits .f32 0x00000000#32))) a
    (mulf (broadcast S1024x128 (Scalar.ofBits .f32 0x3E4CCCCD#32)) a)

/-- The leaky rectifier on 64 lanes. -/
def leaky64 (a : FVec Ideal S1024x64 .f32) : FVec Ideal S1024x64 .f32 :=
  select (cmpf .ogt a (broadcast S1024x64 (Scalar.ofBits .f32 0x00000000#32))) a
    (mulf (broadcast S1024x64 (Scalar.ofBits .f32 0x3E4CCCCD#32)) a)

/-- The third dense layer: the narrowed operands' product into a zero accumulator, plus the bias on every row. -/
def dense128 (a : FVec Ideal S1024x128 .f32) (w : FVec Ideal S128x64 .f32) (b : FVec Ideal S64 .f32) : FVec Ideal S1024x64 .f32 :=
  addf (matmul dot_S1024x128_S128x64_S1024x64_1_0_0_1_n_n none (truncf .bf16 a bitsLt_bf16_f32) (truncf .bf16 w bitsLt_bf16_f32)
    (constant (F := Ideal) S1024x64 .f32 0x00000000#32)) (rows64 b)

/-- A square dense layer on 64 lanes (the value and the output projections). -/
def dense64 (a : FVec Ideal S1024x64 .f32) (w : FVec Ideal S64x64 .f32) (b : FVec Ideal S64 .f32) : FVec Ideal S1024x64 .f32 :=
  addf (matmul dot_S1024x64_S64x64_S1024x64_1_0_0_1_n_n none (truncf .bf16 a bitsLt_bf16_f32) (truncf .bf16 w bitsLt_bf16_f32)
    (constant (F := Ideal) S1024x64 .f32 0x00000000#32)) (rows64 b)

/-- The hidden state after the third layer's rectifier, from the normalised value. -/
def hidden3 (n : FVec Ideal S1024x128 .f32) (x5 x6 : FVec Ideal S128 .f32) (x7 : FVec Ideal S128x64 .f32) (x8 : FVec Ideal S64 .f32) :
    FVec Ideal S1024x64 .f32 :=
  leaky64 (dense128 (leaky128 (addf (mulf n (rows128 x5)) (rows128 x6))) x7 x8)

/-- The kernel's payload is these layers composed: the residual added to the biased output projection. -/
theorem pay3_layers (n : FVec Ideal S1024x128 .f32) (x5 x6 : Vec Ideal S128 .f32) (x7 : Vec Ideal S128x64 .f32) (x8 : Vec Ideal S64 .f32)
    (x9 : Vec Ideal S64x64 .f32) (x10 : Vec Ideal S64 .f32) (x11 : Vec Ideal S64x64 .f32) (x12 : Vec Ideal S64 .f32) :
    k0_pay3 (F := Ideal) n x5 x6 x7 x8 x9 x10 x11 x12
      = addf (hidden3 n x5 x6 x7 x8) (dense64 (dense64 (hidden3 n x5 x6 x7 x8) x9 x10) x11 x12) := rfl

/-! ## Each form of the kernel is the reference's -/

/-- The matrix unit's product of narrowed operands into a zero accumulator is the host's contraction: both are the
sum over the contracted axis of the operands' products, and narrowing is the identity. -/
theorem mm_128_64 (a : FVec Ideal S1024x128 .f32) (w : FVec Ideal S128x64 .f32) :
    matmul dot_S1024x128_S128x64_S1024x64_1_0_0_1_n_n none (truncf .bf16 a bitsLt_bf16_f32) (truncf .bf16 w bitsLt_bf16_f32) (constant (F := Ideal) S1024x64 .f32 0x00000000#32)
      = Host.dotGeneral (F := Ideal) Cert.ReferenceIdeal.dot_S1024x128_S128x64_S1024x64_1_0_0_1_n_n none a w := by
  funext j
  simp only [matmul, Host.dotGeneral]
  rw [Ideal.matmul_constant_zero_apply, Ideal.dotGeneral_apply]
  rfl

theorem mm_64_64 (a : FVec Ideal S1024x64 .f32) (w : FVec Ideal S64x64 .f32) :
    matmul dot_S1024x64_S64x64_S1024x64_1_0_0_1_n_n none (truncf .bf16 a bitsLt_bf16_f32) (truncf .bf16 w bitsLt_bf16_f32) (constant (F := Ideal) S1024x64 .f32 0x00000000#32)
      = Host.dotGeneral (F := Ideal) Cert.ReferenceIdeal.dot_S1024x64_S64x64_S1024x64_1_0_0_1_n_n none a w := by
  funext j
  simp only [matmul, Host.dotGeneral]
  rw [Ideal.matmul_constant_zero_apply, Ideal.dotGeneral_apply]
  rfl

theorem mm_64_250 (a : FVec Ideal S1024x64 .f32) (w : FVec Ideal S64x250 .f32) :
    matmul dot_S1024x64_S64x250_S1024x250_1_0_0_1_n_n none (truncf .bf16 a bitsLt_bf16_f32) (truncf .bf16 w bitsLt_bf16_f32) (constant (F := Ideal) S1024x250 .f32 0x00000000#32)
      = Host.dotGeneral (F := Ideal) Cert.ReferenceIdeal.dot_S1024x64_S64x250_S1024x250_1_0_0_1_n_n none a w := by
  funext j
  simp only [matmul, Host.dotGeneral]
  rw [Ideal.matmul_constant_zero_apply, Ideal.dotGeneral_apply]
  rfl

/-- A keep-dims row broadcast is the host's two-step broadcast: both read the vector at the lane. -/
theorem rows128_v33 (x : FVec Ideal S128 .f32) : rows128 x = val_main_v33 (F := Ideal) x := by
  funext i
  obtain ⟨p, q, rfl⟩ : ∃ (p : Fin 1024) (q : Fin 128), i = ix2 p q := ⟨i 0, i 1, eq_ix2 i⟩
  unfold rows128
  rw [broadcastTo_1b_ab_apply, shapeCast_a_1a_apply, val_main_v33_apply, val_main_v32_apply]
  exact congrArg x (funext fun a => match a with | ⟨0, _⟩ => rfl)

theorem rows128_v36 (x : FVec Ideal S128 .f32) : rows128 x = val_main_v36 (F := Ideal) x := rows128_v33 x

theorem rows64_v45 (x : FVec Ideal S64 .f32) : rows64 x = val_main_v45 (F := Ideal) x := by
  funext i
  obtain ⟨p, q, rfl⟩ : ∃ (p : Fin 1024) (q : Fin 64), i = ix2 p q := ⟨i 0, i 1, eq_ix2 i⟩
  unfold rows64
  rw [broadcastTo_1b_ab_apply, shapeCast_a_1a_apply, val_main_v45_apply, val_main_v44_apply]
  exact congrArg x (funext fun a => match a with | ⟨0, _⟩ => rfl)

theorem rows64_v54 (x : FVec Ideal S64 .f32) : rows64 x = val_main_v54 (F := Ideal) x := rows64_v45 x

theorem rows64_v59 (x : FVec Ideal S64 .f32) : rows64 x = val_main_v59 (F := Ideal) x := rows64_v45 x

/-- The rectifier's two constants are the reference's scalar constants laid over the array. -/
theorem leaky128_ref (a : FVec Ideal S1024x128 .f32) :
    leaky128 a = select (cmpf .ogt a (val_main_v38 (F := Ideal))) a (mulf (val_main_v40 (F := Ideal)) a) := by
  funext i
  unfold leaky128
  rw [select_apply, select_apply, cmpf_apply, cmpf_apply, mulf_apply, mulf_apply, broadcast_apply, broadcast_apply,
    val_main_v38_apply, val_main_v40_apply, val_main_cst_6_apply, val_main_cst_7_apply]

theorem leaky64_ref (a : FVec Ideal S1024x64 .f32) :
    leaky64 a = select (cmpf .ogt a (val_main_v47 (F := Ideal))) a (mulf (val_main_v49 (F := Ideal)) a) := by
  funext i
  unfold leaky64
  rw [select_apply, select_apply, cmpf_apply, cmpf_apply, mulf_apply, mulf_apply, broadcast_apply, broadcast_apply,
    val_main_v47_apply, val_main_v49_apply, val_main_cst_8_apply, val_main_cst_9_apply]

/-! ## The reference's stages, layer by layer -/

theorem affine_v37 (x0 : Vec Ideal S1024x128 .f32) (x1 : Vec Ideal S128x256 .f32) (x2 : Vec Ideal S256 .f32) (x3 : Vec Ideal S256x128 .f32) (x4 x5 x6 : Vec Ideal S128 .f32) :
    addf (mulf (val_main_v31 (F := Ideal) x0 x1 x2 x3 x4) (rows128 x5)) (rows128 x6) = val_main_v37 (F := Ideal) x0 x1 x2 x3 x4 x5 x6 := by
  rw [rows128_v33 x5, rows128_v36 x6]
  rfl

theorem leaky_v42 (x0 : Vec Ideal S1024x128 .f32) (x1 : Vec Ideal S128x256 .f32) (x2 : Vec Ideal S256 .f32) (x3 : Vec Ideal S256x128 .f32) (x4 x5 x6 : Vec Ideal S128 .f32) :
    leaky128 (val_main_v37 (F := Ideal) x0 x1 x2 x3 x4 x5 x6) = val_main_v42 (F := Ideal) x0 x1 x2 x3 x4 x5 x6 := by
  rw [leaky128_ref]
  rfl

theorem dense_v46 (x0 : Vec Ideal S1024x128 .f32) (x1 : Vec Ideal S128x256 .f32) (x2 : Vec Ideal S256 .f32) (x3 : Vec Ideal S256x128 .f32) (x4 x5 x6 : Vec Ideal S128 .f32)
    (x7 : Vec Ideal S128x64 .f32) (x8 : Vec Ideal S64 .f32) :
    dense128 (val_main_v42 (F := Ideal) x0 x1 x2 x3 x4 x5 x6) x7 x8 = val_main_v46 (F := Ideal) x0 x1 x2 x3 x4 x5 x6 x7 x8 := by
  unfold dense128
  rw [mm_128_64, rows64_v45]
  rfl

theorem leaky_v51 (x0 : Vec Ideal S1024x128 .f32) (x1 : Vec Ideal S128x256 .f32) (x2 : Vec Ideal S256 .f32) (x3 : Vec Ideal S256x128 .f32) (x4 x5 x6 : Vec Ideal S128 .f32)
    (x7 : Vec Ideal S128x64 .f32) (x8 : Vec Ideal S64 .f32) :
    leaky64 (val_main_v46 (F := Ideal) x0 x1 x2 x3 x4 x5 x6 x7 x8) = val_main_v51 (F := Ideal) x0 x1 x2 x3 x4 x5 x6 x7 x8 := by
  rw [leaky64_ref]
  rfl

theorem hidden3_v51 (x0 : Vec Ideal S1024x128 .f32) (x1 : Vec Ideal S128x256 .f32) (x2 : Vec Ideal S256 .f32) (x3 : Vec Ideal S256x128 .f32) (x4 x5 x6 : Vec Ideal S128 .f32)
    (x7 : Vec Ideal S128x64 .f32) (x8 : Vec Ideal S64 .f32) :
    hidden3 (val_main_v31 (F := Ideal) x0 x1 x2 x3 x4) x5 x6 x7 x8 = val_main_v51 (F := Ideal) x0 x1 x2 x3 x4 x5 x6 x7 x8 := by
  unfold hidden3
  rw [affine_v37, leaky_v42, dense_v46, leaky_v51]

theorem dense_v55 (x0 : Vec Ideal S1024x128 .f32) (x1 : Vec Ideal S128x256 .f32) (x2 : Vec Ideal S256 .f32) (x3 : Vec Ideal S256x128 .f32) (x4 x5 x6 : Vec Ideal S128 .f32)
    (x7 : Vec Ideal S128x64 .f32) (x8 : Vec Ideal S64 .f32) (x9 : Vec Ideal S64x64 .f32) (x10 : Vec Ideal S64 .f32) :
    dense64 (val_main_v51 (F := Ideal) x0 x1 x2 x3 x4 x5 x6 x7 x8) x9 x10 = val_main_v55 (F := Ideal) x0 x1 x2 x3 x4 x5 x6 x7 x8 x9 x10 := by
  unfold dense64
  rw [mm_64_64, rows64_v54]
  rfl

/-- The last sum: the kernel adds the bias to the projection first, the reference to the residual sum; addition of
extended reals is associative. -/
theorem resid_v60 (x0 : Vec Ideal S1024x128 .f32) (x1 : Vec Ideal S128x256 .f32) (x2 : Vec Ideal S256 .f32) (x3 : Vec Ideal S256x128 .f32) (x4 x5 x6 : Vec Ideal S128 .f32)
    (x7 : Vec Ideal S128x64 .f32) (x8 : Vec Ideal S64 .f32) (x9 : Vec Ideal S64x64 .f32) (x10 : Vec Ideal S64 .f32) (x11 : Vec Ideal S64x64 .f32) (x12 : Vec Ideal S64 .f32) :
    addf (val_main_v51 (F := Ideal) x0 x1 x2 x3 x4 x5 x6 x7 x8) (dense64 (val_main_v55 (F := Ideal) x0 x1 x2 x3 x4 x5 x6 x7 x8 x9 x10) x11 x12)
      = val_main_v60 (F := Ideal) x0 x1 x2 x3 x4 x5 x6 x7 x8 x9 x10 x11 x12 := by
  unfold dense64
  rw [mm_64_64, rows64_v59]
  funext i
  rw [val_main_v60_apply, val_main_v57_apply, addf_apply, addf_apply]
  exact (add_assoc _ _ _).symm

theorem hPay_eq (x0 : Vec Ideal S1024x128 .f32) (x1 : Vec Ideal S128x256 .f32) (x2 : Vec Ideal S256 .f32) (x3 : Vec Ideal S256x128 .f32) (x4 x5 x6 : Vec Ideal S128 .f32)
    (x7 : Vec Ideal S128x64 .f32) (x8 : Vec Ideal S64 .f32) (x9 : Vec Ideal S64x64 .f32) (x10 : Vec Ideal S64 .f32) (x11 : Vec Ideal S64x64 .f32) (x12 : Vec Ideal S64 .f32) :
    hPay (F := Ideal) x0 x1 x2 x3 x4 x5 x6 x7 x8 x9 x10 x11 x12 = val_main_v60 (F := Ideal) x0 x1 x2 x3 x4 x5 x6 x7 x8 x9 x10 x11 x12 := by
  unfold hPay
  rw [pay2_eq, pay3_layers, hidden3_v51, dense_v55, resid_v60]

/-- The projected features before the last reshape: the narrowed hidden state times the narrowed flat table. -/
theorem mPay_layers (x0 : Vec Ideal S1024x128 .f32) (x1 : Vec Ideal S128x256 .f32) (x2 : Vec Ideal S256 .f32) (x3 : Vec Ideal S256x128 .f32) (x4 x5 x6 : Vec Ideal S128 .f32)
    (x7 : Vec Ideal S128x64 .f32) (x8 : Vec Ideal S64 .f32) (x9 : Vec Ideal S64x64 .f32) (x10 : Vec Ideal S64 .f32) (x11 : Vec Ideal S64x64 .f32) (x12 : Vec Ideal S64 .f32) (w : Vec Ideal S64x250 .f32) :
    mPay (F := Ideal) x0 x1 x2 x3 x4 x5 x6 x7 x8 x9 x10 x11 x12 w
      = matmul dot_S1024x64_S64x250_S1024x250_1_0_0_1_n_n none (truncf .bf16 (hPay (F := Ideal) x0 x1 x2 x3 x4 x5 x6 x7 x8 x9 x10 x11 x12) bitsLt_bf16_f32)
          (truncf .bf16 (shapeCast S64x250 w shapeCasts_S64x250_S64x250) bitsLt_bf16_f32) (constant (F := Ideal) S1024x250 .f32 0x00000000#32) := rfl

theorem mPay_v62 (x0 : Vec Ideal S1024x128 .f32) (x1 : Vec Ideal S128x256 .f32) (x2 : Vec Ideal S256 .f32) (x3 : Vec Ideal S256x128 .f32) (x4 x5 x6 : Vec Ideal S128 .f32)
    (x7 : Vec Ideal S128x64 .f32) (x8 : Vec Ideal S64 .f32) (x9 : Vec Ideal S64x64 .f32) (x10 : Vec Ideal S64 .f32) (x11 : Vec Ideal S64x64 .f32) (x12 : Vec Ideal S64 .f32) (x13 : Vec Ideal S64x50x5 .f32) :
    mPay (F := Ideal) x0 x1 x2 x3 x4 x5 x6 x7 x8 x9 x10 x11 x12 (shapeCast S64x250 x13 shapeCasts_S64x50x5_S64x250)
      = val_main_v62 (F := Ideal) x0 x1 x2 x3 x4 x5 x6 x7 x8 x9 x10 x11 x12 x13 := by
  rw [mPay_layers, shapeCast_self, mm_64_250, hPay_eq]
  rfl

theorem mPay_eq (x0 : Vec Ideal S1024x128 .f32) (x1 : Vec Ideal S128x256 .f32) (x2 : Vec Ideal S256 .f32) (x3 : Vec Ideal S256x128 .f32) (x4 x5 x6 : Vec Ideal S128 .f32)
    (x7 : Vec Ideal S128x64 .f32) (x8 : Vec Ideal S64 .f32) (x9 : Vec Ideal S64x64 .f32) (x10 : Vec Ideal S64 .f32) (x11 : Vec Ideal S64x64 .f32) (x12 : Vec Ideal S64 .f32) (x13 : Vec Ideal S64x50x5 .f32) :
    shapeCast S1024x50x5 (mPay (F := Ideal) x0 x1 x2 x3 x4 x5 x6 x7 x8 x9 x10 x11 x12 (shapeCast S64x250 x13 shapeCasts_S64x50x5_S64x250)) shapeCasts_S1024x250_S1024x50x5
      = val_main_v63 (F := Ideal) x0 x1 x2 x3 x4 x5 x6 x7 x8 x9 x10 x11 x12 x13 :=
  congrArg (fun y => shapeCast S1024x50x5 y shapeCasts_S1024x250_S1024x50x5) (mPay_v62 x0 x1 x2 x3 x4 x5 x6 x7 x8 x9 x10 x11 x12 x13)

end Cert.KernelIdeal.Hand

end
-- ==== Proof.KI.MathC.lean ====
import proofs.«180788_j42898133352735_1_alg».proof.Proof.KI.ValDefs
import proofs.«180788_j42898133352735_1_alg».proof.Proof.RefReadGen
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.ValueIdx
open Cert.ReferenceIdeal.ReadP

/-! # The pairwise stage and the score over the extended reals: kernel and reference agree

For features `M` and hidden state `H`: the kernel's row `r` sums, over all 1024 rows `b` (eight key blocks of 128),
`exp (0 − Σ_k |M r o k − M b o k|)`; the reference sums `exp (−Σ_k |M a o k − M r o k|)` over `a`: equal since
`|x − y| = |y − x|` on the extended reals and a sum does not depend on its grouping. The score contracts the 64
hidden channels and the 50 sums minus one against the two halves of the weights; the reference contracts their
concatenation against the whole: a sum over 114 split at 64. -/

namespace TailC

/-! ## The laws on the extended reals: the absolute difference is symmetric; sums regrouped -/
/-- The absolute difference of two extended reals as the kernel and the reference both compute it. -/
abbrev ad (x y : EReal) : EReal := max (x - y) (-(x - y))

/-- The zero word's value (never evaluated except where `0 + x = x` is used). -/
abbrev zw : EReal := Ideal.ofBits .f32 0x00000000#32

/-- The word of the constant one (the same word on both sides; never evaluated). -/
abbrev ow : EReal := Ideal.ofBits .f32 0x3F800000#32

/-- The absolute value of a difference of extended reals does not depend on the order of its terms: on the reals it is
    `|x − y| = |y − x|`; at the infinities both sides are `⊤` (where `⊤ − ⊤ = ⊥`, `|⊥| = ⊤` on both sides). -/
theorem abs_sub_comm_ereal (x y : EReal) : ad x y = ad y x := by
  show max (x - y) (-(x - y)) = max (y - x) (-(y - x))
  induction x using EReal.rec <;> induction y using EReal.rec
  case coe.coe a b =>
    rw [← EReal.coe_sub, ← EReal.coe_sub, ← EReal.coe_neg, ← EReal.coe_neg, neg_sub, neg_sub, max_comm]
  all_goals first
    | rfl
    | (simp; done)

/-- One pair's term: the kernel's `exp (0 − d)` with the five absolute differences added in order from zero is the
    reference's `exp (−(0 + Σ_k |·|))` with the differences taken the other way round. -/
theorem term_eq (f g : Fin 5 → EReal) :
    Ideal.exp (zw - (((((zw + ad (f 0) (g 0)) + ad (f 1) (g 1)) + ad (f 2) (g 2)) + ad (f 3) (g 3)) + ad (f 4) (g 4)))
      = Ideal.exp (-(zw + ∑ k : Fin 5, ad (g k) (f k))) := by
  rw [Fin.sum_univ_five, abs_sub_comm_ereal (g 0) (f 0), abs_sub_comm_ereal (g 1) (f 1), abs_sub_comm_ereal (g 2) (f 2),
    abs_sub_comm_ereal (g 3) (f 3), abs_sub_comm_ereal (g 4) (f 4)]
  show Ideal.exp (Ideal.ofBits .f32 0x00000000#32 - (((((Ideal.ofBits .f32 0x00000000#32 + _) + _) + _) + _) + _))
    = Ideal.exp (-(Ideal.ofBits .f32 0x00000000#32 + _))
  rw [Ideal.ofBits_zero_f32, zero_add, zero_add, sub_eq_add_neg, zero_add]

/-- A sum over the 1024 rows, taken as eight blocks of 128 in order. -/
theorem sum_rows (g : Fin 1024 → EReal) :
    ∑ a : Fin 1024, g a
      = ∑ j ∈ Finset.range 8, ∑ q : Fin 128, g ⟨(128 * j + q.val) % 1024, Nat.mod_lt _ (by decide)⟩ := by
  rw [← Fin.sum_univ_eq_sum_range (fun j => ∑ q : Fin 128, g ⟨(128 * j + q.val) % 1024, Nat.mod_lt _ (by decide)⟩) 8,
    ← Fintype.sum_prod_type']
  refine (Fintype.sum_equiv (finProdFinEquiv (m := 8) (n := 128)) _ g (fun x => ?_)).symm
  refine congrArg g (Fin.ext ?_)
  show (128 * x.1.val + x.2.val) % 1024 = x.2.val + 128 * x.1.val
  have h1 := x.1.isLt
  have h2 := x.2.isLt
  omega

/-- A sum over the 114 concatenated channels, split at 64. -/
theorem sum_split (F : Fin 114 → EReal) :
    ∑ k : Fin 114, F k = (∑ c : Fin 64, F ⟨c.val, by omega⟩) + ∑ o : Fin 50, F ⟨64 + o.val, by omega⟩ := by
  exact Fin.sum_univ_add (a := 64) (b := 50) (show Fin (64 + 50) → EReal from F)

/-! ## The kernel's step: the five component loads, the two broadcasts, the payloads at an index -/
/-- Component `k` of a feature block, loaded as a [128, 50, 1] vector, read at (p, o, 0): the block at (p, o, k). -/
theorem ld_rk0 (a : Vec Ideal S128x50x5 .f32) (p : Fin 128) (o : Fin 50) :
    View.ld a rk0 (ix3 p o (0 : Fin 1)) = a (ix3 p o (0 : Fin 5)) := by
  show a (rk0.idx (ix3 p o (0 : Fin 1))) = a (ix3 p o (0 : Fin 5))
  refine congrArg a (funext fun d => Fin.ext ?_)
  match d with
  | ⟨0, _⟩ => show 0 + 1 * p.val = p.val; omega
  | ⟨1, _⟩ => show 0 + 1 * o.val = o.val; omega
  | ⟨2, _⟩ => rfl
theorem ld_rk1 (a : Vec Ideal S128x50x5 .f32) (p : Fin 128) (o : Fin 50) :
    View.ld a rk1 (ix3 p o (0 : Fin 1)) = a (ix3 p o (1 : Fin 5)) := by
  show a (rk1.idx (ix3 p o (0 : Fin 1))) = a (ix3 p o (1 : Fin 5))
  refine congrArg a (funext fun d => Fin.ext ?_)
  match d with
  | ⟨0, _⟩ => show 0 + 1 * p.val = p.val; omega
  | ⟨1, _⟩ => show 0 + 1 * o.val = o.val; omega
  | ⟨2, _⟩ => rfl
theorem ld_rk2 (a : Vec Ideal S128x50x5 .f32) (p : Fin 128) (o : Fin 50) :
    View.ld a rk2 (ix3 p o (0 : Fin 1)) = a (ix3 p o (2 : Fin 5)) := by
  show a (rk2.idx (ix3 p o (0 : Fin 1))) = a (ix3 p o (2 : Fin 5))
  refine congrArg a (funext fun d => Fin.ext ?_)
  match d with
  | ⟨0, _⟩ => show 0 + 1 * p.val = p.val; omega
  | ⟨1, _⟩ => show 0 + 1 * o.val = o.val; omega
  | ⟨2, _⟩ => rfl
theorem ld_rk3 (a : Vec Ideal S128x50x5 .f32) (p : Fin 128) (o : Fin 50) :
    View.ld a rk3 (ix3 p o (0 : Fin 1)) = a (ix3 p o (3 : Fin 5)) := by
  show a (rk3.idx (ix3 p o (0 : Fin 1))) = a (ix3 p o (3 : Fin 5))
  refine congrArg a (funext fun d => Fin.ext ?_)
  match d with
  | ⟨0, _⟩ => show 0 + 1 * p.val = p.val; omega
  | ⟨1, _⟩ => show 0 + 1 * o.val = o.val; omega
  | ⟨2, _⟩ => rfl
theorem ld_rk4 (a : Vec Ideal S128x50x5 .f32) (p : Fin 128) (o : Fin 50) :
    View.ld a rk4 (ix3 p o (0 : Fin 1)) = a (ix3 p o (4 : Fin 5)) := by
  show a (rk4.idx (ix3 p o (0 : Fin 1))) = a (ix3 p o (4 : Fin 5))
  refine congrArg a (funext fun d => Fin.ext ?_)
  match d with
  | ⟨0, _⟩ => show 0 + 1 * p.val = p.val; omega
  | ⟨1, _⟩ => show 0 + 1 * o.val = o.val; omega
  | ⟨2, _⟩ => rfl

/-- A [128, 50, 1] vector cast to [128, 50] reads the same element. -/
theorem cast_col (v : Vec Ideal S128x50x1 .f32) (p : Fin 128) (o : Fin 50) :
    shapeCast S128x50 v shapeCasts_S128x50x1_S128x50 (ix2 p o) = v (ix3 p o (0 : Fin 1)) := by
  refine shapeCast_apply v shapeCasts_S128x50x1_S128x50 (ix2 p o) (ix3 p o (0 : Fin 1)) ?_
  rewrite [Shape.rowMajor_val_two, Shape.rowMajor_val_three]
  show (p.val * 50 + o.val) * 1 + 0 = p.val * 50 + o.val
  omega

/-- The query side: cast to [128, 1, 50] and broadcast along the key axis, read at (p, q, o): the vector at (p, o). -/
theorem qside (w : Vec Ideal S128x50 .f32) (p q : Fin 128) (o : Fin 50) :
    broadcastTo S128x128x50 (shapeCast S128x1x50 w shapeCasts_S128x50_S128x1x50) broadcasts_S128x1x50_S128x128x50 (ix3 p q o)
      = w (ix2 p o) := by
  refine (broadcastTo_apply _ broadcasts_S128x1x50_S128x128x50 (ix3 p q o) (ix3 p (0 : Fin 1) o) (fun a => ?_)).trans ?_
  · match a with
    | ⟨0, _⟩ => show p.val = if (128 : Nat) = 1 then 0 else p.val; rw [if_neg (by decide)]
    | ⟨1, _⟩ => show 0 = if (1 : Nat) = 1 then 0 else q.val; rw [if_pos rfl]
    | ⟨2, _⟩ => show o.val = if (50 : Nat) = 1 then 0 else o.val; rw [if_neg (by decide)]
  · refine shapeCast_apply w shapeCasts_S128x50_S128x1x50 (ix3 p (0 : Fin 1) o) (ix2 p o) ?_
    rewrite [Shape.rowMajor_val_two, Shape.rowMajor_val_three]
    show p.val * 50 + o.val = (p.val * 1 + 0) * 50 + o.val
    omega

/-- The key side: cast to [1, 128, 50] and broadcast along the query axis, read at (p, q, o): the vector at (q, o). -/
theorem kside (w : Vec Ideal S128x50 .f32) (p q : Fin 128) (o : Fin 50) :
    broadcastTo S128x128x50 (shapeCast S1x128x50 w shapeCasts_S128x50_S1x128x50) broadcasts_S1x128x50_S128x128x50 (ix3 p q o)
      = w (ix2 q o) := by
  refine (broadcastTo_apply _ broadcasts_S1x128x50_S128x128x50 (ix3 p q o) (ix3 (0 : Fin 1) q o) (fun a => ?_)).trans ?_
  · match a with
    | ⟨0, _⟩ => show 0 = if (1 : Nat) = 1 then 0 else p.val; rw [if_pos rfl]
    | ⟨1, _⟩ => show q.val = if (128 : Nat) = 1 then 0 else q.val; rw [if_neg (by decide)]
    | ⟨2, _⟩ => show o.val = if (50 : Nat) = 1 then 0 else o.val; rw [if_neg (by decide)]
  · refine shapeCast_apply w shapeCasts_S128x50_S1x128x50 (ix3 (0 : Fin 1) q o) (ix2 q o) ?_
    rewrite [Shape.rowMajor_val_two, Shape.rowMajor_val_three]
    show q.val * 50 + o.val = (0 * 128 + q.val) * 50 + o.val
    omega

/-- One component's absolute differences between every query row and every key row, read at (p, q, o). -/
theorem absdiff_apply (va vb : Vec Ideal S128x50x1 .f32) (p q : Fin 128) (o : Fin 50) :
    absf (F := Ideal) (φ := .f32) (subf (F := Ideal) (φ := .f32) (broadcastTo S128x128x50 (shapeCast S128x1x50 (shapeCast S128x50 va shapeCasts_S128x50x1_S128x50) shapeCasts_S128x50_S128x1x50) broadcasts_S128x1x50_S128x128x50)
        (broadcastTo S128x128x50 (shapeCast S1x128x50 (shapeCast S128x50 vb shapeCasts_S128x50x1_S128x50) shapeCasts_S128x50_S1x128x50) broadcasts_S1x128x50_S128x128x50)) (ix3 p q o)
      = ad (va (ix3 p o (0 : Fin 1))) (vb (ix3 q o (0 : Fin 1))) := by
  show ad (broadcastTo S128x128x50 (shapeCast S128x1x50 (shapeCast S128x50 va shapeCasts_S128x50x1_S128x50) shapeCasts_S128x50_S128x1x50) broadcasts_S128x1x50_S128x128x50 (ix3 p q o))
      (broadcastTo S128x128x50 (shapeCast S1x128x50 (shapeCast S128x50 vb shapeCasts_S128x50x1_S128x50) shapeCasts_S128x50_S1x128x50) broadcasts_S1x128x50_S128x128x50 (ix3 p q o)) = _
  rw [qside, kside, cast_col, cast_col]

/-- Components 0 and 1, added in order from zero. -/
theorem pay4_apply (v4 v6 v15 v17 : Vec Ideal S128x50x1 .f32) (p q : Fin 128) (o : Fin 50) :
    k1_pay4 (F := Ideal) v4 v6 v15 v17 (ix3 p q o)
      = (zw + ad (v4 (ix3 p o (0 : Fin 1))) (v6 (ix3 q o (0 : Fin 1)))) + ad (v15 (ix3 p o (0 : Fin 1))) (v17 (ix3 q o (0 : Fin 1))) := by
  unfold k1_pay4
  exact congrArg₂ (· + ·) (congrArg (zw + ·) (absdiff_apply v4 v6 p q o)) (absdiff_apply v15 v17 p q o)

/-- Component 2. -/
theorem pay5_apply (v26 v28 : Vec Ideal S128x50x1 .f32) (p q : Fin 128) (o : Fin 50) :
    k1_pay5 (F := Ideal) v26 v28 (ix3 p q o) = ad (v26 (ix3 p o (0 : Fin 1))) (v28 (ix3 q o (0 : Fin 1))) := by
  unfold k1_pay5
  exact absdiff_apply v26 v28 p q o

/-- The index the key-axis reduction inserts: (p, o) with key row `q` put in the middle. -/
theorem lift_key (p : Fin 128) (o : Fin 50) (q : Fin 128) :
    reduces_S128x128x50_S128x50.lift (ix2 p o) q = ix3 p q o :=
  funext fun d => Fin.ext (by match d with | ⟨0, _⟩ => rfl | ⟨1, _⟩ => rfl | ⟨2, _⟩ => rfl)

/-- The step's last payload: components 3 and 4 added, negated from zero, exponentiated, summed over the key rows and added to the accumulator. -/
theorem pay1_apply (v25 v35 : FVec Ideal S128x128x50 .f32) (v37 v39 v48 v50 : Vec Ideal S128x50x1 .f32) (v63 : Vec Ideal S128x50 .f32)
    (p : Fin 128) (o : Fin 50) :
    k1_pay1 (F := Ideal) v25 v35 v37 v39 v48 v50 v63 (ix2 p o)
      = v63 (ix2 p o) + ∑ q : Fin 128, Ideal.exp (zw - (((v25 (ix3 p q o) + v35 (ix3 p q o))
          + ad (v37 (ix3 p o (0 : Fin 1))) (v39 (ix3 q o (0 : Fin 1)))) + ad (v48 (ix3 p o (0 : Fin 1))) (v50 (ix3 q o (0 : Fin 1))))) := by
  unfold k1_pay1
  refine (congrFun (shapeCast_self _ shapeCasts_S128x50_S128x50) (ix2 p o)).trans ?_
  refine congrArg (v63 (ix2 p o) + ·) ?_
  refine (Ideal.multiReduction_add_single _ _ reduces_S128x128x50_S128x50 _ _ (ix2 p o)).trans ?_
  refine Finset.sum_congr rfl fun (q : Fin 128) _ => ?_
  refine (congrArg _ (lift_key p o q)).trans ?_
  exact congrArg (fun t => Ideal.exp (zw - t))
    (congrArg₂ (· + ·) (congrArg ((v25 (ix3 p q o) + v35 (ix3 p q o)) + ·) (absdiff_apply v37 v39 p q o)) (absdiff_apply v48 v50 p q o))

/-- The kernel's distance between row `p` of block `a` and row `q` of block `b` at channel `o`: the five components'
    absolute differences added in order from zero. -/
def kd (a b : Vec Ideal S128x50x5 .f32) (p q : Fin 128) (o : Fin 50) : EReal :=
  ((((zw + ad (a (ix3 p o (0 : Fin 5))) (b (ix3 q o (0 : Fin 5)))) + ad (a (ix3 p o (1 : Fin 5))) (b (ix3 q o (1 : Fin 5))))
      + ad (a (ix3 p o (2 : Fin 5))) (b (ix3 q o (2 : Fin 5)))) + ad (a (ix3 p o (3 : Fin 5))) (b (ix3 q o (3 : Fin 5))))
    + ad (a (ix3 p o (4 : Fin 5))) (b (ix3 q o (4 : Fin 5)))

/-- One step along the key blocks: the accumulator plus, over the key block's rows, the exponential of zero minus the distance. -/
theorem accStep_apply (a b : Vec Ideal S128x50x5 .f32) (acc : Vec Ideal S128x50 .f32) (p : Fin 128) (o : Fin 50) :
    accStep (F := Ideal) a b acc (ix2 p o) = acc (ix2 p o) + ∑ q : Fin 128, Ideal.exp (zw - kd a b p q o) := by
  unfold accStep
  rw [pay1_apply]
  refine congrArg (acc (ix2 p o) + ·) (Finset.sum_congr rfl fun q _ => ?_)
  rw [pay4_apply, pay5_apply, ld_rk0 a, ld_rk0 b, ld_rk1 a, ld_rk1 b, ld_rk2 a, ld_rk2 b, ld_rk3 a, ld_rk3 b, ld_rk4 a, ld_rk4 b]
  rfl

/-! ## The accumulator after the key blocks, in order -/
/-- The zeroed accumulator reads the zero word everywhere. -/
theorem pay3_apply (p : Fin 128) (o : Fin 50) : k1_pay3 (F := Ideal) (ix2 p o) = zw := by
  unfold k1_pay3
  exact congrFun (shapeCast_self _ shapeCasts_S128x50_S128x50) (ix2 p o)

/-- The accumulator of query block `i` after key blocks `0 … n`: the zero word plus, block by block in order, the sums
    over the block's rows. -/
theorem accRow_apply (M : Vec Ideal S1024x50x5 .f32) (i : ℕ) (p : Fin 128) (o : Fin 50) :
    ∀ n : ℕ, accRow (F := Ideal) M i n (ix2 p o)
      = zw + ∑ j ∈ Finset.range (n + 1), ∑ q : Fin 128, Ideal.exp (zw - kd (blkM M i) (blkM M j) p q o)
  | 0 => by
    rw [accRow, accStep_apply, pay3_apply, Finset.sum_range_one]
  | n + 1 => by
    rw [accRow, accStep_apply, accRow_apply M i p o n, Finset.sum_range_succ _ (n + 1), add_assoc]

/-! ## The score block: two contractions into zero accumulators, and the bias -/
theorem lhs_hid_0 (i : S128x1.Idx) (q : dot_S128x64_S64x1_S128x1_1_0_0_1_n_n.contr.Idx) :
    (dot_S128x64_S64x1_S128x1_1_0_0_1_n_n.lhsIdx i q 0).val = (i 0).val := by
  unfold DotDims.lhsIdx
  rw [dif_neg (show ¬(0 : Fin S128x64.rank) ∈ dot_S128x64_S64x1_S128x1_1_0_0_1_n_n.lhsBatch by decide), dif_pos (show (0 : Fin S128x64.rank) ∈ dot_S128x64_S64x1_S128x1_1_0_0_1_n_n.lhsNonContracting by decide)]
  rfl
theorem lhs_hid_1 (i : S128x1.Idx) (q : dot_S128x64_S64x1_S128x1_1_0_0_1_n_n.contr.Idx) :
    (dot_S128x64_S64x1_S128x1_1_0_0_1_n_n.lhsIdx i q 1).val = (q ⟨0, by decide⟩).val :=
  dot_S128x64_S64x1_S128x1_1_0_0_1_n_n.lhsIdx_val_of_single rfl i q
theorem rhs_hid_0 (i : S128x1.Idx) (q : dot_S128x64_S64x1_S128x1_1_0_0_1_n_n.contr.Idx) :
    (dot_S128x64_S64x1_S128x1_1_0_0_1_n_n.rhsIdx i q 0).val = (q ⟨0, by decide⟩).val :=
  dot_S128x64_S64x1_S128x1_1_0_0_1_n_n.rhsIdx_val_of_single rfl i q
theorem rhs_hid_1 (i : S128x1.Idx) (q : dot_S128x64_S64x1_S128x1_1_0_0_1_n_n.contr.Idx) :
    (dot_S128x64_S64x1_S128x1_1_0_0_1_n_n.rhsIdx i q 1).val = (i 1).val := by
  unfold DotDims.rhsIdx
  rw [dif_neg (show ¬(1 : Fin S64x1.rank) ∈ dot_S128x64_S64x1_S128x1_1_0_0_1_n_n.rhsBatch by decide), dif_pos (show (1 : Fin S64x1.rank) ∈ dot_S128x64_S64x1_S128x1_1_0_0_1_n_n.rhsNonContracting by decide)]
  rfl

theorem lhs_sum_0 (i : S128x1.Idx) (q : dot_S128x50_S50x1_S128x1_1_0_0_1_n_n.contr.Idx) :
    (dot_S128x50_S50x1_S128x1_1_0_0_1_n_n.lhsIdx i q 0).val = (i 0).val := by
  unfold DotDims.lhsIdx
  rw [dif_neg (show ¬(0 : Fin S128x50.rank) ∈ dot_S128x50_S50x1_S128x1_1_0_0_1_n_n.lhsBatch by decide), dif_pos (show (0 : Fin S128x50.rank) ∈ dot_S128x50_S50x1_S128x1_1_0_0_1_n_n.lhsNonContracting by decide)]
  rfl
theorem lhs_sum_1 (i : S128x1.Idx) (q : dot_S128x50_S50x1_S128x1_1_0_0_1_n_n.contr.Idx) :
    (dot_S128x50_S50x1_S128x1_1_0_0_1_n_n.lhsIdx i q 1).val = (q ⟨0, by decide⟩).val :=
  dot_S128x50_S50x1_S128x1_1_0_0_1_n_n.lhsIdx_val_of_single rfl i q
theorem rhs_sum_0 (i : S128x1.Idx) (q : dot_S128x50_S50x1_S128x1_1_0_0_1_n_n.contr.Idx) :
    (dot_S128x50_S50x1_S128x1_1_0_0_1_n_n.rhsIdx i q 0).val = (q ⟨0, by decide⟩).val :=
  dot_S128x50_S50x1_S128x1_1_0_0_1_n_n.rhsIdx_val_of_single rfl i q
theorem rhs_sum_1 (i : S128x1.Idx) (q : dot_S128x50_S50x1_S128x1_1_0_0_1_n_n.contr.Idx) :
    (dot_S128x50_S50x1_S128x1_1_0_0_1_n_n.rhsIdx i q 1).val = (i 1).val := by
  unfold DotDims.rhsIdx
  rw [dif_neg (show ¬(1 : Fin S50x1.rank) ∈ dot_S128x50_S50x1_S128x1_1_0_0_1_n_n.rhsBatch by decide), dif_pos (show (1 : Fin S50x1.rank) ∈ dot_S128x50_S50x1_S128x1_1_0_0_1_n_n.rhsNonContracting by decide)]
  rfl

/-- The hidden-state product into a zero accumulator, read at row `p`: the sum over the 64 channels. -/
theorem mm_hid_apply (l : FVec Ideal S128x64 .f32) (w : FVec Ideal S64x1 .f32) (p : Fin 128) :
    matmul (F := Ideal) dot_S128x64_S64x1_S128x1_1_0_0_1_n_n (some .fp32) l w (constant (F := Ideal) S128x1 .f32 0x00000000#32) (ix2 p (0 : Fin 1))
      = ∑ k : Fin 64, l (ix2 p k) * w (ix2 k (0 : Fin 1)) := by
  simp only [matmul]
  rw [Ideal.matmul_constant_zero_apply, ← Equiv.sum_comp (ValueIdx.contrEquiv1 dot_S128x64_S64x1_S128x1_1_0_0_1_n_n 64 rfl rfl).symm]
  refine Finset.sum_congr rfl fun k _ => ?_
  have hk := ValueIdx.contrEquiv1_symm_val dot_S128x64_S64x1_S128x1_1_0_0_1_n_n 64 rfl rfl k
  have el : dot_S128x64_S64x1_S128x1_1_0_0_1_n_n.lhsIdx (ix2 p (0 : Fin 1)) ((ValueIdx.contrEquiv1 dot_S128x64_S64x1_S128x1_1_0_0_1_n_n 64 rfl rfl).symm k) = ix2 p k := funext fun a => Fin.ext (by
    match a with
    | ⟨0, _⟩ => exact lhs_hid_0 _ _
    | ⟨1, _⟩ => exact (lhs_hid_1 _ _).trans hk)
  have er : dot_S128x64_S64x1_S128x1_1_0_0_1_n_n.rhsIdx (ix2 p (0 : Fin 1)) ((ValueIdx.contrEquiv1 dot_S128x64_S64x1_S128x1_1_0_0_1_n_n 64 rfl rfl).symm k) = ix2 k (0 : Fin 1) := funext fun a => Fin.ext (by
    match a with
    | ⟨0, _⟩ => exact (rhs_hid_0 _ _).trans hk
    | ⟨1, _⟩ => exact rhs_hid_1 _ _)
  rw [el, er]

/-- The row-sum product into a zero accumulator, read at row `p`: the sum over the 50 channels. -/
theorem mm_sum_apply (l : FVec Ideal S128x50 .f32) (w : FVec Ideal S50x1 .f32) (p : Fin 128) :
    matmul (F := Ideal) dot_S128x50_S50x1_S128x1_1_0_0_1_n_n (some .fp32) l w (constant (F := Ideal) S128x1 .f32 0x00000000#32) (ix2 p (0 : Fin 1))
      = ∑ k : Fin 50, l (ix2 p k) * w (ix2 k (0 : Fin 1)) := by
  simp only [matmul]
  rw [Ideal.matmul_constant_zero_apply, ← Equiv.sum_comp (ValueIdx.contrEquiv1 dot_S128x50_S50x1_S128x1_1_0_0_1_n_n 50 rfl rfl).symm]
  refine Finset.sum_congr rfl fun k _ => ?_
  have hk := ValueIdx.contrEquiv1_symm_val dot_S128x50_S50x1_S128x1_1_0_0_1_n_n 50 rfl rfl k
  have el : dot_S128x50_S50x1_S128x1_1_0_0_1_n_n.lhsIdx (ix2 p (0 : Fin 1)) ((ValueIdx.contrEquiv1 dot_S128x50_S50x1_S128x1_1_0_0_1_n_n 50 rfl rfl).symm k) = ix2 p k := funext fun a => Fin.ext (by
    match a with
    | ⟨0, _⟩ => exact lhs_sum_0 _ _
    | ⟨1, _⟩ => exact (lhs_sum_1 _ _).trans hk)
  have er : dot_S128x50_S50x1_S128x1_1_0_0_1_n_n.rhsIdx (ix2 p (0 : Fin 1)) ((ValueIdx.contrEquiv1 dot_S128x50_S50x1_S128x1_1_0_0_1_n_n 50 rfl rfl).symm k) = ix2 k (0 : Fin 1) := funext fun a => Fin.ext (by
    match a with
    | ⟨0, _⟩ => exact (rhs_sum_0 _ _).trans hk
    | ⟨1, _⟩ => exact rhs_sum_1 _ _)
  rw [el, er]

/-- The bias, a [1, 1] vector broadcast down the rows, read at row `p`. -/
theorem bias_apply (b : Vec Ideal S1x1 .f32) (p : Fin 128) :
    broadcastTo S128x1 (shapeCast S1x1 (shapeCast S1x1 b shapeCasts_S1x1_S1x1) shapeCasts_S1x1_S1x1) broadcasts_S1x1_S128x1 (ix2 p (0 : Fin 1))
      = b (ix2 (0 : Fin 1) (0 : Fin 1)) := by
  rw [shapeCast_self, shapeCast_self]
  refine broadcastTo_apply b broadcasts_S1x1_S128x1 (ix2 p (0 : Fin 1)) (ix2 (0 : Fin 1) (0 : Fin 1)) (fun a => ?_)
  match a with
  | ⟨0, _⟩ => show 0 = if (1 : Nat) = 1 then 0 else p.val; rw [if_pos rfl]
  | ⟨1, _⟩ => show 0 = if (1 : Nat) = 1 then 0 else 0; rw [if_pos rfl]

/-- The score block at row `p`: the hidden state against its weights, plus the row sums minus one against theirs, plus the bias. -/
theorem scoreBlk_apply (acc : Vec Ideal S128x50 .f32) (h : Vec Ideal S128x64 .f32) (wh : Vec Ideal S64x1 .f32) (wo : Vec Ideal S50x1 .f32)
    (b : Vec Ideal S1x1 .f32) (p : Fin 128) :
    scoreBlk (F := Ideal) acc h wh wo b (ix2 p (0 : Fin 1))
      = ((∑ c : Fin 64, h (ix2 p c) * wh (ix2 c (0 : Fin 1))) + (∑ o : Fin 50, (acc (ix2 p o) - ow) * wo (ix2 o (0 : Fin 1))))
        + b (ix2 (0 : Fin 1) (0 : Fin 1)) := by
  unfold scoreBlk k1_pay2
  refine congrArg₂ (· + ·) (congrArg₂ (· + ·) ?_ ?_) (bias_apply b p)
  · rw [shapeCast_self, shapeCast_self]
    exact mm_hid_apply h wh p
  · rw [shapeCast_self]
    exact mm_sum_apply _ wo p

/-! ## The reference's stages read at an index -/
/-- The reference's row sums minus one, read at row `r` and channel `o`. -/
theorem ref_rowsum (x0 : Vec Ideal S1024x128 .f32) (x1 : Vec Ideal S128x256 .f32) (x2 : Vec Ideal S256 .f32) (x3 : Vec Ideal S256x128 .f32) (x4 x5 x6 : Vec Ideal S128 .f32)
    (x7 : Vec Ideal S128x64 .f32) (x8 : Vec Ideal S64 .f32) (x9 : Vec Ideal S64x64 .f32) (x10 : Vec Ideal S64 .f32) (x11 : Vec Ideal S64x64 .f32) (x12 : Vec Ideal S64 .f32) (x13 : Vec Ideal S64x50x5 .f32) (r : Fin 1024) (o : Fin 50) :
    val_main_v75 (F := Ideal) x0 x1 x2 x3 x4 x5 x6 x7 x8 x9 x10 x11 x12 x13 (ix2 r o)
      = (zw + ∑ a : Fin 1024, Ideal.exp (-(zw + ∑ k : Fin 5,
            ad (val_main_v63 (F := Ideal) x0 x1 x2 x3 x4 x5 x6 x7 x8 x9 x10 x11 x12 x13 (ix3 a o k)) (val_main_v63 (F := Ideal) x0 x1 x2 x3 x4 x5 x6 x7 x8 x9 x10 x11 x12 x13 (ix3 r o k)))))
        - Ideal.ofBits .f32 0x3F800000#32 := by
  have hq : ∀ (a : Fin 1024) (k : Fin 5), idx_main_v64 (idx_main_v66 (idx_main_v70 (idx_main_v73 (ix2 r o) a) k)) = ix3 a o k :=
    fun a k => funext fun d => Fin.ext (by match d with | ⟨0, _⟩ => rfl | ⟨1, _⟩ => rfl | ⟨2, _⟩ => rfl)
  have hk : ∀ (a : Fin 1024) (k : Fin 5), idx_main_v65 (idx_main_v67 (idx_main_v70 (idx_main_v73 (ix2 r o) a) k)) = ix3 r o k :=
    fun a k => funext fun d => Fin.ext (by match d with | ⟨0, _⟩ => rfl | ⟨1, _⟩ => rfl | ⟨2, _⟩ => rfl)
  rw [val_main_v75_apply, val_main_v73_apply, val_main_v74_apply, val_main_cst_12_apply, val_main_cst_11_apply]
  simp only [val_main_v72_apply, val_main_v71_apply, val_main_v70_apply, val_main_cst_10_apply, val_main_v69_apply, val_main_v68_apply,
    val_main_v66_apply, val_main_v67_apply, val_main_v64_apply, val_main_v65_apply, hq, hk]
  rfl

/-- The reference's score at row `r`: the concatenated [1024, 114] array contracted with the weights, plus the bias. -/
theorem ref_score (x0 : Vec Ideal S1024x128 .f32) (x1 : Vec Ideal S128x256 .f32) (x2 : Vec Ideal S256 .f32) (x3 : Vec Ideal S256x128 .f32) (x4 x5 x6 : Vec Ideal S128 .f32)
    (x7 : Vec Ideal S128x64 .f32) (x8 : Vec Ideal S64 .f32) (x9 : Vec Ideal S64x64 .f32) (x10 : Vec Ideal S64 .f32) (x11 : Vec Ideal S64x64 .f32) (x12 : Vec Ideal S64 .f32) (x13 : Vec Ideal S64x50x5 .f32) (x14 : Vec Ideal S114x1 .f32) (x15 : Vec Ideal S1 .f32) (r : Fin 1024) :
    val_main_v81 (F := Ideal) x0 x1 x2 x3 x4 x5 x6 x7 x8 x9 x10 x11 x12 x13 x14 x15 (ix1 r)
      = (∑ k : Fin 114, val_main_v76 (F := Ideal) x0 x1 x2 x3 x4 x5 x6 x7 x8 x9 x10 x11 x12 x13 (ix2 r k) * x14 (ix2 k (0 : Fin 1))) + x15 (ix1 (0 : Fin 1)) := by
  have h1 : idx_main_v81 (ix1 r) = ix2 r (0 : Fin 1) :=
    funext fun d => Fin.ext (by match d with | ⟨0, _⟩ => exact Nat.div_one _ | ⟨1, _⟩ => rfl)
  have hl : ∀ k : Fin 114, lidx_main_v77 (ix2 r (0 : Fin 1)) k = ix2 r k :=
    fun k => funext fun d => Fin.ext (by match d with | ⟨0, _⟩ => rfl | ⟨1, _⟩ => rfl)
  have hr : ∀ k : Fin 114, ridx_main_v77 (ix2 r (0 : Fin 1)) k = ix2 k (0 : Fin 1) :=
    fun k => funext fun d => Fin.ext (by match d with | ⟨0, _⟩ => rfl | ⟨1, _⟩ => rfl)
  have hb : idx_main_v78 (idx_main_v79 (ix2 r (0 : Fin 1))) = ix1 (0 : Fin 1) :=
    funext fun d => Fin.ext (by match d with | ⟨0, _⟩ => rfl)
  rw [val_main_v81_apply, h1, val_main_v80_apply, val_main_v77_apply, val_main_v79_apply, val_main_v78_apply, hb]
  simp only [hl, hr]
  rfl

/-- The first 64 channels of the concatenation are the hidden state's. -/
theorem ref_cat_left (x0 : Vec Ideal S1024x128 .f32) (x1 : Vec Ideal S128x256 .f32) (x2 : Vec Ideal S256 .f32) (x3 : Vec Ideal S256x128 .f32) (x4 x5 x6 : Vec Ideal S128 .f32)
    (x7 : Vec Ideal S128x64 .f32) (x8 : Vec Ideal S64 .f32) (x9 : Vec Ideal S64x64 .f32) (x10 : Vec Ideal S64 .f32) (x11 : Vec Ideal S64x64 .f32) (x12 : Vec Ideal S64 .f32) (x13 : Vec Ideal S64x50x5 .f32) (r : Fin 1024) (c : Fin 64) :
    val_main_v76 (F := Ideal) x0 x1 x2 x3 x4 x5 x6 x7 x8 x9 x10 x11 x12 x13 (ix2 r (⟨c.val, by omega⟩ : Fin 114)) = val_main_v60 (F := Ideal) x0 x1 x2 x3 x4 x5 x6 x7 x8 x9 x10 x11 x12 (ix2 r c) := by
  unfold val_main_v76
  exact concatenate_pair_apply_left 1 (val_main_v60 (F := Ideal) x0 x1 x2 x3 x4 x5 x6 x7 x8 x9 x10 x11 x12) (val_main_v75 (F := Ideal) x0 x1 x2 x3 x4 x5 x6 x7 x8 x9 x10 x11 x12 x13) _ (ix2 r (⟨c.val, by omega⟩ : Fin 114)) rfl (ix2 r c)
    (fun b => by match b with | ⟨0, _⟩ => rfl | ⟨1, _⟩ => rfl)

/-- The last 50 channels are the row sums minus one. -/
theorem ref_cat_right (x0 : Vec Ideal S1024x128 .f32) (x1 : Vec Ideal S128x256 .f32) (x2 : Vec Ideal S256 .f32) (x3 : Vec Ideal S256x128 .f32) (x4 x5 x6 : Vec Ideal S128 .f32)
    (x7 : Vec Ideal S128x64 .f32) (x8 : Vec Ideal S64 .f32) (x9 : Vec Ideal S64x64 .f32) (x10 : Vec Ideal S64 .f32) (x11 : Vec Ideal S64x64 .f32) (x12 : Vec Ideal S64 .f32) (x13 : Vec Ideal S64x50x5 .f32) (r : Fin 1024) (o : Fin 50) :
    val_main_v76 (F := Ideal) x0 x1 x2 x3 x4 x5 x6 x7 x8 x9 x10 x11 x12 x13 (ix2 r (⟨64 + o.val, by omega⟩ : Fin 114)) = val_main_v75 (F := Ideal) x0 x1 x2 x3 x4 x5 x6 x7 x8 x9 x10 x11 x12 x13 (ix2 r o) := by
  unfold val_main_v76
  exact concatenate_pair_apply_right 1 (val_main_v60 (F := Ideal) x0 x1 x2 x3 x4 x5 x6 x7 x8 x9 x10 x11 x12) (val_main_v75 (F := Ideal) x0 x1 x2 x3 x4 x5 x6 x7 x8 x9 x10 x11 x12 x13) _ (ix2 r (⟨64 + o.val, by omega⟩ : Fin 114)) rfl rfl (ix2 r o)
    (fun b hb => by match b with | ⟨0, _⟩ => rfl | ⟨1, _⟩ => exact absurd (Fin.ext rfl) hb)
    (by show o.val + 64 = 64 + o.val; omega)

/-! ## The two sides meet -/
/-- One pair's term, with the blocks' rows named in the whole array: the kernel's term for query row `128·i + p` and key
    row `128·j + q` is the reference's for that pair, the differences taken the other way round. -/
theorem kd_blk (M : Vec Ideal S1024x50x5 .f32) (i j : ℕ) (p q : Fin 128) (o : Fin 50) :
    Ideal.exp (zw - kd (blkM M i) (blkM M j) p q o)
      = Ideal.exp (-(zw + ∑ k : Fin 5,
          ad (M (ix3 (⟨(128 * j + q.val) % 1024, Nat.mod_lt _ (by decide)⟩ : Fin 1024) o k))
            (M (ix3 (⟨(128 * i + p.val) % 1024, Nat.mod_lt _ (by decide)⟩ : Fin 1024) o k)))) :=
  term_eq (fun k => M (ix3 (⟨(128 * i + p.val) % 1024, Nat.mod_lt _ (by decide)⟩ : Fin 1024) o k))
    (fun k => M (ix3 (⟨(128 * j + q.val) % 1024, Nat.mod_lt _ (by decide)⟩ : Fin 1024) o k))

/-- The finished accumulator at row `p` of query block `i`, where that row is row `r` of the array: the reference's sum
    over all 1024 rows for row `r`. -/
theorem rowsum_eq (M : Vec Ideal S1024x50x5 .f32) (i : ℕ) (p : Fin 128) (r : Fin 1024) (hr : (128 * i + p.val) % 1024 = r.val) (o : Fin 50) :
    accRow (F := Ideal) M i 7 (ix2 p o)
      = zw + ∑ a : Fin 1024, Ideal.exp (-(zw + ∑ k : Fin 5, ad (M (ix3 a o k)) (M (ix3 r o k)))) := by
  have hr' : (⟨(128 * i + p.val) % 1024, Nat.mod_lt _ (by decide)⟩ : Fin 1024) = r := Fin.ext hr
  rw [accRow_apply, sum_rows]
  refine congrArg (zw + ·) (Finset.sum_congr rfl fun j _ => Finset.sum_congr rfl fun q _ => ?_)
  rw [kd_blk, hr']

/-- The kernel's score at row `r`. -/
theorem scoreArr_apply (M : Vec Ideal S1024x50x5 .f32) (H : Vec Ideal S1024x64 .f32) (wh : Vec Ideal S64x1 .f32) (wo : Vec Ideal S50x1 .f32)
    (b : Vec Ideal S1x1 .f32) (r : Fin 1024) :
    scoreArr (F := Ideal) M H wh wo b (ix2 r (0 : Fin 1))
      = ((∑ c : Fin 64, H (ix2 r c) * wh (ix2 c (0 : Fin 1)))
          + (∑ o : Fin 50, ((zw + ∑ a : Fin 1024, Ideal.exp (-(zw + ∑ k : Fin 5, ad (M (ix3 a o k)) (M (ix3 r o k))))) - ow) * wo (ix2 o (0 : Fin 1))))
        + b (ix2 (0 : Fin 1) (0 : Fin 1)) := by
  have hr : (128 * (r.val / 128) + r.val % 128) % 1024 = r.val := by have := r.isLt; omega
  have hr' : (⟨(128 * (r.val / 128) + r.val % 128) % 1024, Nat.mod_lt _ (by decide)⟩ : Fin 1024) = r := Fin.ext hr
  show scoreBlk (accRow M (r.val / 128) 7) (blkH H (r.val / 128)) wh wo b (ix2 (⟨r.val % 128, Nat.mod_lt _ (by decide)⟩ : Fin 128) (0 : Fin 1)) = _
  rw [scoreBlk_apply]
  refine congrArg (· + b (ix2 (0 : Fin 1) (0 : Fin 1))) (congrArg₂ (· + ·) (Finset.sum_congr rfl fun c _ => ?_) (Finset.sum_congr rfl fun o _ => ?_))
  · show H (ix2 (⟨(128 * (r.val / 128) + r.val % 128) % 1024, Nat.mod_lt _ (by decide)⟩ : Fin 1024) c) * _ = H (ix2 r c) * _
    rw [hr']
  · rw [rowsum_eq M (r.val / 128) ⟨r.val % 128, Nat.mod_lt _ (by decide)⟩ r hr o]

/-- The first 64 weights, sliced off, read at channel `c`. -/
theorem wh_apply (x14 : Vec Ideal S114x1 .f32) (c : Fin 64) :
    extractStridedSlice S64x1 ![0, 0] x14 slices_S114x1_S64x1_0_0 (ix2 c (0 : Fin 1)) = x14 (ix2 (⟨c.val, by omega⟩ : Fin 114) (0 : Fin 1)) := by
  refine extractStridedSlice_apply ![0, 0] x14 slices_S114x1_S64x1_0_0 (ix2 c (0 : Fin 1)) _ (fun a => ?_)
  match a with
  | ⟨0, _⟩ => show c.val = 0 + c.val; omega
  | ⟨1, _⟩ => rfl

/-- The last 50 weights, sliced off, read at channel `o`. -/
theorem wo_apply (x14 : Vec Ideal S114x1 .f32) (o : Fin 50) :
    extractStridedSlice S50x1 ![64, 0] x14 slices_S114x1_S50x1_64_0 (ix2 o (0 : Fin 1)) = x14 (ix2 (⟨64 + o.val, by omega⟩ : Fin 114) (0 : Fin 1)) := by
  refine extractStridedSlice_apply ![64, 0] x14 slices_S114x1_S50x1_64_0 (ix2 o (0 : Fin 1)) _ (fun a => ?_)
  match a with
  | ⟨0, _⟩ => rfl
  | ⟨1, _⟩ => rfl

/-- The bias cast to [1, 1] reads its one element. -/
theorem b_apply (x15 : Vec Ideal S1 .f32) :
    shapeCast S1x1 x15 shapeCasts_S1_S1x1 (ix2 (0 : Fin 1) (0 : Fin 1)) = x15 (ix1 (0 : Fin 1)) := by
  refine shapeCast_apply x15 shapeCasts_S1_S1x1 (ix2 (0 : Fin 1) (0 : Fin 1)) (ix1 (0 : Fin 1)) ?_
  rewrite [Shape.rowMajor_val_two, Shape.rowMajor_val_one]
  rfl

end TailC

open TailC

/-- The score array of the kernel, cast to [1024], is the reference's last stage. -/
theorem tail_eq (x0 : Vec Ideal S1024x128 .f32) (x1 : Vec Ideal S128x256 .f32) (x2 : Vec Ideal S256 .f32) (x3 : Vec Ideal S256x128 .f32) (x4 x5 x6 : Vec Ideal S128 .f32)
    (x7 : Vec Ideal S128x64 .f32) (x8 : Vec Ideal S64 .f32) (x9 : Vec Ideal S64x64 .f32) (x10 : Vec Ideal S64 .f32) (x11 : Vec Ideal S64x64 .f32) (x12 : Vec Ideal S64 .f32) (x13 : Vec Ideal S64x50x5 .f32) (x14 : Vec Ideal S114x1 .f32) (x15 : Vec Ideal S1 .f32) :
    shapeCast S1024 (scoreArr (F := Ideal) (val_main_v63 (F := Ideal) x0 x1 x2 x3 x4 x5 x6 x7 x8 x9 x10 x11 x12 x13) (val_main_v60 (F := Ideal) x0 x1 x2 x3 x4 x5 x6 x7 x8 x9 x10 x11 x12)
        (extractStridedSlice S64x1 ![0, 0] x14 slices_S114x1_S64x1_0_0) (extractStridedSlice S50x1 ![64, 0] x14 slices_S114x1_S50x1_64_0)
        (shapeCast S1x1 x15 shapeCasts_S1_S1x1)) shapeCasts_S1024x1_S1024
      = val_main_v81 (F := Ideal) x0 x1 x2 x3 x4 x5 x6 x7 x8 x9 x10 x11 x12 x13 x14 x15 := by
  funext y
  obtain ⟨r, rfl⟩ : ∃ r : Fin 1024, y = ix1 r := ⟨y 0, eq_ix1 y⟩
  rw [ref_score, sum_split]
  refine (shapeCast_apply _ shapeCasts_S1024x1_S1024 (ix1 r) (ix2 r (0 : Fin 1)) ?_).trans ?_
  · rewrite [Shape.rowMajor_val_two, Shape.rowMajor_val_one]
    show r.val * 1 + 0 = r.val
    omega
  rw [scoreArr_apply, b_apply]
  refine congrArg (· + x15 (ix1 (0 : Fin 1))) (congrArg₂ (· + ·) (Finset.sum_congr rfl fun c _ => ?_) (Finset.sum_congr rfl fun o _ => ?_))
  · rw [wh_apply, ref_cat_left]
  · rw [wo_apply, ref_cat_right, ref_rowsum]

end Cert.KernelIdeal.Hand

end
-- ==== Proof.KI.Bridge.lean ====
import proofs.«180788_j42898133352735_1_alg».proof.Proof.KI.Run
import proofs.«180788_j42898133352735_1_alg».proof.Proof.KI.Val0
import proofs.«180788_j42898133352735_1_alg».proof.Proof.KI.Val1
import proofs.«180788_j42898133352735_1_alg».proof.Proof.KI.MathB
import proofs.«180788_j42898133352735_1_alg».proof.Proof.KI.MathC

set_option maxRecDepth 16384

noncomputable section

namespace Cert.KernelIdeal.Hand

open Cert.KernelIdeal Cert.KernelIdeal.Gen
open Idealize.ShloMosaic Idealize.ShloMosaic.TcCoe Idealize.SL.Sem
open Cert.ReferenceIdeal.ReadP

/-! # The kernel's result over the extended reals is the reference's function of the arguments

The run leaves in the result buffer the reshaped score array of the pairwise call at its entry contents; those are
the backbone call's two result arrays (one reshaped), two slices of the score weights and the reshaped bias; the
backbone's arrays are its payloads of the thirteen arguments and the reshaped table. Stage by stage these are the
reference's stages of the same arguments. -/

set_option maxHeartbeats 400000 in
theorem kernelOut_ref (m : (ℓ : Loc nD τ sig) → Buf (Elt Ideal) ℓ) (c : Dev nD) :
    kernelOut (F := Ideal) m c = val_main_v81 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) := by
  have e5 := arr0_15 (F := Ideal) (V1 m) c
  have e6 := arr0_14 (F := Ideal) (V1 m) c
  rw [V1_main_arg0, V1_main_arg1, V1_main_arg2, V1_main_arg3, V1_main_arg4, V1_main_arg5, V1_main_arg6, V1_main_arg7, V1_main_arg8, V1_main_arg9,
    V1_main_arg10, V1_main_arg11, V1_main_arg12] at e5 e6
  rw [V1_main_v0] at e5
  have e3 := (V3_main_v2 (F := Ideal) m c).trans (congrArg (fun z => shapeCast S1024x50x5 z shapeCasts_S1024x250_S1024x50x5) e5)
  have e4 := (V3_main_v1_0 (F := Ideal) m c).trans e6
  have e2 := arr1_6 (F := Ideal) (V3 m) c
  rw [e3, e4, V3_main_v3, V3_main_v4, V3_main_v5] at e2
  have e1 := (kernelOut_eq (F := Ideal) m c).trans (congrArg (fun z => shapeCast S1024 z shapeCasts_S1024x1_S1024) e2)
  rw [hPay_eq, mPay_eq] at e1
  exact e1.trans (tail_eq _ _ _ _ _ _ _ _ _ _ _ _ _ _ _ _)

end Cert.KernelIdeal.Hand

end
-- ==== Proof.RefRun.lean ====
import proofs.«180788_j42898133352735_1_alg».proof.Proof.RefOps
import proofs.«180788_j42898133352735_1_alg».proof.Proof.RefReadGen
import Idealize.ShloMosaic.Lib.StableHlo.Run
import Idealize.ShloMosaic.Lib.Pipeline.Frame

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-! # The reference's run, read stage by stage

The reference is a straight line of 96 host operations (`ops`). Its values form a directed acyclic graph: nine of them
(`main_v3`, `main_v12`, `main_v15`, `main_v18`, `main_v37`, `main_v46`, `main_v51`, `main_v60`, `main_v63`) are read more than
once. The line is cut into twelve consecutive pieces, each ending at a value a later piece reads. For one piece and ANY
buffer contents `V` before it, what its last buffer holds afterwards is that piece's operations applied to what `V` holds
at the few buffers the piece reads from outside: if those hold the stage functions `ReadP.val_main_vN` of sixteen values
`x0 … x15`, so does the piece's result. A piece changes only the buffers it writes (`after_of_writes_sub`), so the
arguments and the earlier shared values reach the pieces that read them. The twelve facts compose along
`after (l₁ ++ l₂) V = after l₂ (after l₁ V)` without ever forming the tree of the shared values' copies. -/

/-! ## The twelve pieces -/

/-- Operations 1–4: the first product and its bias, up to `main_v3`. -/
abbrev c1 : List (HloOp τ sig (Elt F)) :=
  [
    binary main_arg0 main_arg1 main_v0 ((fun l r => Host.dotGeneral dot_S1024x128_S128x256_S1024x256_1_0_0_1_n_n none l r) : (⟨S1024x128, .f32⟩ : BufTy).Contents (Elt F) → (⟨S128x256, .f32⟩ : BufTy).Contents (Elt F) → (⟨S1024x256, .f32⟩ : BufTy).Contents (Elt F)),
    unary main_arg2 main_v1 (broadcastInDim S1x256 ![1] bcast_S256_S1x256_1 : (⟨S256, .f32⟩ : BufTy).Contents (Elt F) → (⟨S1x256, .f32⟩ : BufTy).Contents (Elt F)),
    unary main_v1 main_v2 (broadcastInDim S1024x256 ![0, 1] bcast_S1x256_S1024x256_0_1 : (⟨S1x256, .f32⟩ : BufTy).Contents (Elt F) → (⟨S1024x256, .f32⟩ : BufTy).Contents (Elt F)),
    binary main_v0 main_v2 main_v3 (addf : (⟨S1024x256, .f32⟩ : BufTy).Contents (Elt F) → (⟨S1024x256, .f32⟩ : BufTy).Contents (Elt F) → (⟨S1024x256, .f32⟩ : BufTy).Contents (Elt F)) ]

/-- Operations 5–15: the leaky rectifier of `main_v3`, the second product and its bias, up to `main_v12`. -/
abbrev c2 : List (HloOp τ sig (Elt F)) :=
  [
    nullary main_cst (constant S_ .f32 0x00000000#32),
    unary main_cst main_v4 (broadcastInDim S1024x256 ![] bcast_S_S1024x256 : (⟨S_, .f32⟩ : BufTy).Contents (Elt F) → (⟨S1024x256, .f32⟩ : BufTy).Contents (Elt F)),
    binary main_v3 main_v4 main_v5 (cmpf .ogt : (⟨S1024x256, .f32⟩ : BufTy).Contents (Elt F) → (⟨S1024x256, .f32⟩ : BufTy).Contents (Elt F) → (⟨S1024x256, .i1⟩ : BufTy).Contents (Elt F)),
    nullary main_cst_0 (constant S_ .f32 0x3E4CCCCD#32),
    unary main_cst_0 main_v6 (broadcastInDim S1024x256 ![] bcast_S_S1024x256 : (⟨S_, .f32⟩ : BufTy).Contents (Elt F) → (⟨S1024x256, .f32⟩ : BufTy).Contents (Elt F)),
    binary main_v6 main_v3 main_v7 (mulf : (⟨S1024x256, .f32⟩ : BufTy).Contents (Elt F) → (⟨S1024x256, .f32⟩ : BufTy).Contents (Elt F) → (⟨S1024x256, .f32⟩ : BufTy).Contents (Elt F)),
    TRef.ternary (TRef.of (T := ⟨S1024x256, .i1⟩) main_v5) (TRef.of (T := ⟨S1024x256, .f32⟩) main_v3) (TRef.of (T := ⟨S1024x256, .f32⟩) main_v7) (TRef.of (T := ⟨S1024x256, .f32⟩) main_v8) select,
    binary main_v8 main_arg3 main_v9 ((fun l r => Host.dotGeneral dot_S1024x256_S256x128_S1024x128_1_0_0_1_n_n none l r) : (⟨S1024x256, .f32⟩ : BufTy).Contents (Elt F) → (⟨S256x128, .f32⟩ : BufTy).Contents (Elt F) → (⟨S1024x128, .f32⟩ : BufTy).Contents (Elt F)),
    unary main_arg4 main_v10 (broadcastInDim S1x128 ![1] bcast_S128_S1x128_1 : (⟨S128, .f32⟩ : BufTy).Contents (Elt F) → (⟨S1x128, .f32⟩ : BufTy).Contents (Elt F)),
    unary main_v10 main_v11 (broadcastInDim S1024x128 ![0, 1] bcast_S1x128_S1024x128_0_1 : (⟨S1x128, .f32⟩ : BufTy).Contents (Elt F) → (⟨S1024x128, .f32⟩ : BufTy).Contents (Elt F)),
    binary main_v9 main_v11 main_v12 (addf : (⟨S1024x128, .f32⟩ : BufTy).Contents (Elt F) → (⟨S1024x128, .f32⟩ : BufTy).Contents (Elt F) → (⟨S1024x128, .f32⟩ : BufTy).Contents (Elt F)) ]

/-- Operations 16–20: the column mean of `main_v12`, `main_v15`. -/
abbrev c3 : List (HloOp τ sig (Elt F)) :=
  [
    nullary main_cst_1 (constant S_ .f32 0x00000000#32),
    binary main_v12 main_cst_1 main_v13 ((fun x v => Host.reduceAdd x v reducesTo_S1024x128_S128_d0 h_S_) : (⟨S1024x128, .f32⟩ : BufTy).Contents (Elt F) → (⟨S_, .f32⟩ : BufTy).Contents (Elt F) → (⟨S128, .f32⟩ : BufTy).Contents (Elt F)),
    nullary main_cst_2 (constant S_ .f32 0x44800000#32),
    unary main_cst_2 main_v14 (broadcastInDim S128 ![] bcast_S_S128 : (⟨S_, .f32⟩ : BufTy).Contents (Elt F) → (⟨S128, .f32⟩ : BufTy).Contents (Elt F)),
    binary main_v13 main_v14 main_v15 (Host.divf : (⟨S128, .f32⟩ : BufTy).Contents (Elt F) → (⟨S128, .f32⟩ : BufTy).Contents (Elt F) → (⟨S128, .f32⟩ : BufTy).Contents (Elt F)) ]

/-- Operations 21–23: `main_v12` centred at its column mean, `main_v18`. -/
abbrev c4 : List (HloOp τ sig (Elt F)) :=
  [
    unary main_v15 main_v16 (broadcastInDim S1x128 ![1] bcast_S128_S1x128_1 : (⟨S128, .f32⟩ : BufTy).Contents (Elt F) → (⟨S1x128, .f32⟩ : BufTy).Contents (Elt F)),
    unary main_v16 main_v17 (broadcastInDim S1024x128 ![0, 1] bcast_S1x128_S1024x128_0_1 : (⟨S1x128, .f32⟩ : BufTy).Contents (Elt F) → (⟨S1024x128, .f32⟩ : BufTy).Contents (Elt F)),
    binary main_v12 main_v17 main_v18 (subf : (⟨S1024x128, .f32⟩ : BufTy).Contents (Elt F) → (⟨S1024x128, .f32⟩ : BufTy).Contents (Elt F) → (⟨S1024x128, .f32⟩ : BufTy).Contents (Elt F)) ]

/-- Operations 24–29: the column mean of the squares of `main_v18`, `main_v22`. -/
abbrev c5 : List (HloOp τ sig (Elt F)) :=
  [
    binary main_v18 main_v18 main_v19 (mulf : (⟨S1024x128, .f32⟩ : BufTy).Contents (Elt F) → (⟨S1024x128, .f32⟩ : BufTy).Contents (Elt F) → (⟨S1024x128, .f32⟩ : BufTy).Contents (Elt F)),
    nullary main_cst_3 (constant S_ .f32 0x00000000#32),
    binary main_v19 main_cst_3 main_v20 ((fun x v => Host.reduceAdd x v reducesTo_S1024x128_S128_d0 h_S_) : (⟨S1024x128, .f32⟩ : BufTy).Contents (Elt F) → (⟨S_, .f32⟩ : BufTy).Contents (Elt F) → (⟨S128, .f32⟩ : BufTy).Contents (Elt F)),
    nullary main_cst_4 (constant S_ .f32 0x44800000#32),
    unary main_cst_4 main_v21 (broadcastInDim S128 ![] bcast_S_S128 : (⟨S_, .f32⟩ : BufTy).Contents (Elt F) → (⟨S128, .f32⟩ : BufTy).Contents (Elt F)),
    binary main_v20 main_v21 main_v22 (Host.divf : (⟨S128, .f32⟩ : BufTy).Contents (Elt F) → (⟨S128, .f32⟩ : BufTy).Contents (Elt F) → (⟨S128, .f32⟩ : BufTy).Contents (Elt F)) ]

/-- Operations 30–45: `main_v12` centred, scaled by the inverse root of `main_v22` plus a constant, then scaled and shifted by two arguments, up to `main_v37`. -/
abbrev c6 : List (HloOp τ sig (Elt F)) :=
  [
    unary main_v15 main_v23 (broadcastInDim S1x128 ![1] bcast_S128_S1x128_1 : (⟨S128, .f32⟩ : BufTy).Contents (Elt F) → (⟨S1x128, .f32⟩ : BufTy).Contents (Elt F)),
    unary main_v23 main_v24 (broadcastInDim S1024x128 ![0, 1] bcast_S1x128_S1024x128_0_1 : (⟨S1x128, .f32⟩ : BufTy).Contents (Elt F) → (⟨S1024x128, .f32⟩ : BufTy).Contents (Elt F)),
    binary main_v12 main_v24 main_v25 (subf : (⟨S1024x128, .f32⟩ : BufTy).Contents (Elt F) → (⟨S1024x128, .f32⟩ : BufTy).Contents (Elt F) → (⟨S1024x128, .f32⟩ : BufTy).Contents (Elt F)),
    nullary main_cst_5 (constant S_ .f32 0x3727C5AC#32),
    unary main_cst_5 main_v26 (broadcastInDim S128 ![] bcast_S_S128 : (⟨S_, .f32⟩ : BufTy).Contents (Elt F) → (⟨S128, .f32⟩ : BufTy).Contents (Elt F)),
    binary main_v22 main_v26 main_v27 (addf : (⟨S128, .f32⟩ : BufTy).Contents (Elt F) → (⟨S128, .f32⟩ : BufTy).Contents (Elt F) → (⟨S128, .f32⟩ : BufTy).Contents (Elt F)),
    unary main_v27 main_v28 (Host.rsqrt : (⟨S128, .f32⟩ : BufTy).Contents (Elt F) → (⟨S128, .f32⟩ : BufTy).Contents (Elt F)),
    unary main_v28 main_v29 (broadcastInDim S1x128 ![1] bcast_S128_S1x128_1 : (⟨S128, .f32⟩ : BufTy).Contents (Elt F) → (⟨S1x128, .f32⟩ : BufTy).Contents (Elt F)),
    unary main_v29 main_v30 (broadcastInDim S1024x128 ![0, 1] bcast_S1x128_S1024x128_0_1 : (⟨S1x128, .f32⟩ : BufTy).Contents (Elt F) → (⟨S1024x128, .f32⟩ : BufTy).Contents (Elt F)),
    binary main_v25 main_v30 main_v31 (mulf : (⟨S1024x128, .f32⟩ : BufTy).Contents (Elt F) → (⟨S1024x128, .f32⟩ : BufTy).Contents (Elt F) → (⟨S1024x128, .f32⟩ : BufTy).Contents (Elt F)),
    unary main_arg5 main_v32 (broadcastInDim S1x128 ![1] bcast_S128_S1x128_1 : (⟨S128, .f32⟩ : BufTy).Contents (Elt F) → (⟨S1x128, .f32⟩ : BufTy).Contents (Elt F)),
    unary main_v32 main_v33 (broadcastInDim S1024x128 ![0, 1] bcast_S1x128_S1024x128_0_1 : (⟨S1x128, .f32⟩ : BufTy).Contents (Elt F) → (⟨S1024x128, .f32⟩ : BufTy).Contents (Elt F)),
    binary main_v31 main_v33 main_v34 (mulf : (⟨S1024x128, .f32⟩ : BufTy).Contents (Elt F) → (⟨S1024x128, .f32⟩ : BufTy).Contents (Elt F) → (⟨S1024x128, .f32⟩ : BufTy).Contents (Elt F)),
    unary main_arg6 main_v35 (broadcastInDim S1x128 ![1] bcast_S128_S1x128_1 : (⟨S128, .f32⟩ : BufTy).Contents (Elt F) → (⟨S1x128, .f32⟩ : BufTy).Contents (Elt F)),
    unary main_v35 main_v36 (broadcastInDim S1024x128 ![0, 1] bcast_S1x128_S1024x128_0_1 : (⟨S1x128, .f32⟩ : BufTy).Contents (Elt F) → (⟨S1024x128, .f32⟩ : BufTy).Contents (Elt F)),
    binary main_v34 main_v36 main_v37 (addf : (⟨S1024x128, .f32⟩ : BufTy).Contents (Elt F) → (⟨S1024x128, .f32⟩ : BufTy).Contents (Elt F) → (⟨S1024x128, .f32⟩ : BufTy).Contents (Elt F)) ]

/-- Operations 46–56: the leaky rectifier of `main_v37`, the third product and its bias, up to `main_v46`. -/
abbrev c7 : List (HloOp τ sig (Elt F)) :=
  [
    nullary main_cst_6 (constant S_ .f32 0x00000000#32),
    unary main_cst_6 main_v38 (broadcastInDim S1024x128 ![] bcast_S_S1024x128 : (⟨S_, .f32⟩ : BufTy).Contents (Elt F) → (⟨S1024x128, .f32⟩ : BufTy).Contents (Elt F)),
    binary main_v37 main_v38 main_v39 (cmpf .ogt : (⟨S1024x128, .f32⟩ : BufTy).Contents (Elt F) → (⟨S1024x128, .f32⟩ : BufTy).Contents (Elt F) → (⟨S1024x128, .i1⟩ : BufTy).Contents (Elt F)),
    nullary main_cst_7 (constant S_ .f32 0x3E4CCCCD#32),
    unary main_cst_7 main_v40 (broadcastInDim S1024x128 ![] bcast_S_S1024x128 : (⟨S_, .f32⟩ : BufTy).Contents (Elt F) → (⟨S1024x128, .f32⟩ : BufTy).Contents (Elt F)),
    binary main_v40 main_v37 main_v41 (mulf : (⟨S1024x128, .f32⟩ : BufTy).Contents (Elt F) → (⟨S1024x128, .f32⟩ : BufTy).Contents (Elt F) → (⟨S1024x128, .f32⟩ : BufTy).Contents (Elt F)),
    TRef.ternary (TRef.of (T := ⟨S1024x128, .i1⟩) main_v39) (TRef.of (T := ⟨S1024x128, .f32⟩) main_v37) (TRef.of (T := ⟨S1024x128, .f32⟩) main_v41) (TRef.of (T := ⟨S1024x128, .f32⟩) main_v42) select,
    binary main_v42 main_arg7 main_v43 ((fun l r => Host.dotGeneral dot_S1024x128_S128x64_S1024x64_1_0_0_1_n_n none l r) : (⟨S1024x128, .f32⟩ : BufTy).Contents (Elt F) → (⟨S128x64, .f32⟩ : BufTy).Contents (Elt F) → (⟨S1024x64, .f32⟩ : BufTy).Contents (Elt F)),
    unary main_arg8 main_v44 (broadcastInDim S1x64 ![1] bcast_S64_S1x64_1 : (⟨S64, .f32⟩ : BufTy).Contents (Elt F) → (⟨S1x64, .f32⟩ : BufTy).Contents (Elt F)),
    unary main_v44 main_v45 (broadcastInDim S1024x64 ![0, 1] bcast_S1x64_S1024x64_0_1 : (⟨S1x64, .f32⟩ : BufTy).Contents (Elt F) → (⟨S1024x64, .f32⟩ : BufTy).Contents (Elt F)),
    binary main_v43 main_v45 main_v46 (addf : (⟨S1024x64, .f32⟩ : BufTy).Contents (Elt F) → (⟨S1024x64, .f32⟩ : BufTy).Contents (Elt F) → (⟨S1024x64, .f32⟩ : BufTy).Contents (Elt F)) ]

/-- Operations 57–63: the leaky rectifier of `main_v46`, `main_v51`. -/
abbrev c8 : List (HloOp τ sig (Elt F)) :=
  [
    nullary main_cst_8 (constant S_ .f32 0x00000000#32),
    unary main_cst_8 main_v47 (broadcastInDim S1024x64 ![] bcast_S_S1024x64 : (⟨S_, .f32⟩ : BufTy).Contents (Elt F) → (⟨S1024x64, .f32⟩ : BufTy).Contents (Elt F)),
    binary main_v46 main_v47 main_v48 (cmpf .ogt : (⟨S1024x64, .f32⟩ : BufTy).Contents (Elt F) → (⟨S1024x64, .f32⟩ : BufTy).Contents (Elt F) → (⟨S1024x64, .i1⟩ : BufTy).Contents (Elt F)),
    nullary main_cst_9 (constant S_ .f32 0x3E4CCCCD#32),
    unary main_cst_9 main_v49 (broadcastInDim S1024x64 ![] bcast_S_S1024x64 : (⟨S_, .f32⟩ : BufTy).Contents (Elt F) → (⟨S1024x64, .f32⟩ : BufTy).Contents (Elt F)),
    binary main_v49 main_v46 main_v50 (mulf : (⟨S1024x64, .f32⟩ : BufTy).Contents (Elt F) → (⟨S1024x64, .f32⟩ : BufTy).Contents (Elt F) → (⟨S1024x64, .f32⟩ : BufTy).Contents (Elt F)),
    TRef.ternary (TRef.of (T := ⟨S1024x64, .i1⟩) main_v48) (TRef.of (T := ⟨S1024x64, .f32⟩) main_v46) (TRef.of (T := ⟨S1024x64, .f32⟩) main_v50) (TRef.of (T := ⟨S1024x64, .f32⟩) main_v51) select ]

/-- Operations 64–72: two products with biases and the residual sum over `main_v51`, up to `main_v60`. -/
abbrev c9 : List (HloOp τ sig (Elt F)) :=
  [
    binary main_v51 main_arg9 main_v52 ((fun l r => Host.dotGeneral dot_S1024x64_S64x64_S1024x64_1_0_0_1_n_n none l r) : (⟨S1024x64, .f32⟩ : BufTy).Contents (Elt F) → (⟨S64x64, .f32⟩ : BufTy).Contents (Elt F) → (⟨S1024x64, .f32⟩ : BufTy).Contents (Elt F)),
    unary main_arg10 main_v53 (broadcastInDim S1x64 ![1] bcast_S64_S1x64_1 : (⟨S64, .f32⟩ : BufTy).Contents (Elt F) → (⟨S1x64, .f32⟩ : BufTy).Contents (Elt F)),
    unary main_v53 main_v54 (broadcastInDim S1024x64 ![0, 1] bcast_S1x64_S1024x64_0_1 : (⟨S1x64, .f32⟩ : BufTy).Contents (Elt F) → (⟨S1024x64, .f32⟩ : BufTy).Contents (Elt F)),
    binary main_v52 main_v54 main_v55 (addf : (⟨S1024x64, .f32⟩ : BufTy).Contents (Elt F) → (⟨S1024x64, .f32⟩ : BufTy).Contents (Elt F) → (⟨S1024x64, .f32⟩ : BufTy).Contents (Elt F)),
    binary main_v55 main_arg11 main_v56 ((fun l r => Host.dotGeneral dot_S1024x64_S64x64_S1024x64_1_0_0_1_n_n none l r) : (⟨S1024x64, .f32⟩ : BufTy).Contents (Elt F) → (⟨S64x64, .f32⟩ : BufTy).Contents (Elt F) → (⟨S1024x64, .f32⟩ : BufTy).Contents (Elt F)),
    binary main_v51 main_v56 main_v57 (addf : (⟨S1024x64, .f32⟩ : BufTy).Contents (Elt F) → (⟨S1024x64, .f32⟩ : BufTy).Contents (Elt F) → (⟨S1024x64, .f32⟩ : BufTy).Contents (Elt F)),
    unary main_arg12 main_v58 (broadcastInDim S1x64 ![1] bcast_S64_S1x64_1 : (⟨S64, .f32⟩ : BufTy).Contents (Elt F) → (⟨S1x64, .f32⟩ : BufTy).Contents (Elt F)),
    unary main_v58 main_v59 (broadcastInDim S1024x64 ![0, 1] bcast_S1x64_S1024x64_0_1 : (⟨S1x64, .f32⟩ : BufTy).Contents (Elt F) → (⟨S1024x64, .f32⟩ : BufTy).Contents (Elt F)),
    binary main_v57 main_v59 main_v60 (addf : (⟨S1024x64, .f32⟩ : BufTy).Contents (Elt F) → (⟨S1024x64, .f32⟩ : BufTy).Contents (Elt F) → (⟨S1024x64, .f32⟩ : BufTy).Contents (Elt F)) ]

/-- Operations 73–75: the product of `main_v60` with the reshaped thirteenth argument, reshaped, `main_v63`. -/
abbrev c10 : List (HloOp τ sig (Elt F)) :=
  [
    reshape main_arg13 main_v61 rfl shapeCasts_S64x50x5_S64x250,
    binary main_v60 main_v61 main_v62 ((fun l r => Host.dotGeneral dot_S1024x64_S64x250_S1024x250_1_0_0_1_n_n none l r) : (⟨S1024x64, .f32⟩ : BufTy).Contents (Elt F) → (⟨S64x250, .f32⟩ : BufTy).Contents (Elt F) → (⟨S1024x250, .f32⟩ : BufTy).Contents (Elt F)),
    reshape main_v62 main_v63 rfl shapeCasts_S1024x250_S1024x50x5 ]

/-- Operations 76–90: the pairwise absolute differences of `main_v63`, summed, negated, exponentiated, summed over the first axis, minus one, `main_v75`. -/
abbrev c11 : List (HloOp τ sig (Elt F)) :=
  [
    unary main_v63 main_v64 (broadcastInDim S1024x1x50x5 ![0, 2, 3] bcast_S1024x50x5_S1024x1x50x5_0_2_3 : (⟨S1024x50x5, .f32⟩ : BufTy).Contents (Elt F) → (⟨S1024x1x50x5, .f32⟩ : BufTy).Contents (Elt F)),
    unary main_v63 main_v65 (broadcastInDim S1x1024x50x5 ![1, 2, 3] bcast_S1024x50x5_S1x1024x50x5_1_2_3 : (⟨S1024x50x5, .f32⟩ : BufTy).Contents (Elt F) → (⟨S1x1024x50x5, .f32⟩ : BufTy).Contents (Elt F)),
    unary main_v64 main_v66 (broadcastInDim S1024x1024x50x5 ![0, 1, 2, 3] bcast_S1024x1x50x5_S1024x1024x50x5_0_1_2_3 : (⟨S1024x1x50x5, .f32⟩ : BufTy).Contents (Elt F) → (⟨S1024x1024x50x5, .f32⟩ : BufTy).Contents (Elt F)),
    unary main_v65 main_v67 (broadcastInDim S1024x1024x50x5 ![0, 1, 2, 3] bcast_S1x1024x50x5_S1024x1024x50x5_0_1_2_3 : (⟨S1x1024x50x5, .f32⟩ : BufTy).Contents (Elt F) → (⟨S1024x1024x50x5, .f32⟩ : BufTy).Contents (Elt F)),
    binary main_v66 main_v67 main_v68 (subf : (⟨S1024x1024x50x5, .f32⟩ : BufTy).Contents (Elt F) → (⟨S1024x1024x50x5, .f32⟩ : BufTy).Contents (Elt F) → (⟨S1024x1024x50x5, .f32⟩ : BufTy).Contents (Elt F)),
    unary main_v68 main_v69 (Host.absf : (⟨S1024x1024x50x5, .f32⟩ : BufTy).Contents (Elt F) → (⟨S1024x1024x50x5, .f32⟩ : BufTy).Contents (Elt F)),
    nullary main_cst_10 (constant S_ .f32 0x00000000#32),
    binary main_v69 main_cst_10 main_v70 ((fun x v => Host.reduceAdd x v reducesTo_S1024x1024x50x5_S1024x1024x50_d3 h_S_) : (⟨S1024x1024x50x5, .f32⟩ : BufTy).Contents (Elt F) → (⟨S_, .f32⟩ : BufTy).Contents (Elt F) → (⟨S1024x1024x50, .f32⟩ : BufTy).Contents (Elt F)),
    unary main_v70 main_v71 (Host.negf : (⟨S1024x1024x50, .f32⟩ : BufTy).Contents (Elt F) → (⟨S1024x1024x50, .f32⟩ : BufTy).Contents (Elt F)),
    unary main_v71 main_v72 (Host.exp : (⟨S1024x1024x50, .f32⟩ : BufTy).Contents (Elt F) → (⟨S1024x1024x50, .f32⟩ : BufTy).Contents (Elt F)),
    nullary main_cst_11 (constant S_ .f32 0x00000000#32),
    binary main_v72 main_cst_11 main_v73 ((fun x v => Host.reduceAdd x v reducesTo_S1024x1024x50_S1024x50_d0 h_S_) : (⟨S1024x1024x50, .f32⟩ : BufTy).Contents (Elt F) → (⟨S_, .f32⟩ : BufTy).Contents (Elt F) → (⟨S1024x50, .f32⟩ : BufTy).Contents (Elt F)),
    nullary main_cst_12 (constant S_ .f32 0x3F800000#32),
    unary main_cst_12 main_v74 (broadcastInDim S1024x50 ![] bcast_S_S1024x50 : (⟨S_, .f32⟩ : BufTy).Contents (Elt F) → (⟨S1024x50, .f32⟩ : BufTy).Contents (Elt F)),
    binary main_v73 main_v74 main_v75 (subf : (⟨S1024x50, .f32⟩ : BufTy).Contents (Elt F) → (⟨S1024x50, .f32⟩ : BufTy).Contents (Elt F) → (⟨S1024x50, .f32⟩ : BufTy).Contents (Elt F)) ]

/-- Operations 91–96: `main_v60` joined with `main_v75`, the last product and its bias, reshaped, `main_v81`. -/
abbrev c12 : List (HloOp τ sig (Elt F)) :=
  [
    binary main_v60 main_v75 main_v76 ((fun a b => concatenate S1024x114 1 [⟨S1024x64, a⟩, ⟨S1024x50, b⟩] concatenates_S1024x64_S1024x50_S1024x114_d1) : (⟨S1024x64, .f32⟩ : BufTy).Contents (Elt F) → (⟨S1024x50, .f32⟩ : BufTy).Contents (Elt F) → (⟨S1024x114, .f32⟩ : BufTy).Contents (Elt F)),
    binary main_v76 main_arg14 main_v77 ((fun l r => Host.dotGeneral dot_S1024x114_S114x1_S1024x1_1_0_0_1_n_n none l r) : (⟨S1024x114, .f32⟩ : BufTy).Contents (Elt F) → (⟨S114x1, .f32⟩ : BufTy).Contents (Elt F) → (⟨S1024x1, .f32⟩ : BufTy).Contents (Elt F)),
    unary main_arg15 main_v78 (broadcastInDim S1x1 ![1] bcast_S1_S1x1_1 : (⟨S1, .f32⟩ : BufTy).Contents (Elt F) → (⟨S1x1, .f32⟩ : BufTy).Contents (Elt F)),
    unary main_v78 main_v79 (broadcastInDim S1024x1 ![0, 1] bcast_S1x1_S1024x1_0_1 : (⟨S1x1, .f32⟩ : BufTy).Contents (Elt F) → (⟨S1024x1, .f32⟩ : BufTy).Contents (Elt F)),
    binary main_v77 main_v79 main_v80 (addf : (⟨S1024x1, .f32⟩ : BufTy).Contents (Elt F) → (⟨S1024x1, .f32⟩ : BufTy).Contents (Elt F) → (⟨S1024x1, .f32⟩ : BufTy).Contents (Elt F)),
    reshape main_v80 main_v81 rfl shapeCasts_S1024x1_S1024 ]

set_option maxRecDepth 8192 in
/-- The line is its twelve pieces in a row. -/
theorem ops_split : (ops : List (HloOp τ sig (Elt F)))
    = c1 ++ (c2 ++ (c3 ++ (c4 ++ (c5 ++ (c6 ++ (c7 ++ (c8 ++ (c9 ++ (c10 ++ (c11 ++ c12)))))))))) := rfl

/-- Running the line is running the pieces one after the other. -/
theorem after_ops (V : Valuation τ sig (Elt F)) :
    after ops V = after c12 (after c11 (after c10 (after c9 (after c8 (after c7 (after c6 (after c5 (after c4
      (after c3 (after c2 (after c1 V))))))))))) := by
  rw [ops_split]; repeat rw [after_append]

/-! ## What each piece writes -/

/-- The references piece 1 writes. -/
abbrev c1_W : List (Ref sig .tc) := [main_v0, main_v1, main_v2, main_v3]
theorem c1_writes : (c1 : List (HloOp τ sig (Elt F))).Forall fun op => op.writes ⊆ (c1_W.map (Proc.devRef (τ := τ) .tc)).toFinset := by
  simp only [List.Forall, nullary_writes, unary_writes, binary_writes, ternary_writes, reshape_writes, Finset.singleton_subset_iff, List.mem_toFinset]
  repeat' refine And.intro ?_ ?_
  all_goals exact List.mem_map_of_mem (by decide)

/-- The references piece 2 writes. -/
abbrev c2_W : List (Ref sig .tc) := [main_cst, main_v4, main_v5, main_cst_0, main_v6, main_v7, main_v8, main_v9, main_v10, main_v11, main_v12]
theorem c2_writes : (c2 : List (HloOp τ sig (Elt F))).Forall fun op => op.writes ⊆ (c2_W.map (Proc.devRef (τ := τ) .tc)).toFinset := by
  simp only [List.Forall, nullary_writes, unary_writes, binary_writes, ternary_writes, reshape_writes, Finset.singleton_subset_iff, List.mem_toFinset]
  repeat' refine And.intro ?_ ?_
  all_goals exact List.mem_map_of_mem (by decide)

/-- The references piece 3 writes. -/
abbrev c3_W : List (Ref sig .tc) := [main_cst_1, main_v13, main_cst_2, main_v14, main_v15]
theorem c3_writes : (c3 : List (HloOp τ sig (Elt F))).Forall fun op => op.writes ⊆ (c3_W.map (Proc.devRef (τ := τ) .tc)).toFinset := by
  simp only [List.Forall, nullary_writes, unary_writes, binary_writes, ternary_writes, reshape_writes, Finset.singleton_subset_iff, List.mem_toFinset]
  repeat' refine And.intro ?_ ?_
  all_goals exact List.mem_map_of_mem (by decide)

/-- The references piece 4 writes. -/
abbrev c4_W : List (Ref sig .tc) := [main_v16, main_v17, main_v18]
theorem c4_writes : (c4 : List (HloOp τ sig (Elt F))).Forall fun op => op.writes ⊆ (c4_W.map (Proc.devRef (τ := τ) .tc)).toFinset := by
  simp only [List.Forall, nullary_writes, unary_writes, binary_writes, ternary_writes, reshape_writes, Finset.singleton_subset_iff, List.mem_toFinset]
  repeat' refine And.intro ?_ ?_
  all_goals exact List.mem_map_of_mem (by decide)

/-- The references piece 5 writes. -/
abbrev c5_W : List (Ref sig .tc) := [main_v19, main_cst_3, main_v20, main_cst_4, main_v21, main_v22]
theorem c5_writes : (c5 : List (HloOp τ sig (Elt F))).Forall fun op => op.writes ⊆ (c5_W.map (Proc.devRef (τ := τ) .tc)).toFinset := by
  simp only [List.Forall, nullary_writes, unary_writes, binary_writes, ternary_writes, reshape_writes, Finset.singleton_subset_iff, List.mem_toFinset]
  repeat' refine And.intro ?_ ?_
  all_goals exact List.mem_map_of_mem (by decide)

/-- The references piece 6 writes. -/
abbrev c6_W : List (Ref sig .tc) := [main_v23, main_v24, main_v25, main_cst_5, main_v26, main_v27, main_v28, main_v29, main_v30, main_v31, main_v32, main_v33, main_v34, main_v35, main_v36, main_v37]
theorem c6_writes : (c6 : List (HloOp τ sig (Elt F))).Forall fun op => op.writes ⊆ (c6_W.map (Proc.devRef (τ := τ) .tc)).toFinset := by
  simp only [List.Forall, nullary_writes, unary_writes, binary_writes, ternary_writes, reshape_writes, Finset.singleton_subset_iff, List.mem_toFinset]
  repeat' refine And.intro ?_ ?_
  all_goals exact List.mem_map_of_mem (by decide)

/-- The references piece 7 writes. -/
abbrev c7_W : List (Ref sig .tc) := [main_cst_6, main_v38, main_v39, main_cst_7, main_v40, main_v41, main_v42, main_v43, main_v44, main_v45, main_v46]
theorem c7_writes : (c7 : List (HloOp τ sig (Elt F))).Forall fun op => op.writes ⊆ (c7_W.map (Proc.devRef (τ := τ) .tc)).toFinset := by
  simp only [List.Forall, nullary_writes, unary_writes, binary_writes, ternary_writes, reshape_writes, Finset.singleton_subset_iff, List.mem_toFinset]
  repeat' refine And.intro ?_ ?_
  all_goals exact List.mem_map_of_mem (by decide)

/-- The references piece 8 writes. -/
abbrev c8_W : List (Ref sig .tc) := [main_cst_8, main_v47, main_v48, main_cst_9, main_v49, main_v50, main_v51]
theorem c8_writes : (c8 : List (HloOp τ sig (Elt F))).Forall fun op => op.writes ⊆ (c8_W.map (Proc.devRef (τ := τ) .tc)).toFinset := by
  simp only [List.Forall, nullary_writes, unary_writes, binary_writes, ternary_writes, reshape_writes, Finset.singleton_subset_iff, List.mem_toFinset]
  repeat' refine And.intro ?_ ?_
  all_goals exact List.mem_map_of_mem (by decide)

/-- The references piece 9 writes. -/
abbrev c9_W : List (Ref sig .tc) := [main_v52, main_v53, main_v54, main_v55, main_v56, main_v57, main_v58, main_v59, main_v60]
theorem c9_writes : (c9 : List (HloOp τ sig (Elt F))).Forall fun op => op.writes ⊆ (c9_W.map (Proc.devRef (τ := τ) .tc)).toFinset := by
  simp only [List.Forall, nullary_writes, unary_writes, binary_writes, ternary_writes, reshape_writes, Finset.singleton_subset_iff, List.mem_toFinset]
  repeat' refine And.intro ?_ ?_
  all_goals exact List.mem_map_of_mem (by decide)

/-- The references piece 10 writes. -/
abbrev c10_W : List (Ref sig .tc) := [main_v61, main_v62, main_v63]
theorem c10_writes : (c10 : List (HloOp τ sig (Elt F))).Forall fun op => op.writes ⊆ (c10_W.map (Proc.devRef (τ := τ) .tc)).toFinset := by
  simp only [List.Forall, nullary_writes, unary_writes, binary_writes, ternary_writes, reshape_writes, Finset.singleton_subset_iff, List.mem_toFinset]
  repeat' refine And.intro ?_ ?_
  all_goals exact List.mem_map_of_mem (by decide)

/-- The references piece 11 writes. -/
abbrev c11_W : List (Ref sig .tc) := [main_v64, main_v65, main_v66, main_v67, main_v68, main_v69, main_cst_10, main_v70, main_v71, main_v72, main_cst_11, main_v73, main_cst_12, main_v74, main_v75]
theorem c11_writes : (c11 : List (HloOp τ sig (Elt F))).Forall fun op => op.writes ⊆ (c11_W.map (Proc.devRef (τ := τ) .tc)).toFinset := by
  simp only [List.Forall, nullary_writes, unary_writes, binary_writes, ternary_writes, reshape_writes, Finset.singleton_subset_iff, List.mem_toFinset]
  repeat' refine And.intro ?_ ?_
  all_goals exact List.mem_map_of_mem (by decide)

/-- The references piece 12 writes. -/
abbrev c12_W : List (Ref sig .tc) := [main_v76, main_v77, main_v78, main_v79, main_v80, main_v81]
theorem c12_writes : (c12 : List (HloOp τ sig (Elt F))).Forall fun op => op.writes ⊆ (c12_W.map (Proc.devRef (τ := τ) .tc)).toFinset := by
  simp only [List.Forall, nullary_writes, unary_writes, binary_writes, ternary_writes, reshape_writes, Finset.singleton_subset_iff, List.mem_toFinset]
  repeat' refine And.intro ?_ ?_
  all_goals exact List.mem_map_of_mem (by decide)

/-! ## The arguments are never written -/

/-- The sixteen arguments of @main. -/
abbrev argRefs : List (Ref sig .tc) :=
  [main_arg0, main_arg1, main_arg2, main_arg3, main_arg4, main_arg5, main_arg6, main_arg7,
   main_arg8, main_arg9, main_arg10, main_arg11, main_arg12, main_arg13, main_arg14, main_arg15]

/-- `V'` holds at every argument what `V` holds there. -/
def SameArgs (V V' : Valuation τ sig (Elt F)) : Prop :=
  ∀ r ∈ argRefs, V' (Proc.devRef .tc r) = V (Proc.devRef .tc r)

theorem SameArgs.refl (V : Valuation τ sig (Elt F)) : SameArgs V V := fun _ _ => rfl

/-- A line that writes no argument keeps the arguments. -/
theorem SameArgs.after {V V' : Valuation τ sig (Elt F)} (h : SameArgs V V') (c : List (HloOp τ sig (Elt F)))
    {W : List (Ref sig .tc)} (hW : c.Forall fun op => op.writes ⊆ (W.map (Proc.devRef (τ := τ) .tc)).toFinset)
    (hd : ∀ r ∈ argRefs, r ∉ W) : SameArgs V (StableHlo.after c V') :=
  fun r hr => (after_of_writes_sub c V' hW (hd r hr)).trans (h r hr)

/-! ## One piece at a time

`V` is what the buffers hold before the piece; `x0 … x15` are any sixteen values of the arguments' types. Each lemma:
if the buffers the piece reads from outside hold the stage functions of `x0 … x15` (an argument `k`: `xk` itself), the
piece's last buffer afterwards holds its stage function of them. The fold over the piece's operations is computed
operation by operation; the shared values it reads are then replaced by their stage functions as they stand, and both
sides are the same composition of host operations over them. -/

variable (V : Valuation τ sig (Elt F))
variable {x0 : (⟨S1024x128, .f32⟩ : BufTy).Contents (Elt F)} {x1 : (⟨S128x256, .f32⟩ : BufTy).Contents (Elt F)}
  {x2 : (⟨S256, .f32⟩ : BufTy).Contents (Elt F)} {x3 : (⟨S256x128, .f32⟩ : BufTy).Contents (Elt F)}
  {x4 x5 x6 : (⟨S128, .f32⟩ : BufTy).Contents (Elt F)} {x7 : (⟨S128x64, .f32⟩ : BufTy).Contents (Elt F)}
  {x8 : (⟨S64, .f32⟩ : BufTy).Contents (Elt F)} {x9 : (⟨S64x64, .f32⟩ : BufTy).Contents (Elt F)}
  {x10 : (⟨S64, .f32⟩ : BufTy).Contents (Elt F)} {x11 : (⟨S64x64, .f32⟩ : BufTy).Contents (Elt F)}
  {x12 : (⟨S64, .f32⟩ : BufTy).Contents (Elt F)} {x13 : (⟨S64x50x5, .f32⟩ : BufTy).Contents (Elt F)}
  {x14 : (⟨S114x1, .f32⟩ : BufTy).Contents (Elt F)} {x15 : (⟨S1, .f32⟩ : BufTy).Contents (Elt F)}

theorem step1 (a0 : V (Proc.devRef .tc main_arg0) = x0) (a1 : V (Proc.devRef .tc main_arg1) = x1)
    (a2 : V (Proc.devRef .tc main_arg2) = x2) :
    after c1 V (Proc.devRef .tc main_v3) = val_main_v3 x0 x1 x2 := by
  subst a0 a1 a2
  after_results_simp
  rfl

theorem step2 (h3 : V (Proc.devRef .tc main_v3) = val_main_v3 x0 x1 x2)
    (a3 : V (Proc.devRef .tc main_arg3) = x3) (a4 : V (Proc.devRef .tc main_arg4) = x4) :
    after c2 V (Proc.devRef .tc main_v12) = val_main_v12 x0 x1 x2 x3 x4 := by
  subst a3 a4
  after_results_simp
  rw [h3]
  rfl

theorem step3 (h12 : V (Proc.devRef .tc main_v12) = val_main_v12 x0 x1 x2 x3 x4) :
    after c3 V (Proc.devRef .tc main_v15) = val_main_v15 x0 x1 x2 x3 x4 := by
  after_results_simp
  rw [h12]
  rfl

theorem step4 (h12 : V (Proc.devRef .tc main_v12) = val_main_v12 x0 x1 x2 x3 x4)
    (h15 : V (Proc.devRef .tc main_v15) = val_main_v15 x0 x1 x2 x3 x4) :
    after c4 V (Proc.devRef .tc main_v18) = val_main_v18 x0 x1 x2 x3 x4 := by
  after_results_simp
  rw [h12, h15]
  rfl

theorem step5 (h18 : V (Proc.devRef .tc main_v18) = val_main_v18 x0 x1 x2 x3 x4) :
    after c5 V (Proc.devRef .tc main_v22) = val_main_v22 x0 x1 x2 x3 x4 := by
  after_results_simp
  rw [h18]
  rfl

theorem step6 (h12 : V (Proc.devRef .tc main_v12) = val_main_v12 x0 x1 x2 x3 x4)
    (h15 : V (Proc.devRef .tc main_v15) = val_main_v15 x0 x1 x2 x3 x4)
    (h22 : V (Proc.devRef .tc main_v22) = val_main_v22 x0 x1 x2 x3 x4)
    (a5 : V (Proc.devRef .tc main_arg5) = x5) (a6 : V (Proc.devRef .tc main_arg6) = x6) :
    after c6 V (Proc.devRef .tc main_v37) = val_main_v37 x0 x1 x2 x3 x4 x5 x6 := by
  subst a5 a6
  after_results_simp
  rw [h12, h15, h22]
  rfl

theorem step7 (h37 : V (Proc.devRef .tc main_v37) = val_main_v37 x0 x1 x2 x3 x4 x5 x6)
    (a7 : V (Proc.devRef .tc main_arg7) = x7) (a8 : V (Proc.devRef .tc main_arg8) = x8) :
    after c7 V (Proc.devRef .tc main_v46) = val_main_v46 x0 x1 x2 x3 x4 x5 x6 x7 x8 := by
  subst a7 a8
  after_results_simp
  rw [h37]
  rfl

theorem step8 (h46 : V (Proc.devRef .tc main_v46) = val_main_v46 x0 x1 x2 x3 x4 x5 x6 x7 x8) :
    after c8 V (Proc.devRef .tc main_v51) = val_main_v51 x0 x1 x2 x3 x4 x5 x6 x7 x8 := by
  after_results_simp
  rw [h46]
  rfl

theorem step9 (h51 : V (Proc.devRef .tc main_v51) = val_main_v51 x0 x1 x2 x3 x4 x5 x6 x7 x8)
    (a9 : V (Proc.devRef .tc main_arg9) = x9) (a10 : V (Proc.devRef .tc main_arg10) = x10)
    (a11 : V (Proc.devRef .tc main_arg11) = x11) (a12 : V (Proc.devRef .tc main_arg12) = x12) :
    after c9 V (Proc.devRef .tc main_v60) = val_main_v60 x0 x1 x2 x3 x4 x5 x6 x7 x8 x9 x10 x11 x12 := by
  subst a9 a10 a11 a12
  after_results_simp
  rw [h51]
  rfl

theorem step10 (h60 : V (Proc.devRef .tc main_v60) = val_main_v60 x0 x1 x2 x3 x4 x5 x6 x7 x8 x9 x10 x11 x12)
    (a13 : V (Proc.devRef .tc main_arg13) = x13) :
    after c10 V (Proc.devRef .tc main_v63) = val_main_v63 x0 x1 x2 x3 x4 x5 x6 x7 x8 x9 x10 x11 x12 x13 := by
  subst a13
  after_results_simp
  rw [h60]
  rfl

theorem step11 (h63 : V (Proc.devRef .tc main_v63) = val_main_v63 x0 x1 x2 x3 x4 x5 x6 x7 x8 x9 x10 x11 x12 x13) :
    after c11 V (Proc.devRef .tc main_v75) = val_main_v75 x0 x1 x2 x3 x4 x5 x6 x7 x8 x9 x10 x11 x12 x13 := by
  after_results_simp
  rw [h63]
  rfl

theorem step12 (h60 : V (Proc.devRef .tc main_v60) = val_main_v60 x0 x1 x2 x3 x4 x5 x6 x7 x8 x9 x10 x11 x12)
    (h75 : V (Proc.devRef .tc main_v75) = val_main_v75 x0 x1 x2 x3 x4 x5 x6 x7 x8 x9 x10 x11 x12 x13)
    (a14 : V (Proc.devRef .tc main_arg14) = x14) (a15 : V (Proc.devRef .tc main_arg15) = x15) :
    after c12 V (Proc.devRef .tc main_v81) = val_main_v81 x0 x1 x2 x3 x4 x5 x6 x7 x8 x9 x10 x11 x12 x13 x14 x15 := by
  subst a14 a15
  after_results_simp
  rw [h60, h75]
  rfl

/-! ## The whole line -/

/-- After the whole line the arguments hold what they held. -/
theorem ops_args : SameArgs V (after ops V) := by
  rw [after_ops]
  exact ((((((((((((SameArgs.refl V).after c1 c1_writes (by decide)).after c2 c2_writes (by decide)).after
    c3 c3_writes (by decide)).after c4 c4_writes (by decide)).after c5 c5_writes (by decide)).after c6 c6_writes
    (by decide)).after c7 c7_writes (by decide)).after c8 c8_writes (by decide)).after c9 c9_writes (by decide)).after
    c10 c10_writes (by decide)).after c11 c11_writes (by decide)).after c12 c12_writes (by decide)

/-- After the whole line `main_v81` holds its stage function of the arguments' contents before it: the twelve
    pieces in order, each reading its arguments as the pieces before it left them (unchanged) and the shared values as
    the pieces that made them left them (carried across the pieces in between, which do not write them). -/
theorem ops_v81 : after ops V (Proc.devRef .tc main_v81)
    = val_main_v81 (V (Proc.devRef .tc main_arg0)) (V (Proc.devRef .tc main_arg1)) (V (Proc.devRef .tc main_arg2))
        (V (Proc.devRef .tc main_arg3)) (V (Proc.devRef .tc main_arg4)) (V (Proc.devRef .tc main_arg5))
        (V (Proc.devRef .tc main_arg6)) (V (Proc.devRef .tc main_arg7)) (V (Proc.devRef .tc main_arg8))
        (V (Proc.devRef .tc main_arg9)) (V (Proc.devRef .tc main_arg10)) (V (Proc.devRef .tc main_arg11))
        (V (Proc.devRef .tc main_arg12)) (V (Proc.devRef .tc main_arg13)) (V (Proc.devRef .tc main_arg14))
        (V (Proc.devRef .tc main_arg15)) := by
  have s0 := SameArgs.refl V
  have s1 := s0.after c1 c1_writes (by decide)
  have s2 := s1.after c2 c2_writes (by decide)
  have s3 := s2.after c3 c3_writes (by decide)
  have s4 := s3.after c4 c4_writes (by decide)
  have s5 := s4.after c5 c5_writes (by decide)
  have s6 := s5.after c6 c6_writes (by decide)
  have s7 := s6.after c7 c7_writes (by decide)
  have s8 := s7.after c8 c8_writes (by decide)
  have s9 := s8.after c9 c9_writes (by decide)
  have s10 := s9.after c10 c10_writes (by decide)
  have s11 := s10.after c11 c11_writes (by decide)
  have e3 := step1 V rfl rfl rfl
  have e12 := step2 _ e3 (s1 main_arg3 (by decide)) (s1 main_arg4 (by decide))
  have e15 := step3 _ e12
  have e12a := (after_of_writes_sub c3 _ c3_writes (by decide : main_v12 ∉ c3_W)).trans e12
  have e18 := step4 _ e12a e15
  have e12b := (after_of_writes_sub c4 _ c4_writes (by decide : main_v12 ∉ c4_W)).trans e12a
  have e15b := (after_of_writes_sub c4 _ c4_writes (by decide : main_v15 ∉ c4_W)).trans e15
  have e22 := step5 _ e18
  have e12c := (after_of_writes_sub c5 _ c5_writes (by decide : main_v12 ∉ c5_W)).trans e12b
  have e15c := (after_of_writes_sub c5 _ c5_writes (by decide : main_v15 ∉ c5_W)).trans e15b
  have e37 := step6 _ e12c e15c e22 (s5 main_arg5 (by decide)) (s5 main_arg6 (by decide))
  have e46 := step7 _ e37 (s6 main_arg7 (by decide)) (s6 main_arg8 (by decide))
  have e51 := step8 _ e46
  have e60 := step9 _ e51 (s8 main_arg9 (by decide)) (s8 main_arg10 (by decide)) (s8 main_arg11 (by decide))
    (s8 main_arg12 (by decide))
  have e63 := step10 _ e60 (s9 main_arg13 (by decide))
  have e60a := (after_of_writes_sub c10 _ c10_writes (by decide : main_v60 ∉ c10_W)).trans e60
  have e75 := step11 _ e63
  have e60b := (after_of_writes_sub c11 _ c11_writes (by decide : main_v60 ∉ c11_W)).trans e60a
  rw [after_ops]
  exact step12 _ e60b e75 (s11 main_arg14 (by decide)) (s11 main_arg15 (by decide))

/-! ## The run -/

set_option maxRecDepth 8192 in
set_option maxHeartbeats 4000000 in
/-- On every device, for any float values, from any memory with zero counters: every weakly fair execution of @main
    terminates with `main_v81` at its stage function of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v81) = Cert.ReferenceIdeal.ReadP.val_main_v81 (F := F)
          (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
          (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v81).trans (ops_v81 (launchContents m c)),
      (h c main_arg0).trans (ops_args (launchContents m c) main_arg0 (by decide)),
      (h c main_arg1).trans (ops_args (launchContents m c) main_arg1 (by decide)),
      (h c main_arg2).trans (ops_args (launchContents m c) main_arg2 (by decide)),
      (h c main_arg3).trans (ops_args (launchContents m c) main_arg3 (by decide)),
      (h c main_arg4).trans (ops_args (launchContents m c) main_arg4 (by decide)),
      (h c main_arg5).trans (ops_args (launchContents m c) main_arg5 (by decide)),
      (h c main_arg6).trans (ops_args (launchContents m c) main_arg6 (by decide)),
      (h c main_arg7).trans (ops_args (launchContents m c) main_arg7 (by decide)),
      (h c main_arg8).trans (ops_args (launchContents m c) main_arg8 (by decide)),
      (h c main_arg9).trans (ops_args (launchContents m c) main_arg9 (by decide)),
      (h c main_arg10).trans (ops_args (launchContents m c) main_arg10 (by decide)),
      (h c main_arg11).trans (ops_args (launchContents m c) main_arg11 (by decide)),
      (h c main_arg12).trans (ops_args (launchContents m c) main_arg12 (by decide)),
      (h c main_arg13).trans (ops_args (launchContents m c) main_arg13 (by decide)),
      (h c main_arg14).trans (ops_args (launchContents m c) main_arg14 (by decide)),
      (h c main_arg15).trans (ops_args (launchContents m c) main_arg15 (by decide))⟩)
    (run_seq scopedRefs_eq scopedSems_eq defs main (fun _ => ops) main_eq (fun _ => ops_sub) m ρ)

end Cert.ReferenceIdeal.HandRun

end
-- ==== Proof.lean ====
/- The certificate's claim: the three programs run to the end faulting nowhere and leave their arguments as launched; the
   idealized kernel is the kernel's own text read over the extended reals (no rewrite: nothing to preserve); and over the
   extended reals the idealized kernel and the reference, run from memories that agree on the sixteen arguments, end
   with equal scores.

   The kernel program is host reshapes and slices around two calls: a backbone (three dense layers with a batch
   normalisation and leaky rectifiers, a value / output projection added back, and a projection onto a table) run at
   one grid point over whole arrays, and a pairwise stage on an 8 × 8 grid that accumulates, along the key axis, the
   row sums of exp (−‖·‖₁) between feature rows, and scores each row at the last key block. Each call's frame is its
   proof data and body obligation; the run threads every unscoped buffer's contents through the five segments and
   reads them all at the end, which gives the frame and the result's contents at once. The reference is a straight
   host program, run operation by operation. The two results are then compared stage by stage. -/
import proofs.«180788_j42898133352735_1_alg».proof.Defs
import proofs.«180788_j42898133352735_1_alg».proof.Proof.Gen.Kernel
import proofs.«180788_j42898133352735_1_alg».proof.Proof.Gen.KernelIdeal
import proofs.«180788_j42898133352735_1_alg».proof.Proof.Gen.ReferenceIdeal
import proofs.«180788_j42898133352735_1_alg».proof.Proof.Gen.Pre_finite_inputs
import proofs.«180788_j42898133352735_1_alg».proof.Proof.K.Run
import proofs.«180788_j42898133352735_1_alg».proof.Proof.KI.Bridge
import proofs.«180788_j42898133352735_1_alg».proof.Proof.RefRun
import Idealize.ShloMosaic.Adequacy
import Idealize.ShloMosaic.Init

noncomputable section

namespace Cert.Proof

open Idealize.ShloMosaic Idealize.SL.Sem

theorem frame_k : Cert.frame_Kernel :=
  fun m ρ _ => Cert.Kernel.Hand.frame m ρ

theorem frame_ki : Cert.frame_KernelIdeal :=
  fun m ρ _ => Cert.KernelIdeal.Hand.frame m ρ

theorem frame_ri : Cert.frame_ReferenceIdeal :=
  fun m ρ _ => (θ_run Cert.ReferenceIdeal.defs _ _).mono (fun _ h c => (h c).2) (Cert.ReferenceIdeal.HandRun.run (F := Ideal) m ρ)

/-- Both programs end with the score array the reference's stages compute from the (shared) arguments. -/
theorem algebraic : Cert.algebraic_KernelIdeal_ReferenceIdeal := by
  intro m ρ m' ρ' _ hagree
  refine ⟨fun c => Cert.KernelIdeal.Hand.kernelOut (F := Ideal) m c, Cert.KernelIdeal.Hand.run_all (F := Ideal) m ρ, ?_⟩
  refine (θ_run Cert.ReferenceIdeal.defs _ _).mono (fun _ h c => ⟨(h c).1.trans ?_, (h c).2⟩) (Cert.ReferenceIdeal.HandRun.run (F := Ideal) m' ρ')
  obtain ⟨h0, h1, h2, h3, h4, h5, h6, h7, h8, h9, h10, h11, h12, h13, h14, h15⟩ := hagree c
  rw [h0, h1, h2, h3, h4, h5, h6, h7, h8, h9, h10, h11, h12, h13, h14, h15]
  exact (Cert.KernelIdeal.Hand.kernelOut_ref m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
